-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1000000 : Shape := ⟨2, ![2, 1000000]⟩
abbrev S1000000x1 : Shape := ⟨2, ![1000000, 1]⟩
abbrev S100000 : Shape := ⟨1, ![100000]⟩
abbrev S100x64 : Shape := ⟨2, ![100, 64]⟩
abbrev S64x1 : Shape := ⟨2, ![64, 1]⟩
abbrev S64 : Shape := ⟨1, ![64]⟩
abbrev S3x64x64 : Shape := ⟨3, ![3, 64, 64]⟩
abbrev S3x192x64 : Shape := ⟨3, ![3, 192, 64]⟩
abbrev S3x192 : Shape := ⟨2, ![3, 192]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩
abbrev S1x1000000 : Shape := ⟨2, ![1, 1000000]⟩
abbrev S1000000 : Shape := ⟨1, ![1000000]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x192x64 : S_.BroadcastsInDim S3x192x64 (![] : Fin 0 → Fin S3x192x64.rank)
  reducesTo_S3x192x64_S_d0_1_2 : S3x192x64.ReducesTo [0, 1, 2] S_
  bcast_S_S3x192 : S_.BroadcastsInDim S3x192 (![] : Fin 0 → Fin S3x192.rank)
  reducesTo_S3x192_S_d0_1 : S3x192.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v80 : IVec S_ 1) (main_v84 : IVec S1000000 1) (main_v85 : IVec S1x1000000 32) : IVec S_ 1 :=
  let main_v86 : IVec S1000000 32 := shapeCast S1000000 main_v85 shapeCasts_S1x1000000_S1000000
  let main_c_32 : IVec S_ 32 := constantI S_ 32 100000#32
  let main_v87 : IVec S1000000 32 := broadcastInDim S1000000 ![] bcast_S_S1000000 main_c_32
  let main_v88 : IVec S1000000 1 := cmpi .slt main_v86 main_v87
  let main_v89 : IVec S1000000 1 := andi main_v84 main_v88
  let main_c_33 : IVec S_ 1 := constantI S_ 1 1#1
  let main_v90 : IVec S_ 1 := (fun x v => Host.reduce IntOp.andi x v reducesTo_S1000000_S_d0 h_S_) main_v89 main_c_33
  let main_v91 : IVec S_ 1 := andi main_v80 main_v90
  main_v91

def fn_part4 {F : FTy → Type} [FloatOps F] (main_arg0 : IVec S100000x1 32) (main_arg1 : IVec S2x1000000 32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 4294967196#32
  let main_v74 : IVec S100000x1 32 := broadcastInDim S100000x1 ![] bcast_S_S100000x1 main_c_28
  let main_v75 : IVec S100000x1 1 := cmpi .sge main_arg0 main_v74
  let main_c_29 : IVec S_ 32 := constantI S_ 32 100#32
  let main_v76 : IVec S100000x1 32 := broadcastInDim S100000x1 ![] bcast_S_S100000x1 main_c_29
  let main_v77 : IVec S100000x1 1 := cmpi .slt main_arg0 main_v76
  let main_v78 : IVec S100000x1 1 := andi main_v75 main_v77
  let main_c_30 : IVec S_ 1 := constantI S_ 1 1#1
  let main_v79 : IVec S_ 1 := (fun x v => Host.reduce IntOp.andi x v reducesTo_S100000x1_S_d0_1 h_S_) main_v78 main_c_30
  let main_v80 : IVec S_ 1 := andi main_v73 main_v79
  let main_v81 : IVec S1x1000000 32 := (extractStridedSlice S1x1000000 ![0, 0] · slices_S2x1000000_S1x1000000_0_0) main_arg1
  let main_v82 : IVec S1000000 32 := shapeCast S1000000 main_v81 shapeCasts_S1x1000000_S1000000
  let main_c_31 : IVec S_ 32 := constantI S_ 32 4294867296#32
  let main_v83 : IVec S1000000 32 := broadcastInDim S1000000 ![] bcast_S_S1000000 main_c_31
  let main_v84 : IVec S1000000 1 := cmpi .sge main_v82 main_v83
  let main_v85 : IVec S1x1000000 32 := (extractStridedSlice S1x1000000 ![0, 0] · slices_S2x1000000_S1x1000000_0_0) main_arg1
  fn_part5 (F := F) main_v80 main_v84 main_v85

def fn_part3 {F : FTy → Type} [FloatOps F] (main_arg0 : IVec S100000x1 32) (main_arg1 : IVec S2x1000000 32) (main_arg14 : FVec F S16x32 .f32) (main_arg15 : FVec F S16 .f32) (main_arg16 : FVec F S1x16 .f32) (main_arg17 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S16x32 .f32 := Host.absf main_arg14
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S16 .f32 := Host.absf main_arg15
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S1x16 .f32 := Host.absf main_arg16
  let main_cst_24 : FVec F S_ .f32 := constant S_ .f32 0x7F800000#32
  let main_v65 : FVec F S1x16 .f32 := broadcastInDim S1x16 ![] bcast_S_S1x16 main_cst_24
  let main_v66 : IVec S1x16 1 := cmpf .olt main_v64 main_v65
  let main_c_25 : IVec S_ 1 := constantI S_ 1 1#1
  let main_v67 : IVec S_ 1 := (fun x v => Host.reduce IntOp.andi x v reducesTo_S1x16_S_d0_1 h_S_) main_v66 main_c_25
  fn_part4 (F := F) main_arg0 main_arg1 main_arg17 main_v63 main_v67

def fn_part2 {F : FTy → Type} [FloatOps F] (main_arg0 : IVec S100000x1 32) (main_arg1 : IVec S2x1000000 32) (main_arg10 : FVec F S3x192 .f32) (main_arg11 : FVec F S3x192 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) (main_v33 : IVec S_ 1) : IVec S_ 1 :=
  let main_v34 : FVec F S3x192 .f32 := Host.absf main_arg10
  let main_cst_12 : FVec F S_ .f32 := constant S_ .f32 0x7F800000#32
  let main_v35 : FVec F S3x192 .f32 := broadcastInDim S3x192 ![] bcast_S_S3x192 main_cst_12
  let main_v36 : IVec S3x192 1 := cmpf .olt main_v34 main_v35
  let main_c_13 : IVec S_ 1 := constantI S_ 1 1#1
  let main_v37 : IVec S_ 1 := (fun x v => Host.reduce IntOp.andi x v reducesTo_S3x192_S_d0_1 h_S_) main_v36 main_c_13
  let main_v38 : IVec S_ 1 := andi main_v33 main_v37
  let main_v39 : FVec F S3x192 .f32 := Host.absf main_arg11
  let main_cst_14 : FVec F S_ .f32 := constant S_ .f32 0x7F800000#32
  let main_v40 : FVec F S3x192 .f32 := broadcastInDim S3x192 ![] bcast_S_S3x192 main_cst_14
  let main_v41 : IVec S3x192 1 := cmpf .olt main_v39 main_v40
  let main_c_15 : IVec S_ 1 := constantI S_ 1 1#1
  let main_v42 : IVec S_ 1 := (fun x v => Host.reduce IntOp.andi x v reducesTo_S3x192_S_d0_1 h_S_) main_v41 main_c_15
  let main_v43 : IVec S_ 1 := andi main_v38 main_v42
  let main_v44 : FVec F S32x64 .f32 := Host.absf main_arg12
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg0 main_arg1 main_arg14 main_arg15 main_arg16 main_arg17 main_v48 main_v49 main_v50

def fn_part1 {F : FTy → Type} [FloatOps F] (main_arg0 : IVec S100000x1 32) (main_arg1 : IVec S2x1000000 32) (main_arg7 : FVec F S3x64x64 .f32) (main_arg8 : FVec F S3x192x64 .f32) (main_arg9 : FVec F S3x192x64 .f32) (main_arg10 : FVec F S3x192 .f32) (main_arg11 : FVec F S3x192 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg7
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x192x64 .f32 := Host.absf main_arg8
  let main_cst_8 : FVec F S_ .f32 := constant S_ .f32 0x7F800000#32
  let main_v25 : FVec F S3x192x64 .f32 := broadcastInDim S3x192x64 ![] bcast_S_S3x192x64 main_cst_8
  let main_v26 : IVec S3x192x64 1 := cmpf .olt main_v24 main_v25
  let main_c_9 : IVec S_ 1 := constantI S_ 1 1#1
  let main_v27 : IVec S_ 1 := (fun x v => Host.reduce IntOp.andi x v reducesTo_S3x192x64_S_d0_1_2 h_S_) main_v26 main_c_9
  let main_v28 : IVec S_ 1 := andi main_v23 main_v27
  let main_v29 : FVec F S3x192x64 .f32 := Host.absf main_arg9
  let main_cst_10 : FVec F S_ .f32 := constant S_ .f32 0x7F800000#32
  let main_v30 : FVec F S3x192x64 .f32 := broadcastInDim S3x192x64 ![] bcast_S_S3x192x64 main_cst_10
  let main_v31 : IVec S3x192x64 1 := cmpf .olt main_v29 main_v30
  let main_c_11 : IVec S_ 1 := constantI S_ 1 1#1
  let main_v32 : IVec S_ 1 := (fun x v => Host.reduce IntOp.andi x v reducesTo_S3x192x64_S_d0_1_2 h_S_) main_v31 main_c_11
  let main_v33 : IVec S_ 1 := andi main_v28 main_v32
  fn_part2 (F := F) main_arg0 main_arg1 main_arg10 main_arg11 main_arg12 main_arg13 main_arg14 main_arg15 main_arg16 main_arg17 main_v33

def fn {F : FTy → Type} [FloatOps F] (main_arg0 : IVec S100000x1 32) (main_arg1 : IVec S2x1000000 32) (main_arg2 : FVec F S1000000x1 .f32) (main_arg3 : IVec S100000 32) (main_arg4 : FVec F S100x64 .f32) (main_arg5 : FVec F S64x1 .f32) (main_arg6 : FVec F S64 .f32) (main_arg7 : FVec F S3x64x64 .f32) (main_arg8 : FVec F S3x192x64 .f32) (main_arg9 : FVec F S3x192x64 .f32) (main_arg10 : FVec F S3x192 .f32) (main_arg11 : FVec F S3x192 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) : IVec S_ 1 :=
  let main_v0 : FVec F S1000000x1 .f32 := Host.absf main_arg2
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S100x64 .f32 := Host.absf main_arg4
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64x1 .f32 := Host.absf main_arg5
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg7 main_arg8 main_arg9 main_arg10 main_arg11 main_arg12 main_arg13 main_arg14 main_arg15 main_arg16 main_arg17 main_v13 main_v16
-- ==== Kernel.lean ====
abbrev S100000x1 : Shape := ⟨2, ![100000, 1]⟩
abbrev S2x1000000 : Shape := ⟨2, ![2, 1000000]⟩
abbrev S1000000x1 : Shape := ⟨2, ![1000000, 1]⟩
abbrev S100000 : Shape := ⟨1, ![100000]⟩
abbrev S100x64 : Shape := ⟨2, ![100, 64]⟩
abbrev S64x1 : Shape := ⟨2, ![64, 1]⟩
abbrev S64 : Shape := ⟨1, ![64]⟩
abbrev S3x64x64 : Shape := ⟨3, ![3, 64, 64]⟩
abbrev S3x192x64 : Shape := ⟨3, ![3, 192, 64]⟩
abbrev S3x192 : Shape := ⟨2, ![3, 192]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩
abbrev S1x1 : Shape := ⟨2, ![1, 1]⟩
abbrev S100000x64 : Shape := ⟨2, ![100000, 64]⟩
abbrev S1x1000000 : Shape := ⟨2, ![1, 1000000]⟩
abbrev S1000000 : Shape := ⟨1, ![1000000]⟩
abbrev S3x64x192 : Shape := ⟨3, ![3, 64, 192]⟩
abbrev S1x64x64 : Shape := ⟨3, ![1, 64, 64]⟩
abbrev S64x64 : Shape := ⟨2, ![64, 64]⟩
abbrev S5000x64 : Shape := ⟨2, ![5000, 64]⟩
abbrev S1000000x64 : Shape := ⟨2, ![1000000, 64]⟩
abbrev S1x64x192 : Shape := ⟨3, ![1, 64, 192]⟩
abbrev S64x192 : Shape := ⟨2, ![64, 192]⟩
abbrev S1x192 : Shape := ⟨2, ![1, 192]⟩
abbrev S192 : Shape := ⟨1, ![192]⟩
abbrev S5000x192 : Shape := ⟨2, ![5000, 192]⟩
abbrev S256x64 : Shape := ⟨2, ![256, 64]⟩
abbrev S256x1 : Shape := ⟨2, ![256, 1]⟩
abbrev S5000x1 : Shape := ⟨2, ![5000, 1]⟩
abbrev S5000x256 : Shape := ⟨2, ![5000, 256]⟩
abbrev S64x32 : Shape := ⟨2, ![64, 32]⟩
abbrev S256x32 : Shape := ⟨2, ![256, 32]⟩
abbrev S1x32 : Shape := ⟨2, ![1, 32]⟩
abbrev S32x16 : Shape := ⟨2, ![32, 16]⟩
abbrev S256x16 : Shape := ⟨2, ![256, 16]⟩
abbrev S16x1 : Shape := ⟨2, ![16, 1]⟩
abbrev S256 : Shape := ⟨1, ![256]⟩

abbrev nBuf : Space → Nat
  | .hbm => 201
  | .vmem => 51
  | .smem => 0
  | _ => 0

abbrev hbmTy0_0 (i : Nat) : BufTy := match i % 128 with
  | 0 => ⟨S100000x1, .i32⟩
  | 1 => ⟨S2x1000000, .i32⟩
  | 2 => ⟨S1000000x1, .f32⟩
  | 3 => ⟨S100000, .i32⟩
  | 4 => ⟨S100x64, .f32⟩
  | 5 => ⟨S64x1, .f32⟩
  | 6 => ⟨S64, .f32⟩
  | 7 => ⟨S3x64x64, .f32⟩
  | 8 => ⟨S3x192x64, .f32⟩
  | 9 => ⟨S3x192x64, .f32⟩
  | 10 => ⟨S3x192, .f32⟩
  | 11 => ⟨S3x192, .f32⟩
  | 12 => ⟨S32x64, .f32⟩
  | 13 => ⟨S32, .f32⟩
  | 14 => ⟨S16x32, .f32⟩
  | 15 => ⟨S16, .f32⟩
  | 16 => ⟨S1x16, .f32⟩
  | 17 => ⟨S1, .f32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S1, .i32⟩
  | 28 => ⟨S_, .i32⟩
  | 29 => ⟨S100000x1, .i32⟩
  | 30 => ⟨S100000x1, .i1⟩
  | 31 => ⟨S1x1, .i32⟩
  | 32 => ⟨S100000x1, .i32⟩
  | 33 => ⟨S100000x1, .i1⟩
  | 34 => ⟨S100000x1, .i1⟩
  | 35 => ⟨S_, .i1⟩
  | 36 => ⟨S100000, .i1⟩
  | 37 => ⟨S100000x64, .f32⟩
  | 38 => ⟨S100000x64, .i1⟩
  | 39 => ⟨S_, .f32⟩
  | 40 => ⟨S100000x64, .f32⟩
  | 41 => ⟨S100000x64, .f32⟩
  | 42 => ⟨S1x1000000, .i32⟩
  | 43 => ⟨S1000000, .i32⟩
  | 44 => ⟨S1x1000000, .i32⟩
  | 45 => ⟨S1000000, .i32⟩
  | 46 => ⟨S3x64x192, .f32⟩
  | 47 => ⟨S3x64x192, .f32⟩
  | 48 => ⟨S1x64x64, .f32⟩
  | 49 => ⟨S64x64, .f32⟩
  | 50 => ⟨S100000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1, .i32⟩
  | 60 => ⟨S_, .i32⟩
  | 61 => ⟨S1000000x1, .i32⟩
  | 62 => ⟨S1000000x1, .i1⟩
  | 63 => ⟨S1x1, .i32⟩
  | 64 => ⟨S1000000x1, .i32⟩
  | 65 => ⟨S1000000x1, .i1⟩
  | 66 => ⟨S1000000x1, .i1⟩
  | 67 => ⟨S_, .i1⟩
  | 68 => ⟨S1000000, .i1⟩
  | 69 => ⟨S1000000x64, .f32⟩
  | 70 => ⟨S1000000x64, .i1⟩
  | 71 => ⟨S_, .f32⟩
  | 72 => ⟨S1000000x64, .f32⟩
  | 73 => ⟨S1000000x64, .f32⟩
  | 74 => ⟨S_, .f32⟩
  | 75 => ⟨S100000x64, .f32⟩
  | 76 => ⟨S1000000x1, .i32⟩
  | 77 => ⟨S100000x64, .f32⟩
  | 78 => ⟨S1x64x192, .f32⟩
  | 79 => ⟨S64x192, .f32⟩
  | 80 => ⟨S1x64x192, .f32⟩
  | 81 => ⟨S64x192, .f32⟩
  | 82 => ⟨S1x192, .f32⟩
  | 83 => ⟨S192, .f32⟩
  | 84 => ⟨S1x192, .f32⟩
  | 85 => ⟨S192, .f32⟩
  | 86 => ⟨S1x192, .f32⟩
  | 87 => ⟨S1x192, .f32⟩
  | 88 => ⟨S100000x64, .f32⟩
  | 89 => ⟨S1x64x64, .f32⟩
  | 90 => ⟨S64x64, .f32⟩
  | 91 => ⟨S100000x64, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1, .i32⟩
  | 101 => ⟨S_, .i32⟩
  | 102 => ⟨S1000000x1, .i32⟩
  | 103 => ⟨S1000000x1, .i1⟩
  | 104 => ⟨S1x1, .i32⟩
  | 105 => ⟨S1000000x1, .i32⟩
  | 106 => ⟨S1000000x1, .i1⟩
  | 107 => ⟨S1000000x1, .i1⟩
  | 108 => ⟨S_, .i1⟩
  | 109 => ⟨S1000000, .i1⟩
  | 110 => ⟨S1000000x64, .f32⟩
  | 111 => ⟨S1000000x64, .i1⟩
  | 112 => ⟨S_, .f32⟩
  | 113 => ⟨S1000000x64, .f32⟩
  | 114 => ⟨S1000000x64, .f32⟩
  | 115 => ⟨S_, .f32⟩
  | 116 => ⟨S100000x64, .f32⟩
  | 117 => ⟨S1000000x1, .i32⟩
  | 118 => ⟨S100000x64, .f32⟩
  | 119 => ⟨S1x64x192, .f32⟩
  | 120 => ⟨S64x192, .f32⟩
  | 121 => ⟨S1x64x192, .f32⟩
  | 122 => ⟨S64x192, .f32⟩
  | 123 => ⟨S1x192, .f32⟩
  | 124 => ⟨S192, .f32⟩
  | 125 => ⟨S1x192, .f32⟩
  | 126 => ⟨S192, .f32⟩
  | 127 => ⟨S1x192, .f32⟩
  | _ => ⟨S100000x1, .i32⟩

abbrev hbmTy0_1 (i : Nat) : BufTy := match i % 128 with
  | 0 => ⟨S1x192, .f32⟩
  | 1 => ⟨S100000x64, .f32⟩
  | 2 => ⟨S1x64x64, .f32⟩
  | 3 => ⟨S64x64, .f32⟩
  | 4 => ⟨S100000x64, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1, .i32⟩
  | 14 => ⟨S_, .i32⟩
  | 15 => ⟨S1000000x1, .i32⟩
  | 16 => ⟨S1000000x1, .i1⟩
  | 17 => ⟨S1x1, .i32⟩
  | 18 => ⟨S1000000x1, .i32⟩
  | 19 => ⟨S1000000x1, .i1⟩
  | 20 => ⟨S1000000x1, .i1⟩
  | 21 => ⟨S_, .i1⟩
  | 22 => ⟨S1000000, .i1⟩
  | 23 => ⟨S1000000x64, .f32⟩
  | 24 => ⟨S1000000x64, .i1⟩
  | 25 => ⟨S_, .f32⟩
  | 26 => ⟨S1000000x64, .f32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S1x64x192, .f32⟩
  | 33 => ⟨S64x192, .f32⟩
  | 34 => ⟨S1x64x192, .f32⟩
  | 35 => ⟨S64x192, .f32⟩
  | 36 => ⟨S1x192, .f32⟩
  | 37 => ⟨S192, .f32⟩
  | 38 => ⟨S1x192, .f32⟩
  | 39 => ⟨S192, .f32⟩
  | 40 => ⟨S1x192, .f32⟩
  | 41 => ⟨S1x192, .f32⟩
  | 42 => ⟨S100000x64, .f32⟩
  | 43 => ⟨S100000x1, .i32⟩
  | 44 => ⟨S256x64, .f32⟩
  | 45 => ⟨S256x1, .f32⟩
  | 46 => ⟨S_, .f32⟩
  | 47 => ⟨S256x1, .f32⟩
  | 48 => ⟨S256x1, .f32⟩
  | 49 => ⟨S256x64, .f32⟩
  | 50 => ⟨S256x64, .f32⟩
  | 51 => ⟨S64x32, .f32⟩
  | 52 => ⟨S256x32, .f32⟩
  | 53 => ⟨S1x32, .f32⟩
  | 54 => ⟨S256x32, .f32⟩
  | 55 => ⟨S256x32, .f32⟩
  | 56 => ⟨S_, .f32⟩
  | 57 => ⟨S256x32, .f32⟩
  | 58 => ⟨S256x32, .f32⟩
  | 59 => ⟨S32x16, .f32⟩
  | 60 => ⟨S256x16, .f32⟩
  | 61 => ⟨S1x16, .f32⟩
  | 62 => ⟨S256x16, .f32⟩
  | 63 => ⟨S256x16, .f32⟩
  | 64 => ⟨S_, .f32⟩
  | 65 => ⟨S256x16, .f32⟩
  | 66 => ⟨S256x16, .f32⟩
  | 67 => ⟨S16x1, .f32⟩
  | 68 => ⟨S256x1, .f32⟩
  | 69 => ⟨S1x1, .f32⟩
  | 70 => ⟨S256x1, .f32⟩
  | 71 => ⟨S256x1, .f32⟩
  | 72 => ⟨S256, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x192, .f32⟩
  | .local _ .vmem, ⟨10, _⟩ => ⟨S64x192, .f32⟩
  | .local _ .vmem, ⟨11, _⟩ => ⟨S1x192, .f32⟩
  | .local _ .vmem, ⟨12, _⟩ => ⟨S1x192, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x192, .f32⟩
  | .local _ .vmem, ⟨25, _⟩ => ⟨S64x192, .f32⟩
  | .local _ .vmem, ⟨26, _⟩ => ⟨S1x192, .f32⟩
  | .local _ .vmem, ⟨27, _⟩ => ⟨S1x192, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x192, .f32⟩
  | .local _ .vmem, ⟨40, _⟩ => ⟨S64x192, .f32⟩
  | .local _ .vmem, ⟨41, _⟩ => ⟨S1x192, .f32⟩
  | .local _ .vmem, ⟨42, _⟩ => ⟨S1x192, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x1, .i32⟩
  | .local _ .vmem, ⟨48, _⟩ => ⟨S5000x1, .i32⟩
  | .local _ .vmem, ⟨49, _⟩ => ⟨S256x64, .f32⟩
  | .local _ .vmem, ⟨50, _⟩ => ⟨S256x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v11 : Ref sig .tc := ⟨.hbm, 73, rfl⟩
abbrev main_cst : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v29 : Ref sig .tc := ⟨.hbm, 114, rfl⟩
abbrev main_cst_0 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_v14 : Ref sig .tc := ⟨.hbm, 152, rfl⟩
abbrev main_call3_cst : Ref sig .tc := ⟨.hbm, 153, rfl⟩
abbrev main_call3_v15 : Ref sig .tc := ⟨.hbm, 154, rfl⟩
abbrev main_v47 : Ref sig .tc := ⟨.hbm, 155, rfl⟩
abbrev main_cst_1 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63_0 : Ref sig .tc := ⟨.hbm, 172, rfl⟩
abbrev main_v63_1 : Ref sig .tc := ⟨.hbm, 173, rfl⟩
abbrev main_cst_2 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_call4_cst : Ref sig .tc := ⟨.hbm, 184, rfl⟩
abbrev main_call4_v0 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_call5_cst : Ref sig .tc := ⟨.hbm, 192, rfl⟩
abbrev main_call5_v0 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S3x192x64_S3x64x192_0_2_1 : S3x192x64.Transposes [0, 2, 1] S3x64x192
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S3x64x192_S1x64x192_0_0_0 : S3x64x192.Slices ![0, 0, 0] S1x64x192
  shapeCasts_S1x64x192_S64x192 : S1x64x192.ShapeCasts S64x192
  slices_S3x192_S1x192_0_0 : S3x192.Slices ![0, 0] S1x192
  shapeCasts_S1x192_S192 : S1x192.ShapeCasts S192
  shapeCasts_S192_S1x192 : S192.ShapeCasts S1x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  slices_S3x64x64_S1x64x64_1_0_0 : S3x64x64.Slices ![1, 0, 0] S1x64x64
  slices_S3x64x192_S1x64x192_1_0_0 : S3x64x192.Slices ![1, 0, 0] S1x64x192
  slices_S3x192_S1x192_1_0 : S3x192.Slices ![1, 0] S1x192
  slices_S3x64x64_S1x64x64_2_0_0 : S3x64x64.Slices ![2, 0, 0] S1x64x64
  slices_S3x64x192_S1x64x192_2_0_0 : S3x64x192.Slices ![2, 0, 0] S1x64x192
  slices_S3x192_S1x192_2_0 : S3x192.Slices ![2, 0] S1x192
  shapeCasts_S100000_S100000x1 : S100000.ShapeCasts S100000x1
  inb_S256x64_S256x64_0_0 : ∀ a, (![0, 0] : Fin 2 → Nat) a + S256x64.size a ≤ S256x64.size a
  h_S256x64 : 0 < S256x64.numel
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  shapeCasts_S256x64_S256x64 : S256x64.ShapeCasts S256x64
  shapeCasts_S256x1_S256x1 : S256x1.ShapeCasts S256x1
  bcast_S_S256x1 : S_.BroadcastsInDim S256x1 (![] : Fin 0 → Fin S256x1.rank)
  bcast_S256x1_S256x64_0_1 : S256x1.BroadcastsInDim S256x64 (![0, 1] : Fin 2 → Fin S256x64.rank)
  transposes_S32x64_S64x32_1_0 : S32x64.Transposes [1, 0] S64x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S16x32_S32x16_1_0 : S16x32.Transposes [1, 0] S32x16
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  transposes_S1x16_S16x1_1_0 : S1x16.Transposes [1, 0] S16x1
  bcast_S1x1_S256x1_0_1 : S1x1.BroadcastsInDim S256x1 (![0, 1] : Fin 2 → Fin S256x1.rank)
  shapeCasts_S256x1_S256 : S256x1.ShapeCasts S256
  gather_S100x64_S100000x1_S100000x64_1_0_n_n_0_1_164_wf : GatherDims.WF S100x64 S100000x1 S100000x64 [1] [0] [] [0] [] 1 ![1, 64]
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x192_S5000x192_1_0_0_1_n_n_wf : DotDims.WF S5000x64 S64x192 S5000x192 [1] [0] [0] [1] [] []
  dot_S5000x256_S5000x64_S256x64_0_0_1_1_n_n_wf : DotDims.WF S5000x256 S5000x64 S256x64 [0] [0] [1] [1] [] []
  dot_S5000x256_S5000x1_S256x1_0_0_1_1_n_n_wf : DotDims.WF S5000x256 S5000x1 S256x1 [0] [0] [1] [1] [] []
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x192.size a ≤ S64x192.size a
  hwx3_3 : ∀ i : grid3.Coords, EltTy.bits .f32 = 32 ∨ (Rect.block (s := S64x192) S64x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x192.size a ≤ S64x192.size a
  hwx5_3 : ∀ i : grid5.Coords, EltTy.bits .f32 = 32 ∨ (Rect.block (s := S64x192) S64x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x64.size a ≤ S256x64.size a
  hwx6_2 : ∀ i : grid6.Coords, EltTy.bits .f32 = 32 ∨ (Rect.block (s := S256x64) S256x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S256x1.size a
  hwx6_3 : ∀ i : grid6.Coords, EltTy.bits .f32 = 32 ∨ (Rect.block (s := S256x1) S256x1.size (cc6_transform_3 i) (hinb6_3 i)).WholeWords (EltTy.packing .f32)

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S64x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S64x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v61) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v61) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v62) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63_0) S256x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v63_1) S256x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x1000000 : Shape := ⟨2, ![2, 1000000]⟩
abbrev S1000000x1 : Shape := ⟨2, ![1000000, 1]⟩
abbrev S100000 : Shape := ⟨1, ![100000]⟩
abbrev S100x64 : Shape := ⟨2, ![100, 64]⟩
abbrev S64x1 : Shape := ⟨2, ![64, 1]⟩
abbrev S64 : Shape := ⟨1, ![64]⟩
abbrev S3x64x64 : Shape := ⟨3, ![3, 64, 64]⟩
abbrev S3x192x64 : Shape := ⟨3, ![3, 192, 64]⟩
abbrev S3x192 : Shape := ⟨2, ![3, 192]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩
abbrev S100000x64 : Shape := ⟨2, ![100000, 64]⟩
abbrev S1x64 : Shape := ⟨2, ![1, 64]⟩
abbrev S1000000x64 : Shape := ⟨2, ![1000000, 64]⟩
abbrev S1x1000000 : Shape := ⟨2, ![1, 1000000]⟩
abbrev S1000000 : Shape := ⟨1, ![1000000]⟩
abbrev S1x64x64 : Shape := ⟨3, ![1, 64, 64]⟩
abbrev S64x64 : Shape := ⟨2, ![64, 64]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S64x192 : Shape := ⟨2, ![64, 192]⟩
abbrev S100000x192 : Shape := ⟨2, ![100000, 192]⟩
abbrev S256x64 : Shape := ⟨2, ![256, 64]⟩
abbrev S256x1 : Shape := ⟨2, ![256, 1]⟩
abbrev S64x32 : Shape := ⟨2, ![64, 32]⟩
abbrev S256x32 : Shape := ⟨2, ![256, 32]⟩
abbrev S1x32 : Shape := ⟨2, ![1, 32]⟩
abbrev S32x16 : Shape := ⟨2, ![32, 16]⟩
abbrev S256x16 : Shape := ⟨2, ![256, 16]⟩
abbrev S16x1 : Shape := ⟨2, ![16, 1]⟩
abbrev S1x1 : Shape := ⟨2, ![1, 1]⟩
abbrev S256 : Shape := ⟨1, ![256]⟩

abbrev nBuf : Space → Nat
  | .hbm => 284
  | .vmem => 0
  | .smem => 0
  | _ => 0

abbrev hbmTy0_0 (i : Nat) : BufTy := match i % 128 with
  | 0 => ⟨S100000x1, .i32⟩
  | 1 => ⟨S2x1000000, .i32⟩
  | 2 => ⟨S1000000x1, .f32⟩
  | 3 => ⟨S100000, .i32⟩
  | 4 => ⟨S100x64, .f32⟩
  | 5 => ⟨S64x1, .f32⟩
  | 6 => ⟨S64, .f32⟩
  | 7 => ⟨S3x64x64, .f32⟩
  | 8 => ⟨S3x192x64, .f32⟩
  | 9 => ⟨S3x192x64, .f32⟩
  | 10 => ⟨S3x192, .f32⟩
  | 11 => ⟨S3x192, .f32⟩
  | 12 => ⟨S32x64, .f32⟩
  | 13 => ⟨S32, .f32⟩
  | 14 => ⟨S16x32, .f32⟩
  | 15 => ⟨S16, .f32⟩
  | 16 => ⟨S1x16, .f32⟩
  | 17 => ⟨S1, .f32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x64, .f32⟩
  | 28 => ⟨S1x64, .f32⟩
  | 29 => ⟨S1000000x64, .f32⟩
  | 30 => ⟨S1x64, .f32⟩
  | 31 => ⟨S1000000x64, .f32⟩
  | 32 => ⟨S1000000x64, .f32⟩
  | 33 => ⟨S1x1000000, .i32⟩
  | 34 => ⟨S1000000, .i32⟩
  | 35 => ⟨S1x1000000, .i32⟩
  | 36 => ⟨S1000000, .i32⟩
  | 37 => ⟨S1x64x64, .f32⟩
  | 38 => ⟨S64x64, .f32⟩
  | 39 => ⟨S100000x64, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S_, .f32⟩
  | 50 => ⟨S100000x64, .f32⟩
  | 51 => ⟨S1000000x1, .i32⟩
  | 52 => ⟨S100000x64, .f32⟩
  | 53 => ⟨S1x192x64, .f32⟩
  | 54 => ⟨S192x64, .f32⟩
  | 55 => ⟨S1x192x64, .f32⟩
  | 56 => ⟨S192x64, .f32⟩
  | 57 => ⟨S1x192, .f32⟩
  | 58 => ⟨S192, .f32⟩
  | 59 => ⟨S1x192, .f32⟩
  | 60 => ⟨S192, .f32⟩
  | 61 => ⟨S64x192, .f32⟩
  | 62 => ⟨S100000x192, .f32⟩
  | 63 => ⟨S1x192, .f32⟩
  | 64 => ⟨S100000x192, .f32⟩
  | 65 => ⟨S100000x192, .f32⟩
  | 66 => ⟨S64x192, .f32⟩
  | 67 => ⟨S100000x192, .f32⟩
  | 68 => ⟨S1x192, .f32⟩
  | 69 => ⟨S100000x192, .f32⟩
  | 70 => ⟨S100000x192, .f32⟩
  | 71 => ⟨S100000x64, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S_, .f32⟩
  | 120 => ⟨S100000x64, .f32⟩
  | 121 => ⟨S1000000x1, .i32⟩
  | 122 => ⟨S100000x64, .f32⟩
  | 123 => ⟨S1x192x64, .f32⟩
  | 124 => ⟨S192x64, .f32⟩
  | 125 => ⟨S1x192x64, .f32⟩
  | 126 => ⟨S192x64, .f32⟩
  | 127 => ⟨S1x192, .f32⟩
  | _ => ⟨S100000x1, .i32⟩

abbrev hbmTy0_1 (i : Nat) : BufTy := match i % 128 with
  | 0 => ⟨S192, .f32⟩
  | 1 => ⟨S1x192, .f32⟩
  | 2 => ⟨S192, .f32⟩
  | 3 => ⟨S64x192, .f32⟩
  | 4 => ⟨S100000x192, .f32⟩
  | 5 => ⟨S1x192, .f32⟩
  | 6 => ⟨S100000x192, .f32⟩
  | 7 => ⟨S100000x192, .f32⟩
  | 8 => ⟨S64x192, .f32⟩
  | 9 => ⟨S100000x192, .f32⟩
  | 10 => ⟨S1x192, .f32⟩
  | 11 => ⟨S100000x192, .f32⟩
  | 12 => ⟨S100000x192, .f32⟩
  | 13 => ⟨S100000x64, .f32⟩
  | 14 => ⟨S100000x64, .f32⟩
  | 15 => ⟨S100000x64, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S_, .f32⟩
  | 62 => ⟨S100000x64, .f32⟩
  | 63 => ⟨S1000000x1, .i32⟩
  | 64 => ⟨S100000x64, .f32⟩
  | 65 => ⟨S1x192x64, .f32⟩
  | 66 => ⟨S192x64, .f32⟩
  | 67 => ⟨S1x192x64, .f32⟩
  | 68 => ⟨S192x64, .f32⟩
  | 69 => ⟨S1x192, .f32⟩
  | 70 => ⟨S192, .f32⟩
  | 71 => ⟨S1x192, .f32⟩
  | 72 => ⟨S192, .f32⟩
  | 73 => ⟨S64x192, .f32⟩
  | 74 => ⟨S100000x192, .f32⟩
  | 75 => ⟨S1x192, .f32⟩
  | 76 => ⟨S100000x192, .f32⟩
  | 77 => ⟨S100000x192, .f32⟩
  | 78 => ⟨S64x192, .f32⟩
  | 79 => ⟨S100000x192, .f32⟩
  | 80 => ⟨S1x192, .f32⟩
  | 81 => ⟨S100000x192, .f32⟩
  | 82 => ⟨S100000x192, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S256x64, .f32⟩
  | 121 => ⟨S100000x1, .i32⟩
  | 122 => ⟨S256x64, .f32⟩
  | 123 => ⟨S_, .f32⟩
  | 124 => ⟨S100000x1, .f32⟩
  | 125 => ⟨S_, .f32⟩
  | 126 => ⟨S256x1, .f32⟩
  | 127 => ⟨S100000x1, .i32⟩
  | _ => ⟨S100000x1, .i32⟩

abbrev hbmTy0_2 (i : Nat) : BufTy := match i % 128 with
  | 0 => ⟨S256x1, .f32⟩
  | 1 => ⟨S_, .f32⟩
  | 2 => ⟨S256x1, .f32⟩
  | 3 => ⟨S256x1, .f32⟩
  | 4 => ⟨S256x64, .f32⟩
  | 5 => ⟨S256x64, .f32⟩
  | 6 => ⟨S64x32, .f32⟩
  | 7 => ⟨S256x32, .f32⟩
  | 8 => ⟨S1x32, .f32⟩
  | 9 => ⟨S256x32, .f32⟩
  | 10 => ⟨S256x32, .f32⟩
  | 11 => ⟨S_, .f32⟩
  | 12 => ⟨S256x32, .f32⟩
  | 13 => ⟨S256x32, .f32⟩
  | 14 => ⟨S32x16, .f32⟩
  | 15 => ⟨S256x16, .f32⟩
  | 16 => ⟨S1x16, .f32⟩
  | 17 => ⟨S256x16, .f32⟩
  | 18 => ⟨S256x16, .f32⟩
  | 19 => ⟨S_, .f32⟩
  | 20 => ⟨S256x16, .f32⟩
  | 21 => ⟨S256x16, .f32⟩
  | 22 => ⟨S16x1, .f32⟩
  | 23 => ⟨S256x1, .f32⟩
  | 24 => ⟨S1x1, .f32⟩
  | 25 => ⟨S256x1, .f32⟩
  | 26 => ⟨S256x1, .f32⟩
  | 27 => ⟨S256, .f32⟩
  | _ => ⟨S100000x1, .i32⟩

abbrev hbmTy (i : Nat) : BufTy := match i / 128 with
  | 0 => hbmTy0_0 i
  | 1 => hbmTy0_1 i
  | 2 => hbmTy0_2 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_1 : Ref sig .tc := ⟨.hbm, 40, rfl⟩
abbrev main_v20 : Ref sig .tc := ⟨.hbm, 41, rfl⟩
abbrev main_v21 : Ref sig .tc := ⟨.hbm, 42, rfl⟩
abbrev main_c_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_3 : Ref sig .tc := ⟨.hbm, 80, rfl⟩
abbrev main_v57 : Ref sig .tc := ⟨.hbm, 81, rfl⟩
abbrev main_v58 : Ref sig .tc := ⟨.hbm, 82, rfl⟩
abbrev main_cst_4 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_5 : Ref sig .tc := ⟨.hbm, 89, rfl⟩
abbrev main_v64 : Ref sig .tc := ⟨.hbm, 90, rfl⟩
abbrev main_v65 : Ref sig .tc := ⟨.hbm, 91, rfl⟩
abbrev main_cst_6 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call0_cst : Ref sig .tc := ⟨.hbm, 104, rfl⟩
abbrev main_call0_v0 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_8 : Ref sig .tc := ⟨.hbm, 110, rfl⟩
abbrev main_v80 : Ref sig .tc := ⟨.hbm, 111, rfl⟩
abbrev main_v81 : Ref sig .tc := ⟨.hbm, 112, rfl⟩
abbrev main_c_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_11 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_13 : Ref sig .tc := ⟨.hbm, 159, rfl⟩
abbrev main_v124 : Ref sig .tc := ⟨.hbm, 160, rfl⟩
abbrev main_v125 : Ref sig .tc := ⟨.hbm, 161, rfl⟩
abbrev main_cst_14 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_15 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_call1_cst : Ref sig .tc := ⟨.hbm, 174, rfl⟩
abbrev main_call1_v0 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_16 : Ref sig .tc := ⟨.hbm, 180, rfl⟩
abbrev main_v140 : Ref sig .tc := ⟨.hbm, 181, rfl⟩
abbrev main_v141 : Ref sig .tc := ⟨.hbm, 182, rfl⟩
abbrev main_c_17 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_18 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_19 : Ref sig .tc := ⟨.hbm, 220, rfl⟩
abbrev main_v177 : Ref sig .tc := ⟨.hbm, 221, rfl⟩
abbrev main_v178 : Ref sig .tc := ⟨.hbm, 222, rfl⟩
abbrev main_cst_20 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_21 : Ref sig .tc := ⟨.hbm, 229, rfl⟩
abbrev main_v184 : Ref sig .tc := ⟨.hbm, 230, rfl⟩
abbrev main_v185 : Ref sig .tc := ⟨.hbm, 231, rfl⟩
abbrev main_cst_22 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_23 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_call2_cst : Ref sig .tc := ⟨.hbm, 244, rfl⟩
abbrev main_call2_v0 : Ref sig .tc := ⟨.hbm, 245, rfl⟩
abbrev main_v196 : Ref sig .tc := ⟨.hbm, 246, rfl⟩
abbrev main_cst_24 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_25 : Ref sig .tc := ⟨.hbm, 251, rfl⟩
abbrev main_v200 : Ref sig .tc := ⟨.hbm, 252, rfl⟩
abbrev main_cst_26 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_cst_27 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_call3_cst : Ref sig .tc := ⟨.hbm, 267, rfl⟩
abbrev main_call3_v0 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_call4_cst : Ref sig .tc := ⟨.hbm, 275, rfl⟩
abbrev main_call4_v0 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  transposes_S64x1_S1x64_1_0 : S64x1.Transposes [1, 0] S1x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S3x64x64_S1x64x64_0_0_0 : S3x64x64.Slices ![0, 0, 0] S1x64x64
  shapeCasts_S1x64x64_S64x64 : S1x64x64.ShapeCasts S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x192x64_S1x192x64_0_0_0 : S3x192x64.Slices ![0, 0, 0] S1x192x64
  shapeCasts_S1x192x64_S192x64 : S1x192x64.ShapeCasts S192x64
  slices_S3x192_S1x192_0_0 : S3x192.Slices ![0, 0] S1x192
  shapeCasts_S1x192_S192 : S1x192.ShapeCasts S192
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S3x64x64_S1x64x64_1_0_0 : S3x64x64.Slices ![1, 0, 0] S1x64x64
  slices_S3x192x64_S1x192x64_1_0_0 : S3x192x64.Slices ![1, 0, 0] S1x192x64
  slices_S3x192_S1x192_1_0 : S3x192.Slices ![1, 0] S1x192
  slices_S3x64x64_S1x64x64_2_0_0 : S3x64x64.Slices ![2, 0, 0] S1x64x64
  slices_S3x192x64_S1x192x64_2_0_0 : S3x192x64.Slices ![2, 0, 0] S1x192x64
  slices_S3x192_S1x192_2_0 : S3x192.Slices ![2, 0] S1x192
  bcast_S_S256x64 : S_.BroadcastsInDim S256x64 (![] : Fin 0 → Fin S256x64.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  transposes_S32x64_S64x32_1_0 : S32x64.Transposes [1, 0] S64x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S16x32_S32x16_1_0 : S16x32.Transposes [1, 0] S32x16
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  transposes_S1x16_S16x1_1_0 : S1x16.Transposes [1, 0] S16x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100x64_S100000x1_S100000x64_1_0_n_n_0_1_164_wf : GatherDims.WF S100x64 S100000x1 S100000x64 [1] [0] [] [0] [] 1 ![1, 64]
  dot_S1000000x1_S1x64_S1000000x64_1_0_0_1_n_n_wf : DotDims.WF S1000000x1 S1x64 S1000000x64 [1] [0] [0] [1] [] []
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x192_S100000x192_1_0_0_1_n_n_wf : DotDims.WF S100000x64 S64x192 S100000x192 [1] [0] [0] [1] [] []
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def dot_S1000000x1_S1x64_S1000000x64_1_0_0_1_n_n : DotDims S1000000x1 S1x64 S1000000x64 where
  lhsContracting := [1]
  rhsContracting := [0]
  lhsNonContracting := [0]
  rhsNonContracting := [1]
  lhsBatch := []
  rhsBatch := []
  wf := dot_S1000000x1_S1x64_S1000000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.KBase.lean ====
/-
  The buffer contents at the boundaries of the program, followed through the run: a buffer that a stretch of host
  operations does not write, or that is not one of a call's arrays, holds after it what it held before. The argument
  arrays as launched get short names, typed as the shapes they have.
-/
import proofs.«428605_j28329604284558_1_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

/-- No operation of the named stretch writes the buffer in the goal: each operation's written set is a singleton of a
    different reference. -/
macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-! ## The arguments as launched -/

abbrev a0 : (⟨S100000x1, .i32⟩ : BufTy).Contents (Elt Ideal) := m ((c : Thread nD τ).loc main_arg0)
abbrev a1 : (⟨S2x1000000, .i32⟩ : BufTy).Contents (Elt Ideal) := m ((c : Thread nD τ).loc main_arg1)
abbrev a2 : (⟨S1000000x1, .f32⟩ : BufTy).Contents (Elt Ideal) := m ((c : Thread nD τ).loc main_arg2)
abbrev a3 : (⟨S100000, .i32⟩ : BufTy).Contents (Elt Ideal) := m ((c : Thread nD τ).loc main_arg3)
abbrev a4 : (⟨S100x64, .f32⟩ : BufTy).Contents (Elt Ideal) := m ((c : Thread nD τ).loc main_arg4)
abbrev a5 : (⟨S64x1, .f32⟩ : BufTy).Contents (Elt Ideal) := m ((c : Thread nD τ).loc main_arg5)
abbrev a6 : (⟨S64, .f32⟩ : BufTy).Contents (Elt Ideal) := m ((c : Thread nD τ).loc main_arg6)
abbrev a7 : (⟨S3x64x64, .f32⟩ : BufTy).Contents (Elt Ideal) := m ((c : Thread nD τ).loc main_arg7)
abbrev a8 : (⟨S3x192x64, .f32⟩ : BufTy).Contents (Elt Ideal) := m ((c : Thread nD τ).loc main_arg8)
abbrev a9 : (⟨S3x192x64, .f32⟩ : BufTy).Contents (Elt Ideal) := m ((c : Thread nD τ).loc main_arg9)
abbrev a10 : (⟨S3x192, .f32⟩ : BufTy).Contents (Elt Ideal) := m ((c : Thread nD τ).loc main_arg10)
abbrev a11 : (⟨S3x192, .f32⟩ : BufTy).Contents (Elt Ideal) := m ((c : Thread nD τ).loc main_arg11)
abbrev a12 : (⟨S32x64, .f32⟩ : BufTy).Contents (Elt Ideal) := m ((c : Thread nD τ).loc main_arg12)
abbrev a13 : (⟨S32, .f32⟩ : BufTy).Contents (Elt Ideal) := m ((c : Thread nD τ).loc main_arg13)
abbrev a14 : (⟨S16x32, .f32⟩ : BufTy).Contents (Elt Ideal) := m ((c : Thread nD τ).loc main_arg14)
abbrev a15 : (⟨S16, .f32⟩ : BufTy).Contents (Elt Ideal) := m ((c : Thread nD τ).loc main_arg15)
abbrev a16 : (⟨S1x16, .f32⟩ : BufTy).Contents (Elt Ideal) := m ((c : Thread nD τ).loc main_arg16)
abbrev a17 : (⟨S1, .f32⟩ : BufTy).Contents (Elt Ideal) := m ((c : Thread nD τ).loc main_arg17)

/-! ## A stretch of host operations keeps every buffer it does not write -/

theorem keep1 (b : Ref sig .tc)
    (hb : ∀ op ∈ (hostOps0 : List (HloOp τ sig (Elt Ideal))), Proc.devRef .tc b ∉ op.writes) :
    W1 m ρ c (Proc.devRef .tc b) = W0 m ρ c (Proc.devRef .tc b) :=
  StableHlo.after_of_forall_not_mem _ _ hb
theorem keep2 (b : Ref sig .tc)
    (hb : ∀ op ∈ (hostOps0_1 : List (HloOp τ sig (Elt Ideal))), Proc.devRef .tc b ∉ op.writes) :
    W2 m ρ c (Proc.devRef .tc b) = W1 m ρ c (Proc.devRef .tc b) :=
  StableHlo.after_of_forall_not_mem _ _ hb
theorem keep3 (b : Ref sig .tc)
    (hb : ∀ op ∈ (hostOps0_2 : List (HloOp τ sig (Elt Ideal))), Proc.devRef .tc b ∉ op.writes) :
    W3 m ρ c (Proc.devRef .tc b) = W2 m ρ c (Proc.devRef .tc b) :=
  StableHlo.after_of_forall_not_mem _ _ hb
theorem keep5 (b : Ref sig .tc)
    (hb : ∀ op ∈ (hostOps1 : List (HloOp τ sig (Elt Ideal))), Proc.devRef .tc b ∉ op.writes) :
    W5 m ρ c (Proc.devRef .tc b) = W4 m ρ c (Proc.devRef .tc b) :=
  StableHlo.after_of_forall_not_mem _ _ hb
theorem keep6 (b : Ref sig .tc)
    (hb : ∀ op ∈ (hostOps1_1 : List (HloOp τ sig (Elt Ideal))), Proc.devRef .tc b ∉ op.writes) :
    W6 m ρ c (Proc.devRef .tc b) = W5 m ρ c (Proc.devRef .tc b) :=
  StableHlo.after_of_forall_not_mem _ _ hb
theorem keep8 (b : Ref sig .tc)
    (hb : ∀ op ∈ (hostOps2 : List (HloOp τ sig (Elt Ideal))), Proc.devRef .tc b ∉ op.writes) :
    W8 m ρ c (Proc.devRef .tc b) = W7 m ρ c (Proc.devRef .tc b) :=
  StableHlo.after_of_forall_not_mem _ _ hb
theorem keep10 (b : Ref sig .tc)
    (hb : ∀ op ∈ (hostOps3 : List (HloOp τ sig (Elt Ideal))), Proc.devRef .tc b ∉ op.writes) :
    W10 m ρ c (Proc.devRef .tc b) = W9 m ρ c (Proc.devRef .tc b) :=
  StableHlo.after_of_forall_not_mem _ _ hb
theorem keep11 (b : Ref sig .tc)
    (hb : ∀ op ∈ (hostOps3_1 : List (HloOp τ sig (Elt Ideal))), Proc.devRef .tc b ∉ op.writes) :
    W11 m ρ c (Proc.devRef .tc b) = W10 m ρ c (Proc.devRef .tc b) :=
  StableHlo.after_of_forall_not_mem _ _ hb
theorem keep13 (b : Ref sig .tc)
    (hb : ∀ op ∈ (hostOps4 : List (HloOp τ sig (Elt Ideal))), Proc.devRef .tc b ∉ op.writes) :
    W13 m ρ c (Proc.devRef .tc b) = W12 m ρ c (Proc.devRef .tc b) :=
  StableHlo.after_of_forall_not_mem _ _ hb
theorem keep15 (b : Ref sig .tc)
    (hb : ∀ op ∈ (hostOps5 : List (HloOp τ sig (Elt Ideal))), Proc.devRef .tc b ∉ op.writes) :
    W15 m ρ c (Proc.devRef .tc b) = W14 m ρ c (Proc.devRef .tc b) :=
  StableHlo.after_of_forall_not_mem _ _ hb
theorem keep16 (b : Ref sig .tc)
    (hb : ∀ op ∈ (hostOps5_1 : List (HloOp τ sig (Elt Ideal))), Proc.devRef .tc b ∉ op.writes) :
    W16 m ρ c (Proc.devRef .tc b) = W15 m ρ c (Proc.devRef .tc b) :=
  StableHlo.after_of_forall_not_mem _ _ hb
theorem keep18 (b : Ref sig .tc)
    (hb : ∀ op ∈ (hostOps6 : List (HloOp τ sig (Elt Ideal))), Proc.devRef .tc b ∉ op.writes) :
    W18 m ρ c (Proc.devRef .tc b) = W17 m ρ c (Proc.devRef .tc b) :=
  StableHlo.after_of_forall_not_mem _ _ hb
theorem keep20 (b : Ref sig .tc)
    (hb : ∀ op ∈ (hostOps7 : List (HloOp τ sig (Elt Ideal))), Proc.devRef .tc b ∉ op.writes) :
    W20 m ρ c (Proc.devRef .tc b) = W19 m ρ c (Proc.devRef .tc b) :=
  StableHlo.after_of_forall_not_mem _ _ hb
theorem keep21 (b : Ref sig .tc)
    (hb : ∀ op ∈ (hostOps7_1 : List (HloOp τ sig (Elt Ideal))), Proc.devRef .tc b ∉ op.writes) :
    W21 m ρ c (Proc.devRef .tc b) = W20 m ρ c (Proc.devRef .tc b) :=
  StableHlo.after_of_forall_not_mem _ _ hb
theorem keep22 (b : Ref sig .tc)
    (hb : ∀ op ∈ (hostOps7_2 : List (HloOp τ sig (Elt Ideal))), Proc.devRef .tc b ∉ op.writes) :
    W22 m ρ c (Proc.devRef .tc b) = W21 m ρ c (Proc.devRef .tc b) :=
  StableHlo.after_of_forall_not_mem _ _ hb
theorem keep23 (b : Ref sig .tc)
    (hb : ∀ op ∈ (hostOps7_3 : List (HloOp τ sig (Elt Ideal))), Proc.devRef .tc b ∉ op.writes) :
    W23 m ρ c (Proc.devRef .tc b) = W22 m ρ c (Proc.devRef .tc b) :=
  StableHlo.after_of_forall_not_mem _ _ hb
theorem keep24 (b : Ref sig .tc)
    (hb : ∀ op ∈ (hostOps7_4 : List (HloOp τ sig (Elt Ideal))), Proc.devRef .tc b ∉ op.writes) :
    W24 m ρ c (Proc.devRef .tc b) = W23 m ρ c (Proc.devRef .tc b) :=
  StableHlo.after_of_forall_not_mem _ _ hb

/-! ## A call keeps every buffer that is not one of its arrays -/

theorem keep4 (b : Ref sig .tc) (hb : ∀ w, Pipeline.arrRef spec0 w ≠ b) :
    W4 m ρ c (Proc.devRef .tc b) = W3 m ρ c (Proc.devRef .tc b) :=
  W4_of_ne m ρ c b hb
theorem keep7 (b : Ref sig .tc) (hb : ∀ w, Pipeline.arrRef spec1 w ≠ b) :
    W7 m ρ c (Proc.devRef .tc b) = W6 m ρ c (Proc.devRef .tc b) :=
  W7_of_ne m ρ c b hb
theorem keep9 (b : Ref sig .tc) (hb : ∀ w, Pipeline.arrRef spec2 w ≠ b) :
    W9 m ρ c (Proc.devRef .tc b) = W8 m ρ c (Proc.devRef .tc b) :=
  W9_of_ne m ρ c b hb
theorem keep12 (b : Ref sig .tc) (hb : ∀ w, Pipeline.arrRef spec3 w ≠ b) :
    W12 m ρ c (Proc.devRef .tc b) = W11 m ρ c (Proc.devRef .tc b) :=
  W12_of_ne m ρ c b hb
theorem keep14 (b : Ref sig .tc) (hb : ∀ w, Pipeline.arrRef spec4 w ≠ b) :
    W14 m ρ c (Proc.devRef .tc b) = W13 m ρ c (Proc.devRef .tc b) :=
  W14_of_ne m ρ c b hb
theorem keep17 (b : Ref sig .tc) (hb : ∀ w, Pipeline.arrRef spec5 w ≠ b) :
    W17 m ρ c (Proc.devRef .tc b) = W16 m ρ c (Proc.devRef .tc b) :=
  W17_of_ne m ρ c b hb
theorem keep19 (b : Ref sig .tc) (hb : ∀ w, Pipeline.arrRef spec6 w ≠ b) :
    W19 m ρ c (Proc.devRef .tc b) = W18 m ρ c (Proc.devRef .tc b) :=
  W19_of_ne m ρ c b hb

end Cert.KernelIdeal.Chain

end
-- ==== Proof.KCarried.lean ====
/-
  What the later stretches of the program read of what was computed before its first call — the two index rows of the
  edge list, the two transposed weight stacks — and of the arguments: one record of equations at a boundary, carried
  from boundary to boundary because nothing after the first call writes any of these buffers. And the two index
  ranges the precondition gives, as the later modules take them.
-/
import proofs.«428605_j28329604284558_1_alg».proof.Proof.KBase
import proofs.«428605_j28329604284558_1_alg».proof.Proof.RefStages

set_option maxRecDepth 16384

noncomputable section

namespace Cert.KernelIdeal.Chain

open Cert.KernelIdeal Cert.KernelIdeal.Gen
open Idealize.ShloMosaic Idealize.ShloMosaic.TcCoe Idealize.SL.Sem
open Cert.ReferenceIdeal.Stages

variable (m : (ℓ : Loc nD τ sig) → Buf (Elt Ideal) ℓ) (ρ : Dev nD → PrngReg) (c : Dev nD)

/-- The buffers every layer reads, at the contents `W` of a boundary: the source and destination index rows, the two
    weight stacks transposed to [3, 64, 192], and the arguments the later stretches use. -/
structure Carried (W : Valuation τ sig (Elt Ideal)) : Prop where
  src : W (Proc.devRef .tc main_v3) = val_main_v14 (F := Ideal) (a1 m c)
  dst : W (Proc.devRef .tc main_v5) = val_main_v16 (F := Ideal) (a1 m c)
  wih : W (Proc.devRef .tc main_v6) = transpose S3x64x192 [0, 2, 1] (a8 m c) transposes_S3x192x64_S3x64x192_0_2_1
  whh : W (Proc.devRef .tc main_v7) = transpose S3x64x192 [0, 2, 1] (a9 m c) transposes_S3x192x64_S3x64x192_0_2_1
  arg3 : W (Proc.devRef .tc main_arg3) = a3 m c
  arg7 : W (Proc.devRef .tc main_arg7) = a7 m c
  arg10 : W (Proc.devRef .tc main_arg10) = a10 m c
  arg11 : W (Proc.devRef .tc main_arg11) = a11 m c

/-- Every token index, as the one-axis array both programs take it as, is in [−100, 100). -/
abbrev TokRange : Prop :=
  ∀ i : Cert.ReferenceIdeal.S100000.Idx, -100 ≤ (val_main_v0 (F := Ideal) (a0 m c) i).toInt ∧ (val_main_v0 (F := Ideal) (a0 m c) i).toInt < 100

/-- Every source index, as the one-axis array both programs take it as, is in [−100000, 100000). -/
abbrev SrcRange : Prop :=
  ∀ i : Cert.ReferenceIdeal.S1000000.Idx,
    -100000 ≤ (val_main_v14 (F := Ideal) (a1 m c) i).toInt ∧ (val_main_v14 (F := Ideal) (a1 m c) i).toInt < 100000

end Cert.KernelIdeal.Chain

end
-- ==== Proof.KKeepIn.lean ====
/-
  A call keeps its input arrays: an input window is staged and read, never written back, so after the call the array
  holds what it held at the call's entry.
-/
import proofs.«428605_j28329604284558_1_alg».proof.Proof.KBase

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem keep4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin cfg0.N).trans (A_eq0 (V3 m ρ) c w))
theorem keep7_in (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin cfg1.N).trans (A_eq1 (V6 m ρ) c w))
theorem keep9_in (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin cfg2.N).trans (A_eq2 (V8 m ρ) c w))
theorem keep12_in (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (V11 m ρ) c).arrAt_in w hin cfg3.N).trans (A_eq3 (V11 m ρ) c w))
theorem keep14_in (w : Fin cfg4.W) (hin : (cfg4.win w).isOut = false) :
    W14 m ρ c (Proc.devRef .tc (Pipeline.arrRef spec4 w)) = W13 m ρ c (Proc.devRef .tc (Pipeline.arrRef spec4 w)) :=
  (W14_arr m ρ c w).trans (((dat4 (V13 m ρ) c).arrAt_in w hin cfg4.N).trans (A_eq4 (V13 m ρ) c w))
theorem keep17_in (w : Fin cfg5.W) (hin : (cfg5.win w).isOut = false) :
    W17 m ρ c (Proc.devRef .tc (Pipeline.arrRef spec5 w)) = W16 m ρ c (Proc.devRef .tc (Pipeline.arrRef spec5 w)) :=
  (W17_arr m ρ c w).trans (((dat5 (V16 m ρ) c).arrAt_in w hin cfg5.N).trans (A_eq5 (V16 m ρ) c w))
theorem keep19_in (w : Fin cfg6.W) (hin : (cfg6.win w).isOut = false) :
    W19 m ρ c (Proc.devRef .tc (Pipeline.arrRef spec6 w)) = W18 m ρ c (Proc.devRef .tc (Pipeline.arrRef spec6 w)) :=
  (W19_arr m ρ c w).trans (((dat6 (V18 m ρ) c).arrAt_in w hin cfg6.N).trans (A_eq6 (V18 m ρ) c w))

end Cert.KernelIdeal.Chain

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.TakeFill.lean ====
/-
  A table look-up that fills out-of-range rows, read back when no row is out of range.

  `jnp.take(table, idx, axis = 0)` in its default fill mode over a table of `L` rows prints as: WRAP the row numbers
  the NumPy way (a negative number has `L` added), GATHER the table's rows at the wrapped numbers, and MASK: a row of
  the result is kept where its wrapped number lies in `[0, L − 1]` and replaced by a fill value elsewhere (the test is
  printed on the wrapped numbers laid out as a column `[n, 1]`: `0 ≤ w`, `w ≤ L − 1`, their `and`, an `and`-reduction
  across the column's one-element axis, that bit broadcast along the row, a `select`).
  When every row number lies in `[−L, L)` the mask is all ones and the look-up is the bare gather.
-/
import Idealize.ShloMosaic.PureOps
import Idealize.ShloMosaic.Lib.ValueIdx
import proofs.«428605_j28329604284558_1_alg».proof.Proof.LibIndexWrap

namespace Cert.TakeFill

open Idealize.ShloMosaic

abbrev S_ : Shape := ⟨0, ![]⟩
abbrev S1 : Shape := ⟨1, ![1]⟩
abbrev S1x1 : Shape := ⟨2, ![1, 1]⟩

variable {F : FTy → Type} [FloatOps F]

/-- The masked look-up is the bare gather: `G` stands for the gathered array and `N` for the fill (any two arrays of
    the result's shape `[n, C]`); `idx` are the `n` row numbers, each in `[−L, L)` as a signed 32-bit number, and `hi` is
    the word of `L − 1`. -/
theorem masked_take_eq (L n C : ℕ) (hL0 : 0 < L) (hL : L < 2 ^ 30)
    (hb_a : S_.BroadcastsInDim (⟨1, ![n]⟩ : Shape) (![] : Fin 0 → Fin (⟨1, ![n]⟩ : Shape).rank))
    (hb_b : (⟨1, ![n]⟩ : Shape).BroadcastsInDim (⟨2, ![n, 1]⟩ : Shape) (![0] : Fin 1 → Fin (⟨2, ![n, 1]⟩ : Shape).rank))
    (hb_c : S_.BroadcastsInDim (⟨2, ![n, 1]⟩ : Shape) (![] : Fin 0 → Fin (⟨2, ![n, 1]⟩ : Shape).rank))
    (hb_d : S1.BroadcastsInDim S1x1 (![1] : Fin 1 → Fin S1x1.rank))
    (hb_e : S1x1.BroadcastsInDim (⟨2, ![n, 1]⟩ : Shape) (![0, 1] : Fin 2 → Fin (⟨2, ![n, 1]⟩ : Shape).rank))
    (hb_f : (⟨1, ![n]⟩ : Shape).BroadcastsInDim (⟨2, ![n, C]⟩ : Shape) (![0] : Fin 1 → Fin (⟨2, ![n, C]⟩ : Shape).rank))
    (hred : (⟨2, ![n, 1]⟩ : Shape).ReducesTo [1] (⟨1, ![n]⟩ : Shape)) (hpos : 0 < S_.numel)
    (idx : IVec (⟨1, ![n]⟩ : Shape) 32)
    (hidx : ∀ i : (⟨1, ![n]⟩ : Shape).Idx, -(L : ℤ) ≤ (idx i).toInt ∧ (idx i).toInt < (L : ℤ))
    (hi : BitVec 32) (hhi : hi.toInt = (L : ℤ) - 1)
    (G N : FVec F (⟨2, ![n, C]⟩ : Shape) .f32) :
    select
        (broadcastInDim (⟨2, ![n, C]⟩ : Shape) ![0] hb_f
          (Host.reduce IntOp.andi
            (andi
              (cmpi .sge
                (broadcastInDim (⟨2, ![n, 1]⟩ : Shape) ![0] hb_b
                  (select (cmpi .slt idx (broadcastInDim (⟨1, ![n]⟩ : Shape) ![] hb_a (constantI S_ 32 0#32)))
                    (addi idx (broadcastInDim (⟨1, ![n]⟩ : Shape) ![] hb_a (constantI S_ 32 (BitVec.ofNat 32 L)))) idx))
                (broadcastInDim (⟨2, ![n, 1]⟩ : Shape) ![] hb_c (constantI S_ 32 0#32)))
              (cmpi .sle
                (broadcastInDim (⟨2, ![n, 1]⟩ : Shape) ![0] hb_b
                  (select (cmpi .slt idx (broadcastInDim (⟨1, ![n]⟩ : Shape) ![] hb_a (constantI S_ 32 0#32)))
                    (addi idx (broadcastInDim (⟨1, ![n]⟩ : Shape) ![] hb_a (constantI S_ 32 (BitVec.ofNat 32 L)))) idx))
                (broadcastInDim (⟨2, ![n, 1]⟩ : Shape) ![0, 1] hb_e (broadcastInDim S1x1 ![1] hb_d (constantI S1 32 hi)))))
            (constantI S_ 1 1#1) hred hpos))
        G N
      = G := by
  refine IndexWrap.select_of_ones _ G N (fun j => ?_)
  refine IndexWrap.reduce_andi_of_all _ _ hred hpos (fun _ => rfl) (fun k => ?_) _
  exact IndexWrap.rangeTest_wrap L hL0 hL hi hhi _ (hidx _).1 (hidx _).2

end Cert.TakeFill
-- ==== Proof.KLayer1a.lean ====
import proofs.«428605_j28329604284558_1_alg».proof.Proof.KCarried
import proofs.«428605_j28329604284558_1_alg».proof.Proof.TakeFill

set_option maxRecDepth 16384
-- one declaration at a time: each reading of a stretch holds gigabytes while it is checked
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages
open Cert.KernelIdeal.Facts₀ Cert.KernelIdeal.Facts

variable (m : (ℓ : Loc nD τ sig) → Buf (Elt Ideal) ℓ) (ρ : Dev nD → PrngReg) (c : Dev nD)

/-! ## Before the first call: the embedding look-up, the two index rows, the transposed weight stacks

A stretch of host operations is read by evaluating its fold at the buffer asked for; consecutive stretches are read
together, back to the last call's exit (here: to the launch). -/

/-- The embedding look-up: with every token index in range the fill-mode look-up is the bare gather. -/
theorem W3_v1 (hx : TokRange m c) : W3 m ρ c (Proc.devRef .tc main_v1) = val_main_v7 (F := Ideal) (a0 m c) (a4 m c) := by
  dsimp only [W3, W2, W1]
  dsimp only [hostOps0_2, hostOps0_1, hostOps0]
  after_results_simp
  simp only [StableHlo.TRef.ofBuf, StableHlo.TRef.toBuf, cast_eq]
  refine (Cert.TakeFill.masked_take_eq (F := Ideal) 100 100000 64 (by decide) (by decide) _ _ _ _ _ _ _ _ _ ?_ 99#32 (by decide) _ _).trans ?_
  · exact hx
  · rfl

/-- The first layer's weight matrix: the same slice and reshape in both programs. -/
theorem W3_v9 : W3 m ρ c (Proc.devRef .tc main_v9) = val_main_v18 (F := Ideal) (a7 m c) := by
  dsimp only [W3, W2, W1]
  dsimp only [hostOps0_2, hostOps0_1, hostOps0]
  after_results_simp
  rfl

/-- What the later stretches read, at the first call's entry. -/
theorem carried3 : Carried m c (W3 m ρ c) where
  src := by
    dsimp only [W3, W2, W1]; dsimp only [hostOps0_2, hostOps0_1, hostOps0]; after_results_simp; rfl
  dst := by
    dsimp only [W3, W2, W1]; dsimp only [hostOps0_2, hostOps0_1, hostOps0]; after_results_simp; rfl
  wih := by
    dsimp only [W3, W2, W1]; dsimp only [hostOps0_2, hostOps0_1, hostOps0]; after_results_simp
  whh := by
    dsimp only [W3, W2, W1]; dsimp only [hostOps0_2, hostOps0_1, hostOps0]; after_results_simp
  arg3 := (keep3 m ρ c main_arg3 (by not_written hostOps0_2)).trans ((keep2 m ρ c main_arg3 (by not_written hostOps0_1)).trans (keep1 m ρ c main_arg3 (by not_written hostOps0)))
  arg7 := (keep3 m ρ c main_arg7 (by not_written hostOps0_2)).trans ((keep2 m ρ c main_arg7 (by not_written hostOps0_1)).trans (keep1 m ρ c main_arg7 (by not_written hostOps0)))
  arg10 := (keep3 m ρ c main_arg10 (by not_written hostOps0_2)).trans ((keep2 m ρ c main_arg10 (by not_written hostOps0_1)).trans (keep1 m ρ c main_arg10 (by not_written hostOps0)))
  arg11 := (keep3 m ρ c main_arg11 (by not_written hostOps0_2)).trans ((keep2 m ρ c main_arg11 (by not_written hostOps0_1)).trans (keep1 m ρ c main_arg11 (by not_written hostOps0)))

end Cert.KernelIdeal.Chain

end
-- ==== Proof.Spec.lean ====
/-
  The mathematics both programs compute, stage by stage, as functions of arrays over the extended reals.

  * `mm h W`: the node transform, entry (n, j) = Σ_k h[n, k] · W[k, j] over the 64 hidden channels.
  * `gru agg h wih whh bih bhh`: one gated recurrent update followed by the rectifier. With the gate
    pre-activations  gi[n, c] = Σ_k agg[n, k] · wih[k, c] + bih[0, c]  and  gh[n, c] = Σ_k h[n, k] · whh[k, c] + bhh[0, c]
    over the 192 = 3 · 64 gate columns (reset, update, candidate in this order),
      r = σ(gi[n, j] + gh[n, j]),  z = σ(gi[n, 64 + j] + gh[n, 64 + j]),  ñ = tanh(gi[n, 128 + j] + r · gh[n, 128 + j]),
    entry (n, j) = max((1 − z) · ñ + z · h[n, j], 0).  Here σ is the logistic function and the weights are given
    already transposed, `[64, 192]`.
  * `segSum h b`: the per-graph sum, entry (g, j) = Σ over the nodes n whose graph id b[n, 0], read as a signed
    32-bit number, is g, of h[n, j]; a node whose id is outside [0, 256) contributes nowhere.
  * `segCnt b`: the per-graph node count, entry (g, 0) = Σ over the same nodes of 1.
  The two float literals are kept as their binary words (1.0 = 0x3F800000, 0.0 = 0x00000000).
-/
import Idealize.ShloMosaic.PureOps.Ideal
import Idealize.ShloMosaic.Lib.ValueIdx

noncomputable section

open scoped BigOperators

namespace Cert.Spec

open Idealize.ShloMosaic Idealize.ShloMosaic.ValueIdx

abbrev SNxH : Shape := ⟨2, ![100000, 64]⟩
abbrev SHxH : Shape := ⟨2, ![64, 64]⟩
abbrev SHxG : Shape := ⟨2, ![64, 192]⟩
abbrev S1xG : Shape := ⟨2, ![1, 192]⟩
abbrev SNx1 : Shape := ⟨2, ![100000, 1]⟩
abbrev SBxH : Shape := ⟨2, ![256, 64]⟩
abbrev SBx1 : Shape := ⟨2, ![256, 1]⟩

/-- The float 1.0 as an extended real. -/
abbrev one : EReal := Ideal.ofBits .f32 0x3F800000#32
/-- The float 0.0 as an extended real. -/
abbrev zero : EReal := Ideal.ofBits .f32 0x00000000#32

/-- The node transform `h @ W`. -/
def mm (h : SNxH.Idx → EReal) (W : SHxH.Idx → EReal) : SNxH.Idx → EReal :=
  fun i => ∑ k : Fin 64, h (ix2 (i 0) k) * W (ix2 k (i 1))

/-- One gate pre-activation: row `n` of `a` against column `c` of the transposed weights, plus the bias. -/
def gate (a : SNxH.Idx → EReal) (w : SHxG.Idx → EReal) (b : S1xG.Idx → EReal) (n : Fin 100000) (c : Fin 192) : EReal :=
  (∑ k : Fin 64, a (ix2 n k) * w (ix2 k c)) + b (ix2 0 c)

/-- Column `j` of the reset gate, `64 + j` of the update gate, `128 + j` of the candidate. -/
abbrev colR (j : Fin 64) : Fin 192 := ⟨j.val, by omega⟩
abbrev colZ (j : Fin 64) : Fin 192 := ⟨64 + j.val, by omega⟩
abbrev colN (j : Fin 64) : Fin 192 := ⟨128 + j.val, by omega⟩

/-- The gated recurrent update followed by the rectifier. -/
def gru (agg h : SNxH.Idx → EReal) (wih whh : SHxG.Idx → EReal) (bih bhh : S1xG.Idx → EReal) : SNxH.Idx → EReal :=
  fun i =>
    max ((one - Ideal.logistic (gate agg wih bih (i 0) (colZ (i 1)) + gate h whh bhh (i 0) (colZ (i 1))))
          * Ideal.tanh (gate agg wih bih (i 0) (colN (i 1))
              + Ideal.logistic (gate agg wih bih (i 0) (colR (i 1)) + gate h whh bhh (i 0) (colR (i 1)))
                * gate h whh bhh (i 0) (colN (i 1)))
        + Ideal.logistic (gate agg wih bih (i 0) (colZ (i 1)) + gate h whh bhh (i 0) (colZ (i 1))) * h i)
      zero

/-- The per-graph sum of node rows. -/
def segSum (h : SNxH.Idx → EReal) (b : SNx1.Idx → BitVec 32) : SBxH.Idx → EReal :=
  fun i => ∑ n : Fin 100000, if (b (ix2 n 0)).toInt = ((i 0).val : ℤ) then h (ix2 n (i 1)) else 0

/-- The per-graph node count. -/
def segCnt (b : SNx1.Idx → BitVec 32) : SBx1.Idx → EReal :=
  fun i => ∑ n : Fin 100000, if (b (ix2 n 0)).toInt = ((i 0).val : ℤ) then one else 0

end Cert.Spec

end
-- ==== Proof.Region0.lean ====
/-
  The transform call, read as mathematics. The call walks 20 points; at point t it takes rows 5000·t … 5000·t + 4999 of a
  [100000, 64] array and the whole of a [64, 64] matrix, and stores into rows 5000·t … 5000·t + 4999 of its output the
  product of the two blocks. Over the extended reals the narrowing casts are the identity and the product into a zero
  accumulator is the plain sum over the 64 channels, so entry (r, q) of the stored block is Σ_k x0[r, k] · x1[k, q]
  (`pay_apply`). Block t of the left array at row r is row 5000·t + r of the array, and the matrix window is the matrix
  itself at every point, so what point t writes back is block t of `h @ W` (`flushed_eq`). Row n of the output lies in the
  block of point n / 5000, every point writes its block back, so the blocks tile the output (`covered`) and the array ends
  holding `h @ W` (`arr`).
-/
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index at output index `i` and contraction index `q`: the output's row on axis 0 … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contraction coordinate on axis 1. -/
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction coordinate on axis 0 … -/
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column on axis 1. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores, at row `p` and column `q` of its block: over the extended reals the narrowing casts and the
    same-shape casts are the identity and the product into a zero accumulator is the plain sum, so the entry is
    Σ_k x0[p, k] · x1[k, q]. -/
theorem pay_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]
  rfl

/-! ## What a point writes back -/

theorem zero_offsets : (![0, 0] : Fin 2 → Nat) = fun _ => 0 := funext fun a => by
  match a with
  | ⟨0, _⟩ => rfl
  | ⟨1, _⟩ => rfl

/-- The printed index maps, decided over the grid: at point `t` the row window and the output window sit at block row
    `t` and block column 0, and the matrix window at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 1000000 in
/-- WHAT POINT `t` WRITES BACK is block `t` of the product of the two input arrays as the call finds them: row `r` of
    the stored block is row 5000·t + r of the left array against the whole right array. -/
theorem flushed_eq (c : Dev nD) (t : Fin cfg0.N) :
    (dat0 (F := Ideal) V c).flushed 2 t = ((cfg0.win 2).blk t).view.read (Elt Ideal) (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨e0, e1, e2, e3, e4, e5⟩ := idx_facts t
  funext j
  have hj0 : (j 0).val < 5000 := (j 0).isLt
  have hj1 : (j 1).val < 64 := (j 1).isLt
  show k0_pay1 (iblk0 V c 0 t) (iblk0 V c 1 t) (ix2 ⟨(j 0).val, hj0⟩ ⟨(j 1).val, hj1⟩) = Cert.Spec.mm (V c (Pipeline.arrRef spec0 0)) (V c (Pipeline.arrRef spec0 1)) (((cfg0.win 2).blk t).view.emb j)
  rw [pay_apply]
  unfold Cert.Spec.mm
  refine Finset.sum_congr rfl fun k _ => ?_
  have h0 : ((cfg0.win 0).blk t).view.emb (ix2 ⟨(j 0).val, hj0⟩ k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ((cfg0.win 1).blk t).view.emb (ix2 k ⟨(j 1).val, hj1⟩) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have g0 : iblk0 V c 0 t (ix2 ⟨(j 0).val, hj0⟩ k) = V c (Pipeline.arrRef spec0 0) (ix2 ((((cfg0.win 2).blk t).view.emb j) 0) k) :=
    congrArg (V c (Pipeline.arrRef spec0 0)) h0
  have g1 : iblk0 V c 1 t (ix2 k ⟨(j 1).val, hj1⟩) = V c (Pipeline.arrRef spec0 1) (ix2 k ((((cfg0.win 2).blk t).view.emb j) 1)) :=
    congrArg (V c (Pipeline.arrRef spec0 1)) h1
  rw [g0, g1]

/-! ## The output's blocks tile the array -/

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole (Pipeline.arrRef spec0 2)).slice (win0_2.rect t)).set ↔ _
  rw [View.set_slice_whole, Rect.mem_set_unit]
  exact Iff.rfl

/-- Row `r` of the array lies in the block of point `r / 5000`, which is written back. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-! ## The array after the call -/

/-- After the transform call its output array is `h @ W` of its two input arrays as the call finds them. -/
theorem arr (c : Dev nD) :
    (dat0 (F := Ideal) V c).arrAt 2 cfg0.N = Cert.Spec.mm (V c (Pipeline.arrRef spec0 0)) (V c (Pipeline.arrRef spec0 1)) :=
  (dat0 V c).arrAt_eq_of_cover 2 _ (fun t _ => flushed_eq V c t) covered

end Cert.KernelIdeal.R0

end
-- ==== Proof.RefMm.lean ====
import proofs.«428605_j28329604284558_1_alg».proof.Proof.RefStages
import proofs.«428605_j28329604284558_1_alg».proof.Proof.Spec
import Idealize.ShloMosaic.Lib.Pipeline.Value
import Idealize.ShloMosaic.Lib.ValueIdx
import Idealize.ShloMosaic.PureOps.Ideal.Laws

noncomputable section

namespace Cert.ReferenceIdeal.BridgeMm

open Cert.ReferenceIdeal Cert.ReferenceIdeal.Gen Cert.ReferenceIdeal.Stages
open Idealize.ShloMosaic Idealize.ShloMosaic.TcCoe Idealize.ShloMosaic.ValueIdx Idealize.SL.Sem

variable (x0 : (⟨S100000x1, .i32⟩ : BufTy).Contents (Elt Ideal)) (x1 : (⟨S2x1000000, .i32⟩ : BufTy).Contents (Elt Ideal))
  (x3 : (⟨S100000, .i32⟩ : BufTy).Contents (Elt Ideal)) (x4 : (⟨S100x64, .f32⟩ : BufTy).Contents (Elt Ideal))
  (x7 : (⟨S3x64x64, .f32⟩ : BufTy).Contents (Elt Ideal)) (x8 x9 : (⟨S3x192x64, .f32⟩ : BufTy).Contents (Elt Ideal))
  (x10 x11 : (⟨S3x192, .f32⟩ : BufTy).Contents (Elt Ideal))

/-- The reference's first node transform is `h @ W` of its embedding stage and its first weight slice. -/
theorem mm1 : val_main_v19 (F := Ideal) x0 x4 x7 = Cert.Spec.mm (val_main_v7 (F := Ideal) x0 x4) (val_main_v18 (F := Ideal) x7) := by
  funext i
  rw [val_main_v19_apply]
  unfold Cert.Spec.mm
  refine Finset.sum_congr rfl fun k _ => ?_
  have el : lidx_main_v19 i k = ix2 (i 0) k :=
    funext fun a => Fin.ext (by match a with | ⟨0, _⟩ => rfl | ⟨1, _⟩ => rfl)
  have er : ridx_main_v19 i k = ix2 k (i 1) :=
    funext fun a => Fin.ext (by match a with | ⟨0, _⟩ => rfl | ⟨1, _⟩ => rfl)
  rw [el, er]
  rfl

/-- The second node transform, of the first layer's output. -/
theorem mm2 : val_main_v79 (F := Ideal) x0 x1 x4 x7 x8 x9 x10 x11
    = Cert.Spec.mm (val_main_v76 (F := Ideal) x0 x1 x4 x7 x8 x9 x10 x11) (val_main_v78 (F := Ideal) x7) := by
  funext i
  rw [val_main_v79_apply]
  unfold Cert.Spec.mm
  refine Finset.sum_congr rfl fun k _ => ?_
  have el : lidx_main_v79 i k = ix2 (i 0) k :=
    funext fun a => Fin.ext (by match a with | ⟨0, _⟩ => rfl | ⟨1, _⟩ => rfl)
  have er : ridx_main_v79 i k = ix2 k (i 1) :=
    funext fun a => Fin.ext (by match a with | ⟨0, _⟩ => rfl | ⟨1, _⟩ => rfl)
  rw [el, er]
  rfl

/-- The third node transform, of the second layer's output. -/
theorem mm3 : val_main_v139 (F := Ideal) x0 x1 x4 x7 x8 x9 x10 x11
    = Cert.Spec.mm (val_main_v136 (F := Ideal) x0 x1 x4 x7 x8 x9 x10 x11) (val_main_v138 (F := Ideal) x7) := by
  funext i
  rw [val_main_v139_apply]
  unfold Cert.Spec.mm
  refine Finset.sum_congr rfl fun k _ => ?_
  have el : lidx_main_v139 i k = ix2 (i 0) k :=
    funext fun a => Fin.ext (by match a with | ⟨0, _⟩ => rfl | ⟨1, _⟩ => rfl)
  have er : ridx_main_v139 i k = ix2 k (i 1) :=
    funext fun a => Fin.ext (by match a with | ⟨0, _⟩ => rfl | ⟨1, _⟩ => rfl)
  rw [el, er]
  rfl

end Cert.ReferenceIdeal.BridgeMm

end
-- ==== Proof.KLayer1b.lean ====
import proofs.«428605_j28329604284558_1_alg».proof.Proof.KCarried
import proofs.«428605_j28329604284558_1_alg».proof.Proof.KKeepIn
import proofs.«428605_j28329604284558_1_alg».proof.Proof.KLayer1a
import proofs.«428605_j28329604284558_1_alg».proof.Proof.Region0
import proofs.«428605_j28329604284558_1_alg».proof.Proof.RefMm

set_option maxRecDepth 16384
-- one declaration at a time: each reading of a stretch holds gigabytes while it is checked
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages
open Cert.KernelIdeal.Facts₀ Cert.KernelIdeal.Facts

variable (m : (ℓ : Loc nD τ sig) → Buf (Elt Ideal) ℓ) (ρ : Dev nD → PrngReg) (c : Dev nD)

/-! ## The first transform call -/

theorem W4_v10 (hx : TokRange m c) :
    W4 m ρ c (Proc.devRef .tc main_v10) = val_main_v19 (F := Ideal) (a0 m c) (a4 m c) (a7 m c) := by
  refine (W4_arr m ρ c 2).trans ?_
  refine (Cert.KernelIdeal.R0.arr (V3 m ρ) c).trans ?_
  refine Eq.trans ?_ (Cert.ReferenceIdeal.BridgeMm.mm1 (a0 m c) (a4 m c) (a7 m c)).symm
  exact congrArg₂ Cert.Spec.mm (W3_v1 m ρ c hx) (W3_v9 m ρ c)

/-- The carried buffers at the first call's exit. -/
theorem carried4 : Carried m c (W4 m ρ c) where
  src := (keep4 m ρ c main_v3 (by decide)).trans (carried3 m ρ c).src
  dst := (keep4 m ρ c main_v5 (by decide)).trans (carried3 m ρ c).dst
  wih := (keep4 m ρ c main_v6 (by decide)).trans (carried3 m ρ c).wih
  whh := (keep4 m ρ c main_v7 (by decide)).trans (carried3 m ρ c).whh
  arg3 := (keep4 m ρ c main_arg3 (by decide)).trans (carried3 m ρ c).arg3
  arg7 := (keep4 m ρ c main_arg7 (by decide)).trans (carried3 m ρ c).arg7
  arg10 := (keep4 m ρ c main_arg10 (by decide)).trans (carried3 m ρ c).arg10
  arg11 := (keep4 m ρ c main_arg11 (by decide)).trans (carried3 m ρ c).arg11

/-- The embedding at the first call's exit, untouched. -/
theorem W4_v1 (hx : TokRange m c) : W4 m ρ c (Proc.devRef .tc main_v1) = val_main_v7 (F := Ideal) (a0 m c) (a4 m c) :=
  (keep4_in m ρ c 0 rfl).trans (W3_v1 m ρ c hx)

end Cert.KernelIdeal.Chain

end
-- ==== Proof.LibTypedRef.lean ====
/-
  Typed references: the transport of contents along a reference's type is the identity.

  A host operation inlined from an outlined function names its buffers by references that carry the tensor type, and
  reads and writes their contents through a transport along the equation "the buffer's type is that type". The three
  facts below remove the transports as equations (by taking the reference apart, not by unfolding a transport), so that
  no proof has to see through one by definitional unfolding — which, around a reduction over a million elements, neither
  the elaborator nor the kernel survives.
-/
import Idealize.ShloMosaic.Lib.StableHlo

namespace Cert.TypedRef

open Idealize.ShloMosaic Idealize.ShloMosaic.StableHlo

variable {sig : RefSig} {Val : EltTy → Type} {T : BufTy}

/-- Written then read back through the same reference: the value. -/
theorem ofBuf_toBuf (x : TRef sig T) (v : T.Contents Val) : x.ofBuf (x.toBuf v) = v := by
  obtain ⟨r, rfl, _, _⟩ := x; rfl

/-- Read through a reference, contents that are a given value: that value. -/
theorem ofBuf_eq_of_heq (x : TRef sig T) (u : x.ref.ty.Contents Val) (v : T.Contents Val) (h : HEq u v) :
    x.ofBuf u = v := by
  obtain ⟨r, rfl, _, _⟩ := x; exact eq_of_heq h

/-- Written through a reference, a value that is given contents: those contents. -/
theorem toBuf_eq_of_heq (x : TRef sig T) (z : T.Contents Val) (w : x.ref.ty.Contents Val) (h : HEq z w) :
    x.toBuf z = w := by
  obtain ⟨r, rfl, _, _⟩ := x; exact eq_of_heq h

end Cert.TypedRef
-- ==== Proof.Layout.lean ====
/-
  The two programs lay the same weights out by different routes; each route ends at the same array.
  The kernel transposes the whole stack of input weights [3, 192, 64] to [3, 64, 192], slices layer l and drops the
  unit axis; the reference slices layer l of the stack, drops the unit axis and transposes [192, 64] to [64, 192]:
  either way entry (k, c) is the stack's entry (l, c, k). The kernel takes bias row l as [1, 192] by two reshapes of the
  slice, the reference by a reshape to [192] and a broadcast that adds the unit axis: entry (0, c) is the stack's
  (l, c). The kernel reshapes the graph-id vector [100000] to a column, the reference broadcasts it along a new unit
  axis: entry (n, 0) is the vector's entry n.
-/
import proofs.«428605_j28329604284558_1_alg».proof.Proof.Gen.KernelIdeal
import proofs.«428605_j28329604284558_1_alg».proof.Proof.RefStages
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx Cert.ReferenceIdeal.Stages
open Cert.KernelIdeal.Facts₀ Cert.KernelIdeal.Facts

variable {F : FTy → Type} [FloatOps F]

/-! ## The routes over literal shapes -/

section Routes

variable {α : Type}

/-- Layer `l` of a stack [3, 192, 64], transposed to [64, 192], by either route: transpose the stack, slice, drop the
    unit axis; or slice, drop the unit axis, transpose. Entry (k, c) is the stack's entry (l, c, k). -/
theorem weights_route (l : ℕ) (hl : l < 3) (x : (⟨3, ![3, 192, 64]⟩ : Shape).Idx → α)
    (ht : (⟨3, ![3, 192, 64]⟩ : Shape).Transposes [0, 2, 1] (⟨3, ![3, 64, 192]⟩ : Shape))
    (hs : (⟨3, ![3, 64, 192]⟩ : Shape).Slices ![l, 0, 0] (⟨3, ![1, 64, 192]⟩ : Shape))
    (hc : (⟨3, ![1, 64, 192]⟩ : Shape).ShapeCasts (⟨2, ![64, 192]⟩ : Shape))
    (hs' : (⟨3, ![3, 192, 64]⟩ : Shape).Slices ![l, 0, 0] (⟨3, ![1, 192, 64]⟩ : Shape))
    (hc' : (⟨3, ![1, 192, 64]⟩ : Shape).ShapeCasts (⟨2, ![192, 64]⟩ : Shape))
    (ht' : (⟨2, ![192, 64]⟩ : Shape).Transposes [1, 0] (⟨2, ![64, 192]⟩ : Shape)) :
    shapeCast (⟨2, ![64, 192]⟩ : Shape)
        (extractStridedSlice (⟨3, ![1, 64, 192]⟩ : Shape) ![l, 0, 0]
          (transpose (⟨3, ![3, 64, 192]⟩ : Shape) [0, 2, 1] x ht) hs) hc
      = transpose (⟨2, ![64, 192]⟩ : Shape) [1, 0]
          (shapeCast (⟨2, ![192, 64]⟩ : Shape) (extractStridedSlice (⟨3, ![1, 192, 64]⟩ : Shape) ![l, 0, 0] x hs') hc') ht' := by
  funext i
  have h0 : (i 0).val < 64 := (i 0).isLt
  have h1 : (i 1).val < 192 := (i 1).isLt
  -- the left route, read at (k, c): the stack at (l, c, k)
  have eL : shapeCast (⟨2, ![64, 192]⟩ : Shape)
        (extractStridedSlice (⟨3, ![1, 64, 192]⟩ : Shape) ![l, 0, 0]
          (transpose (⟨3, ![3, 64, 192]⟩ : Shape) [0, 2, 1] x ht) hs) hc i
      = x (ix3 ⟨l, hl⟩ (i 1) (i 0)) := by
    refine (shapeCast_apply _ hc i (ix3 ⟨0, Nat.one_pos⟩ (i 0) (i 1)) ?_).trans ?_
    · rewrite [Shape.rowMajor_val_three, Shape.rowMajor_val_two]
      show (0 * 64 + (i 0).val) * 192 + (i 1).val = (i 0).val * 192 + (i 1).val
      omega
    refine (extractStridedSlice_apply _ _ hs _ (ix3 ⟨l, hl⟩ (i 0) (i 1)) (fun a => match a with
      | ⟨0, _⟩ => by show l = l + 0; omega
      | ⟨1, _⟩ => by show (i 0).val = 0 + (i 0).val; omega
      | ⟨2, _⟩ => by show (i 1).val = 0 + (i 1).val; omega)).trans ?_
    exact transpose_apply [0, 2, 1] x ht _ (ix3 ⟨l, hl⟩ (i 1) (i 0)) (fun b => match b with
      | ⟨0, _⟩ => rfl
      | ⟨1, _⟩ => rfl
      | ⟨2, _⟩ => rfl)
  -- the right route, read at (k, c): the same entry
  have eR : transpose (⟨2, ![64, 192]⟩ : Shape) [1, 0]
          (shapeCast (⟨2, ![192, 64]⟩ : Shape) (extractStridedSlice (⟨3, ![1, 192, 64]⟩ : Shape) ![l, 0, 0] x hs') hc') ht' i
      = x (ix3 ⟨l, hl⟩ (i 1) (i 0)) := by
    refine (transpose_apply [1, 0] _ ht' i (ix2 (i 1) (i 0)) (fun b => match b with
      | ⟨0, _⟩ => rfl
      | ⟨1, _⟩ => rfl)).trans ?_
    refine (shapeCast_apply _ hc' _ (ix3 ⟨0, Nat.one_pos⟩ (i 1) (i 0)) ?_).trans ?_
    · rewrite [Shape.rowMajor_val_three, Shape.rowMajor_val_two]
      show (0 * 192 + (i 1).val) * 64 + (i 0).val = (i 1).val * 64 + (i 0).val
      omega
    exact extractStridedSlice_apply _ x hs' _ (ix3 ⟨l, hl⟩ (i 1) (i 0)) (fun a => match a with
      | ⟨0, _⟩ => by show l = l + 0; omega
      | ⟨1, _⟩ => by show (i 1).val = 0 + (i 1).val; omega
      | ⟨2, _⟩ => by show (i 0).val = 0 + (i 0).val; omega)
  exact eL.trans eR.symm

/-- A vector [n] as a row [1, n]: the reshape and the broadcast that adds the unit axis in front agree. Entry (0, c)
    is the vector's entry c. -/
theorem row_route (n : ℕ) (hn : n ≠ 1) (y : (⟨1, ![n]⟩ : Shape).Idx → α)
    (hc : (⟨1, ![n]⟩ : Shape).ShapeCasts (⟨2, ![1, n]⟩ : Shape))
    (hb : (⟨1, ![n]⟩ : Shape).BroadcastsInDim (⟨2, ![1, n]⟩ : Shape) (![1] : Fin 1 → Fin (⟨2, ![1, n]⟩ : Shape).rank)) :
    shapeCast (⟨2, ![1, n]⟩ : Shape) y hc = broadcastInDim (⟨2, ![1, n]⟩ : Shape) ![1] hb y := by
  funext i
  have h0 : (i 0).val < 1 := (i 0).isLt
  refine (shapeCast_apply y hc i (ix1 (i 1)) ?_).trans (broadcastInDim_apply _ hb y i (ix1 (i 1)) (fun a => match a with
    | ⟨0, _⟩ => by show (i 1).val = if n = 1 then 0 else (i 1).val; rw [if_neg hn])).symm
  rewrite [Shape.rowMajor_val_two, Shape.rowMajor_val_one]
  show (i 1).val = (i 0).val * n + (i 1).val
  have : (i 0).val = 0 := by omega
  rw [this]; omega

/-- A vector [n] as a column [n, 1]: the reshape and the broadcast that adds the unit axis behind agree. Entry (r, 0)
    is the vector's entry r. -/
theorem col_route (n : ℕ) (hn : n ≠ 1) (y : (⟨1, ![n]⟩ : Shape).Idx → α)
    (hc : (⟨1, ![n]⟩ : Shape).ShapeCasts (⟨2, ![n, 1]⟩ : Shape))
    (hb : (⟨1, ![n]⟩ : Shape).BroadcastsInDim (⟨2, ![n, 1]⟩ : Shape) (![0] : Fin 1 → Fin (⟨2, ![n, 1]⟩ : Shape).rank)) :
    shapeCast (⟨2, ![n, 1]⟩ : Shape) y hc = broadcastInDim (⟨2, ![n, 1]⟩ : Shape) ![0] hb y := by
  funext i
  have h1 : (i 1).val < 1 := (i 1).isLt
  refine (shapeCast_apply y hc i (ix1 (i 0)) ?_).trans (broadcastInDim_apply _ hb y i (ix1 (i 0)) (fun a => match a with
    | ⟨0, _⟩ => by show (i 0).val = if n = 1 then 0 else (i 0).val; rw [if_neg hn])).symm
  rewrite [Shape.rowMajor_val_two, Shape.rowMajor_val_one]
  show (i 0).val = (i 0).val * 1 + (i 1).val
  omega

end Routes

/-- Layer 1's input weights, transposed: both routes give the same [64, 192] array. -/
theorem wih1 (x : (⟨Cert.KernelIdeal.S3x192x64, .f32⟩ : BufTy).Contents (Elt F)) :
    shapeCast Cert.KernelIdeal.S64x192
        (extractStridedSlice Cert.KernelIdeal.S1x64x192 ![0, 0, 0]
          (transpose Cert.KernelIdeal.S3x64x192 [0, 2, 1] x transposes_S3x192x64_S3x64x192_0_2_1)
          slices_S3x64x192_S1x64x192_0_0_0)
        shapeCasts_S1x64x192_S64x192
      = val_main_v38 (F := F) x :=
  weights_route 0 (by decide) x _ _ _ _ _ _

/-- Layer 1's state weights, transposed. -/
theorem whh1 (x : (⟨Cert.KernelIdeal.S3x192x64, .f32⟩ : BufTy).Contents (Elt F)) :
    shapeCast Cert.KernelIdeal.S64x192
        (extractStridedSlice Cert.KernelIdeal.S1x64x192 ![0, 0, 0]
          (transpose Cert.KernelIdeal.S3x64x192 [0, 2, 1] x transposes_S3x192x64_S3x64x192_0_2_1)
          slices_S3x64x192_S1x64x192_0_0_0)
        shapeCasts_S1x64x192_S64x192
      = val_main_v43 (F := F) x :=
  weights_route 0 (by decide) x _ _ _ _ _ _

/-- Layer 2's input weights, transposed. -/
theorem wih2 (x : (⟨Cert.KernelIdeal.S3x192x64, .f32⟩ : BufTy).Contents (Elt F)) :
    shapeCast Cert.KernelIdeal.S64x192
        (extractStridedSlice Cert.KernelIdeal.S1x64x192 ![1, 0, 0]
          (transpose Cert.KernelIdeal.S3x64x192 [0, 2, 1] x transposes_S3x192x64_S3x64x192_0_2_1)
          slices_S3x64x192_S1x64x192_1_0_0)
        shapeCasts_S1x64x192_S64x192
      = val_main_v98 (F := F) x :=
  weights_route 1 (by decide) x _ _ _ _ _ _

/-- Layer 2's state weights, transposed. -/
theorem whh2 (x : (⟨Cert.KernelIdeal.S3x192x64, .f32⟩ : BufTy).Contents (Elt F)) :
    shapeCast Cert.KernelIdeal.S64x192
        (extractStridedSlice Cert.KernelIdeal.S1x64x192 ![1, 0, 0]
          (transpose Cert.KernelIdeal.S3x64x192 [0, 2, 1] x transposes_S3x192x64_S3x64x192_0_2_1)
          slices_S3x64x192_S1x64x192_1_0_0)
        shapeCasts_S1x64x192_S64x192
      = val_main_v103 (F := F) x :=
  weights_route 1 (by decide) x _ _ _ _ _ _

/-- Layer 3's input weights, transposed. -/
theorem wih3 (x : (⟨Cert.KernelIdeal.S3x192x64, .f32⟩ : BufTy).Contents (Elt F)) :
    shapeCast Cert.KernelIdeal.S64x192
        (extractStridedSlice Cert.KernelIdeal.S1x64x192 ![2, 0, 0]
          (transpose Cert.KernelIdeal.S3x64x192 [0, 2, 1] x transposes_S3x192x64_S3x64x192_0_2_1)
          slices_S3x64x192_S1x64x192_2_0_0)
        shapeCasts_S1x64x192_S64x192
      = val_main_v158 (F := F) x :=
  weights_route 2 (by decide) x _ _ _ _ _ _

/-- Layer 3's state weights, transposed. -/
theorem whh3 (x : (⟨Cert.KernelIdeal.S3x192x64, .f32⟩ : BufTy).Contents (Elt F)) :
    shapeCast Cert.KernelIdeal.S64x192
        (extractStridedSlice Cert.KernelIdeal.S1x64x192 ![2, 0, 0]
          (transpose Cert.KernelIdeal.S3x64x192 [0, 2, 1] x transposes_S3x192x64_S3x64x192_0_2_1)
          slices_S3x64x192_S1x64x192_2_0_0)
        shapeCasts_S1x64x192_S64x192
      = val_main_v163 (F := F) x :=
  weights_route 2 (by decide) x _ _ _ _ _ _

/-- Layer 1's input bias as a [1, 192] row. -/
theorem bih1 (x : (⟨Cert.KernelIdeal.S3x192, .f32⟩ : BufTy).Contents (Elt F)) :
    shapeCast Cert.KernelIdeal.S1x192
        (shapeCast Cert.KernelIdeal.S192 (extractStridedSlice Cert.KernelIdeal.S1x192 ![0, 0] x slices_S3x192_S1x192_0_0)
          shapeCasts_S1x192_S192)
        shapeCasts_S192_S1x192
      = val_main_v40 (F := F) x :=
  row_route 192 (by decide) _ _ _

/-- Layer 1's state bias as a [1, 192] row. -/
theorem bhh1 (x : (⟨Cert.KernelIdeal.S3x192, .f32⟩ : BufTy).Contents (Elt F)) :
    shapeCast Cert.KernelIdeal.S1x192
        (shapeCast Cert.KernelIdeal.S192 (extractStridedSlice Cert.KernelIdeal.S1x192 ![0, 0] x slices_S3x192_S1x192_0_0)
          shapeCasts_S1x192_S192)
        shapeCasts_S192_S1x192
      = val_main_v45 (F := F) x :=
  row_route 192 (by decide) _ _ _

/-- Layer 2's input bias row. -/
theorem bih2 (x : (⟨Cert.KernelIdeal.S3x192, .f32⟩ : BufTy).Contents (Elt F)) :
    shapeCast Cert.KernelIdeal.S1x192
        (shapeCast Cert.KernelIdeal.S192 (extractStridedSlice Cert.KernelIdeal.S1x192 ![1, 0] x slices_S3x192_S1x192_1_0)
          shapeCasts_S1x192_S192)
        shapeCasts_S192_S1x192
      = val_main_v100 (F := F) x :=
  row_route 192 (by decide) _ _ _

/-- Layer 2's state bias row. -/
theorem bhh2 (x : (⟨Cert.KernelIdeal.S3x192, .f32⟩ : BufTy).Contents (Elt F)) :
    shapeCast Cert.KernelIdeal.S1x192
        (shapeCast Cert.KernelIdeal.S192 (extractStridedSlice Cert.KernelIdeal.S1x192 ![1, 0] x slices_S3x192_S1x192_1_0)
          shapeCasts_S1x192_S192)
        shapeCasts_S192_S1x192
      = val_main_v105 (F := F) x :=
  row_route 192 (by decide) _ _ _

/-- Layer 3's input bias row. -/
theorem bih3 (x : (⟨Cert.KernelIdeal.S3x192, .f32⟩ : BufTy).Contents (Elt F)) :
    shapeCast Cert.KernelIdeal.S1x192
        (shapeCast Cert.KernelIdeal.S192 (extractStridedSlice Cert.KernelIdeal.S1x192 ![2, 0] x slices_S3x192_S1x192_2_0)
          shapeCasts_S1x192_S192)
        shapeCasts_S192_S1x192
      = val_main_v160 (F := F) x :=
  row_route 192 (by decide) _ _ _

/-- Layer 3's state bias row. -/
theorem bhh3 (x : (⟨Cert.KernelIdeal.S3x192, .f32⟩ : BufTy).Contents (Elt F)) :
    shapeCast Cert.KernelIdeal.S1x192
        (shapeCast Cert.KernelIdeal.S192 (extractStridedSlice Cert.KernelIdeal.S1x192 ![2, 0] x slices_S3x192_S1x192_2_0)
          shapeCasts_S1x192_S192)
        shapeCasts_S192_S1x192
      = val_main_v165 (F := F) x :=
  row_route 192 (by decide) _ _ _

/-- The graph-id vector as a column: the reshape and the broadcast along a new unit axis agree. -/
theorem batch_col (x : (⟨Cert.KernelIdeal.S100000, .i32⟩ : BufTy).Contents (Elt F)) :
    shapeCast Cert.KernelIdeal.S100000x1 x shapeCasts_S100000_S100000x1 = val_main_v198 (F := F) x :=
  col_route 100000 (by decide) x _ _

/-- The reference builds the same column a second time for the counts. -/
theorem batch_col' (x : (⟨Cert.KernelIdeal.S100000, .i32⟩ : BufTy).Contents (Elt F)) :
    val_main_v202 (F := F) x = val_main_v198 (F := F) x := rfl

end Cert.Layout

end
-- ==== Proof.KLayer1c.lean ====
import proofs.«428605_j28329604284558_1_alg».proof.Proof.KCarried
import proofs.«428605_j28329604284558_1_alg».proof.Proof.LibTypedRef
import proofs.«428605_j28329604284558_1_alg».proof.Proof.TakeFill
import proofs.«428605_j28329604284558_1_alg».proof.Proof.Layout

set_option maxRecDepth 16384
-- one declaration at a time: each reading of a stretch holds gigabytes while it is checked
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages
open Cert.KernelIdeal.Facts₀ Cert.KernelIdeal.Facts

/-! ## Between the first two calls: the gather at the sources, the scatter-add at the destinations, the layer's weights

Read for any float family: the operations stay opaque, so equal terms are compared by their structure alone. -/

section Stretch
variable {F : FTy → Type} [FloatOps F] (V : Valuation τ sig (Elt F))

/-- The rows of the transformed array at the source indices: with every source index in range the fill-mode look-up is
    the bare gather. -/
theorem gathered (M : (⟨S100000x64, .f32⟩ : BufTy).Contents (Elt F)) (x1 : (⟨S2x1000000, .i32⟩ : BufTy).Contents (Elt F))
    (hsr : ∀ i : Cert.ReferenceIdeal.S1000000.Idx, -100000 ≤ (val_main_v14 (F := F) x1 i).toInt ∧ (val_main_v14 (F := F) x1 i).toInt < 100000)
    (hM : V (Proc.devRef .tc main_v10) = M) (hsrc : V (Proc.devRef .tc main_v3) = val_main_v14 (F := F) x1) :
    StableHlo.after hostOps1 V (Proc.devRef .tc main_v11)
      = Host.gather Cert.ReferenceIdeal.gather_S100000x64_S1000000x1_S1000000x64_1_0_n_n_0_1_164 M (val_main_v25 (F := F) x1) := by
  have hsrc' := Cert.TypedRef.ofBuf_eq_of_heq (Val := Elt F) (TRef.of main_v3 : TRef sig ⟨S1000000, .i32⟩)
    (V (Proc.devRef .tc main_v3)) (val_main_v14 (F := F) x1) (heq_of_eq hsrc)
  have hM' := Cert.TypedRef.ofBuf_eq_of_heq (Val := Elt F) (TRef.of main_v10 : TRef sig ⟨S100000x64, .f32⟩)
    (V (Proc.devRef .tc main_v10)) M (heq_of_eq hM)
  dsimp only [hostOps1]
  after_results_simp
  refine Cert.TypedRef.toBuf_eq_of_heq _ _ _ (heq_of_eq ?_)
  simp only [Cert.TypedRef.ofBuf_toBuf]
  rw [hsrc', hM']
  refine (Cert.TakeFill.masked_take_eq (F := F) 100000 1000000 64 (by decide) (by decide) _ _ _ _ _ _ _ _ _ ?_ 99999#32 (by decide) _ _).trans ?_
  · exact hsr
  · rfl

/-- The gathered rows added up at the destination indices, into zeros. -/
theorem scattered (G : (⟨S1000000x64, .f32⟩ : BufTy).Contents (Elt F)) (x1 : (⟨S2x1000000, .i32⟩ : BufTy).Contents (Elt F))
    (hG : V (Proc.devRef .tc main_v11) = G) (hdst : V (Proc.devRef .tc main_v5) = val_main_v16 (F := F) x1) :
    StableHlo.after hostOps1_1 V (Proc.devRef .tc main_v14)
      = Host.scatterAdd Cert.ReferenceIdeal.scatter_S100000x64_S1000000x1_S1000000x64_1_0_0_1 (val_main_v27 (F := F)) (val_main_v28 (F := F) x1) G := by
  dsimp only [hostOps1_1]
  after_results_simp
  rw [hG, hdst]
  rfl

/-- The layer's input weights, transposed, as the update call takes them. -/
theorem wih_slice (x8 : (⟨S3x192x64, .f32⟩ : BufTy).Contents (Elt F))
    (hw : V (Proc.devRef .tc main_v6) = transpose S3x64x192 [0, 2, 1] x8 Gen.transposes_S3x192x64_S3x64x192_0_2_1) :
    StableHlo.after hostOps1_1 V (Proc.devRef .tc main_v16) = val_main_v38 (F := F) x8 := by
  dsimp only [hostOps1_1]
  after_results_simp
  rw [hw]
  exact Cert.Layout.wih1 x8

/-- The layer's state weights, transposed. -/
theorem whh_slice (x9 : (⟨S3x192x64, .f32⟩ : BufTy).Contents (Elt F))
    (hw : V (Proc.devRef .tc main_v7) = transpose S3x64x192 [0, 2, 1] x9 Gen.transposes_S3x192x64_S3x64x192_0_2_1) :
    StableHlo.after hostOps1_1 V (Proc.devRef .tc main_v18) = val_main_v43 (F := F) x9 := by
  dsimp only [hostOps1_1]
  after_results_simp
  rw [hw]
  exact Cert.Layout.whh1 x9

/-- The layer's input bias as a row. -/
theorem bih_row (x10 : (⟨S3x192, .f32⟩ : BufTy).Contents (Elt F)) (hb : V (Proc.devRef .tc main_arg10) = x10) :
    StableHlo.after hostOps1_1 V (Proc.devRef .tc main_v23) = val_main_v40 (F := F) x10 := by
  dsimp only [hostOps1_1]
  after_results_simp
  rw [hb]
  exact Cert.Layout.bih1 x10

/-- The layer's state bias as a row. -/
theorem bhh_row (x11 : (⟨S3x192, .f32⟩ : BufTy).Contents (Elt F)) (hb : V (Proc.devRef .tc main_arg11) = x11) :
    StableHlo.after hostOps1_1 V (Proc.devRef .tc main_v24) = val_main_v45 (F := F) x11 := by
  dsimp only [hostOps1_1]
  after_results_simp
  rw [hb]
  exact Cert.Layout.bhh1 x11

end Stretch

end Cert.KernelIdeal.Chain

end
-- ==== Proof.Region1.lean ====
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index of the block -/

/-- The product of a block of rows with a weight matrix pairs row index with row, contraction index with column on the left, -/
theorem lhs_rows (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
  rfl
theorem lhs_contr (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q
/-- and contraction index with row, column index with column on the right. -/
theorem rhs_contr (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q
theorem rhs_cols (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
  rfl

/-- One gate pre-activation over a block: row `p` of the block against column `c` of the weights, plus the bias. -/
def gateB (a : S5000x64.Idx → EReal) (w : S64x192.Idx → EReal) (b : S1x192.Idx → EReal) (p : Fin 5000) (c : Fin 192) : EReal :=
  (∑ k : Fin 64, a (ix2 p k) * w (ix2 k c)) + b (ix2 0 c)

/-- Over the extended reals the block's matrix product started from zero is the plain sum over the 64 channels. -/
theorem matmul_at (x : Vec Ideal S5000x64 .f32) (w : Vec Ideal S64x192 .f32)
    (hx : S5000x64.ShapeCasts S5000x64) (hw : S64x192.ShapeCasts S64x192) (hlt : FTy.bits .bf16 < FTy.bits .f32)
    (p : Fin 5000) (c : Fin 192) :
    matmul (F := Ideal) dot_S5000x64_S64x192_S5000x192_1_0_0_1_n_n none (truncf .bf16 (shapeCast S5000x64 x hx) hlt)
        (truncf .bf16 (shapeCast S64x192 w hw) hlt) (constant S5000x192 .f32 0x00000000#32) (ix2 p c)
      = ∑ k : Fin 64, x (ix2 p k) * w (ix2 k c) := by
  simp only [matmul]
  rw [Ideal.matmul_constant_zero_apply, ← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : dot_S5000x64_S64x192_S5000x192_1_0_0_1_n_n.lhsIdx (ix2 p c) ((contrEquiv1 dot_S5000x64_S64x192_S5000x192_1_0_0_1_n_n 64 rfl rfl).symm k) = ix2 p k := funext fun a => Fin.ext (by
    match a with
    | ⟨0, _⟩ => exact lhs_rows _ _
    | ⟨1, _⟩ => exact (lhs_contr _ _).trans hk)
  have er : dot_S5000x64_S64x192_S5000x192_1_0_0_1_n_n.rhsIdx (ix2 p c) ((contrEquiv1 dot_S5000x64_S64x192_S5000x192_1_0_0_1_n_n 64 rfl rfl).symm k) = ix2 k c := funext fun a => Fin.ext (by
    match a with
    | ⟨0, _⟩ => exact (rhs_contr _ _).trans hk
    | ⟨1, _⟩ => exact rhs_cols _ _)
  rw [el, er]
  show shapeCast S5000x64 x hx (ix2 p k) * shapeCast S64x192 w hw (ix2 k c) = _
  rw [shapeCast_self, shapeCast_self]

/-- The gate pre-activations the body forms: product, plus the bias row broadcast down the block. -/
theorem pre_at (x : Vec Ideal S5000x64 .f32) (w : Vec Ideal S64x192 .f32) (b : Vec Ideal S1x192 .f32)
    (hx : S5000x64.ShapeCasts S5000x64) (hw : S64x192.ShapeCasts S64x192) (hb : S1x192.ShapeCasts S1x192)
    (hlt : FTy.bits .bf16 < FTy.bits .f32) (hbc : S1x192.Broadcasts S5000x192) (p : Fin 5000) (c : Fin 192) :
    addf (F := Ideal) (matmul dot_S5000x64_S64x192_S5000x192_1_0_0_1_n_n none (truncf .bf16 (shapeCast S5000x64 x hx) hlt)
          (truncf .bf16 (shapeCast S64x192 w hw) hlt) (constant S5000x192 .f32 0x00000000#32))
        (broadcastTo S5000x192 (shapeCast S1x192 b hb) hbc) (ix2 p c)
      = gateB x w b p c := by
  show matmul (F := Ideal) dot_S5000x64_S64x192_S5000x192_1_0_0_1_n_n none (truncf .bf16 (shapeCast S5000x64 x hx) hlt)
          (truncf .bf16 (shapeCast S64x192 w hw) hlt) (constant S5000x192 .f32 0x00000000#32) (ix2 p c)
        + broadcastTo S5000x192 (shapeCast S1x192 b hb) hbc (ix2 p c) = _
  rw [matmul_at, broadcastTo_1b_ab_apply, shapeCast_self]
  rfl

/-- The update the body forms from the two arrays of gate pre-activations and the state block, at one entry. -/
theorem update_at (gi gh : FVec Ideal S5000x192 .f32) (h : Vec Ideal S5000x64 .f32)
    (s0 : S5000x192.Slices ![0, 0] S5000x64) (s64 : S5000x192.Slices ![0, 64] S5000x64)
    (s128 : S5000x192.Slices ![0, 128] S5000x64) (hc : S5000x64.ShapeCasts S5000x64) (p : Fin 5000) (j : Fin 64) :
    maximumf (F := Ideal)
        (addf
          (mulf (subf (broadcast S5000x64 (Scalar.ofBits .f32 0x3F800000#32))
                  (logistic (addf (extractStridedSlice S5000x64 ![0, 64] gi s64) (extractStridedSlice S5000x64 ![0, 64] gh s64))))
            (tanh (addf (extractStridedSlice S5000x64 ![0, 128] gi s128)
                  (mulf (logistic (addf (extractStridedSlice S5000x64 ![0, 0] gi s0) (extractStridedSlice S5000x64 ![0, 0] gh s0)))
                    (extractStridedSlice S5000x64 ![0, 128] gh s128)))))
          (mulf (logistic (addf (extractStridedSlice S5000x64 ![0, 64] gi s64) (extractStridedSlice S5000x64 ![0, 64] gh s64)))
            (shapeCast S5000x64 h hc)))
        (broadcast S5000x64 (Scalar.ofBits .f32 0x00000000#32)) (ix2 p j)
      = max ((Cert.Spec.one - Ideal.logistic (gi (ix2 p (Cert.Spec.colZ j)) + gh (ix2 p (Cert.Spec.colZ j))))
              * Ideal.tanh (gi (ix2 p (Cert.Spec.colN j))
                  + Ideal.logistic (gi (ix2 p (Cert.Spec.colR j)) + gh (ix2 p (Cert.Spec.colR j))) * gh (ix2 p (Cert.Spec.colN j)))
            + Ideal.logistic (gi (ix2 p (Cert.Spec.colZ j)) + gh (ix2 p (Cert.Spec.colZ j))) * h (ix2 p j))
          Cert.Spec.zero := by
  have ri := slice2_axis1_apply 0 gi s0 p j (Cert.Spec.colR j) (Nat.zero_add _).symm
  have rh := slice2_axis1_apply 0 gh s0 p j (Cert.Spec.colR j) (Nat.zero_add _).symm
  have zi := slice2_axis1_apply 64 gi s64 p j (Cert.Spec.colZ j) rfl
  have zh := slice2_axis1_apply 64 gh s64 p j (Cert.Spec.colZ j) rfl
  have ni := slice2_axis1_apply 128 gi s128 p j (Cert.Spec.colN j) rfl
  have nh := slice2_axis1_apply 128 gh s128 p j (Cert.Spec.colN j) rfl
  have hh : shapeCast S5000x64 h hc (ix2 p j) = h (ix2 p j) := by rw [shapeCast_self]
  show max ((Cert.Spec.one - Ideal.logistic (extractStridedSlice S5000x64 ![0, 64] gi s64 (ix2 p j) + extractStridedSlice S5000x64 ![0, 64] gh s64 (ix2 p j)))
              * Ideal.tanh (extractStridedSlice S5000x64 ![0, 128] gi s128 (ix2 p j)
                  + Ideal.logistic (extractStridedSlice S5000x64 ![0, 0] gi s0 (ix2 p j) + extractStridedSlice S5000x64 ![0, 0] gh s0 (ix2 p j))
                    * extractStridedSlice S5000x64 ![0, 128] gh s128 (ix2 p j))
            + Ideal.logistic (extractStridedSlice S5000x64 ![0, 64] gi s64 (ix2 p j) + extractStridedSlice S5000x64 ![0, 64] gh s64 (ix2 p j))
              * shapeCast S5000x64 h hc (ix2 p j))
          Cert.Spec.zero = _
  rw [ri, rh, zi, zh, ni, nh, hh]

/-- What the body stores at row `p`, channel `j` of its block, from the six blocks it loads. -/
theorem stored_at (x0 x1 : Vec Ideal S5000x64 .f32) (x2 x3 : Vec Ideal S64x192 .f32) (x4 x5 : Vec Ideal S1x192 .f32)
    (p : Fin 5000) (j : Fin 64) :
    k1_pay1 (F := Ideal) (k1_pay2 x0 x1 x2 x3 x4 x5 x1) (ix2 p j)
      = max ((Cert.Spec.one - Ideal.logistic (gateB x0 x2 x4 p (Cert.Spec.colZ j) + gateB x1 x3 x5 p (Cert.Spec.colZ j)))
              * Ideal.tanh (gateB x0 x2 x4 p (Cert.Spec.colN j)
                  + Ideal.logistic (gateB x0 x2 x4 p (Cert.Spec.colR j) + gateB x1 x3 x5 p (Cert.Spec.colR j)) * gateB x1 x3 x5 p (Cert.Spec.colN j))
            + Ideal.logistic (gateB x0 x2 x4 p (Cert.Spec.colZ j) + gateB x1 x3 x5 p (Cert.Spec.colZ j)) * x1 (ix2 p j))
          Cert.Spec.zero := by
  unfold k1_pay1 k1_pay2
  refine (update_at _ _ x1 _ _ _ _ p j).trans ?_
  simp only [pre_at]

/-! ## The loaded blocks as parts of the arrays -/

theorem hz : (![0, 0] : Fin 2 → Nat) = fun _ => 0 := funext fun a => by fin_cases a <;> rfl

/-- The index maps over the grid: the two row-blocked inputs and the output sit at block `t`, the weights and the biases at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` of the aggregated messages is row `5000 t + p` of the array. -/
theorem agg_block (c : Dev nD) (t : Fin cfg1.N) (p : Fin 5000) (k : Fin 64) (n : Fin 100000) (hn : n.val = t.val * 5000 + p.val) :
    (iblk1 (F := Ideal) V c 0 t : Vec Ideal S5000x64 .f32) (ix2 p k) = (V c (Pipeline.arrRef spec1 0) : S100000x64.Idx → EReal) (ix2 n k) := by
  obtain ⟨e0, e1, -⟩ := idx_facts t
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

/-- Row `p` of block `t` of the state is row `5000 t + p` of the array. -/
theorem h_block (c : Dev nD) (t : Fin cfg1.N) (p : Fin 5000) (k : Fin 64) (n : Fin 100000) (hn : n.val = t.val * 5000 + p.val) :
    (iblk1 (F := Ideal) V c 1 t : Vec Ideal S5000x64 .f32) (ix2 p k) = (V c (Pipeline.arrRef spec1 1) : S100000x64.Idx → EReal) (ix2 n k) := by
  obtain ⟨-, -, e0, e1, -⟩ := idx_facts t
  show (V c (Pipeline.arrRef spec1 1) : S100000x64.Idx → EReal) (((cfg1.win 1).blk t).view.emb (ix2 p k)) = _
  refine congrArg _ (funext fun a => Fin.ext ?_)
  match a with
  | ⟨0, _⟩ => show win1_1.index t (0 : Fin 2) * 5000 + 1 * p.val = n.val; omega
  | ⟨1, _⟩ => show win1_1.index t (1 : Fin 2) * 64 + 1 * k.val = k.val; omega

/-- The one block of each weight matrix is the matrix, -/
theorem wih_block (c : Dev nD) (t : Fin cfg1.N) (i : S64x192.Idx) :
    (iblk1 (F := Ideal) V c 2 t : Vec Ideal S64x192 .f32) i = (V c (Pipeline.arrRef spec1 2) : S64x192.Idx → EReal) i := by
  obtain ⟨-, -, -, -, e0, e1, -⟩ := idx_facts t
  show (V c (Pipeline.arrRef spec1 2) : S64x192.Idx → EReal) (((cfg1.win 2).blk t).view.emb i) = _
  refine congrArg _ (funext fun a => Fin.ext ?_)
  match a with
  | ⟨0, _⟩ => show win1_2.index t (0 : Fin 2) * 64 + 1 * (i 0).val = (i 0).val; omega
  | ⟨1, _⟩ => show win1_2.index t (1 : Fin 2) * 192 + 1 * (i 1).val = (i 1).val; omega
theorem whh_block (c : Dev nD) (t : Fin cfg1.N) (i : S64x192.Idx) :
    (iblk1 (F := Ideal) V c 3 t : Vec Ideal S64x192 .f32) i = (V c (Pipeline.arrRef spec1 3) : S64x192.Idx → EReal) i := by
  obtain ⟨-, -, -, -, -, -, e0, e1, -⟩ := idx_facts t
  show (V c (Pipeline.arrRef spec1 3) : S64x192.Idx → EReal) (((cfg1.win 3).blk t).view.emb i) = _
  refine congrArg _ (funext fun a => Fin.ext ?_)
  match a with
  | ⟨0, _⟩ => show win1_3.index t (0 : Fin 2) * 64 + 1 * (i 0).val = (i 0).val; omega
  | ⟨1, _⟩ => show win1_3.index t (1 : Fin 2) * 192 + 1 * (i 1).val = (i 1).val; omega
/-- and the one block of each bias row is the row. -/
theorem bih_block (c : Dev nD) (t : Fin cfg1.N) (i : S1x192.Idx) :
    (iblk1 (F := Ideal) V c 4 t : Vec Ideal S1x192 .f32) i = (V c (Pipeline.arrRef spec1 4) : S1x192.Idx → EReal) i := by
  obtain ⟨-, -, -, -, -, -, -, -, e0, e1, -⟩ := idx_facts t
  show (V c (Pipeline.arrRef spec1 4) : S1x192.Idx → EReal) (((cfg1.win 4).blk t).view.emb i) = _
  refine congrArg _ (funext fun a => Fin.ext ?_)
  match a with
  | ⟨0, _⟩ => show win1_4.index t (0 : Fin 2) * 1 + 1 * (i 0).val = (i 0).val; omega
  | ⟨1, _⟩ => show win1_4.index t (1 : Fin 2) * 192 + 1 * (i 1).val = (i 1).val; omega
theorem bhh_block (c : Dev nD) (t : Fin cfg1.N) (i : S1x192.Idx) :
    (iblk1 (F := Ideal) V c 5 t : Vec Ideal S1x192 .f32) i = (V c (Pipeline.arrRef spec1 5) : S1x192.Idx → EReal) i := by
  obtain ⟨-, -, -, -, -, -, -, -, -, -, e0, e1, -⟩ := idx_facts t
  show (V c (Pipeline.arrRef spec1 5) : S1x192.Idx → EReal) (((cfg1.win 5).blk t).view.emb i) = _
  refine congrArg _ (funext fun a => Fin.ext ?_)
  match a with
  | ⟨0, _⟩ => show win1_5.index t (0 : Fin 2) * 1 + 1 * (i 0).val = (i 0).val; omega
  | ⟨1, _⟩ => show win1_5.index t (1 : Fin 2) * 192 + 1 * (i 1).val = (i 1).val; omega

/-- So a gate pre-activation over the blocks at point `t` is the array's at row `5000 t + p`: the input gates, -/
theorem gate_in (c : Dev nD) (t : Fin cfg1.N) (p : Fin 5000) (col : Fin 192) (n : Fin 100000) (hn : n.val = t.val * 5000 + p.val) :
    gateB (iblk1 (F := Ideal) V c 0 t) (iblk1 (F := Ideal) V c 2 t) (iblk1 (F := Ideal) V c 4 t) p col
      = Cert.Spec.gate (V c (Pipeline.arrRef spec1 0)) (V c (Pipeline.arrRef spec1 2)) (V c (Pipeline.arrRef spec1 4)) n col := by
  unfold gateB Cert.Spec.gate
  exact congrArg₂ (· + ·) (Finset.sum_congr rfl fun k _ => congrArg₂ (· * ·) (agg_block V c t p k n hn) (wih_block V c t (ix2 k col)))
    (bih_block V c t (ix2 0 col))
/-- and the state gates. -/
theorem gate_st (c : Dev nD) (t : Fin cfg1.N) (p : Fin 5000) (col : Fin 192) (n : Fin 100000) (hn : n.val = t.val * 5000 + p.val) :
    gateB (iblk1 (F := Ideal) V c 1 t) (iblk1 (F := Ideal) V c 3 t) (iblk1 (F := Ideal) V c 5 t) p col
      = Cert.Spec.gate (V c (Pipeline.arrRef spec1 1)) (V c (Pipeline.arrRef spec1 3)) (V c (Pipeline.arrRef spec1 5)) n col := by
  unfold gateB Cert.Spec.gate
  exact congrArg₂ (· + ·) (Finset.sum_congr rfl fun k _ => congrArg₂ (· * ·) (h_block V c t p k n hn) (whh_block V c t (ix2 k col)))
    (bhh_block V c t (ix2 0 col))

/-! ## What a point writes back, the cover, the array -/

/-- Row `p` of block `t` of any array of the output's shape, read through the output's window, is row `5000 t + p` of it. -/
theorem out_block (G : S100000x64.Idx → EReal) (t : Fin cfg1.N) (p : Fin 5000) (j : Fin 64) (n : Fin 100000)
    (hn : n.val = t.val * 5000 + p.val) :
    ((cfg1.win 6).blk t).view.read (Elt Ideal) G (ix2 p j) = G (ix2 n j) := by
  obtain ⟨-, -, -, -, -, -, -, -, -, -, -, -, e0, e1⟩ := idx_facts t
  show G (((cfg1.win 6).blk t).view.emb (ix2 p j)) = _
  refine congrArg _ (funext fun a => Fin.ext ?_)
  match a with
  | ⟨0, _⟩ => show win1_6.index t (0 : Fin 2) * 5000 + 1 * p.val = n.val; omega
  | ⟨1, _⟩ => show win1_6.index t (1 : Fin 2) * 64 + 1 * j.val = j.val; omega

/-- The gated update at row `n`, channel `j`, written out. -/
theorem gru_at (agg h : Cert.Spec.SNxH.Idx → EReal) (wih whh : Cert.Spec.SHxG.Idx → EReal) (bih bhh : Cert.Spec.S1xG.Idx → EReal)
    (n : Fin 100000) (j : Fin 64) :
    Cert.Spec.gru agg h wih whh bih bhh (ix2 n j)
      = max ((Cert.Spec.one - Ideal.logistic (Cert.Spec.gate agg wih bih n (Cert.Spec.colZ j) + Cert.Spec.gate h whh bhh n (Cert.Spec.colZ j)))
              * Ideal.tanh (Cert.Spec.gate agg wih bih n (Cert.Spec.colN j)
                  + Ideal.logistic (Cert.Spec.gate agg wih bih n (Cert.Spec.colR j) + Cert.Spec.gate h whh bhh n (Cert.Spec.colR j))
                    * Cert.Spec.gate h whh bhh n (Cert.Spec.colN j))
            + Ideal.logistic (Cert.Spec.gate agg wih bih n (Cert.Spec.colZ j) + Cert.Spec.gate h whh bhh n (Cert.Spec.colZ j)) * h (ix2 n j))
          Cert.Spec.zero := rfl

/-- The update is a function of its seven entries. -/
theorem update_congr {zi zh ni ri rh nh s zi' zh' ni' ri' rh' nh' s' : EReal} (hzi : zi = zi') (hzh : zh = zh') (hni : ni = ni')
    (hri : ri = ri') (hrh : rh = rh') (hnh : nh = nh') (hs : s = s') :
    max ((Cert.Spec.one - Ideal.logistic (zi + zh)) * Ideal.tanh (ni + Ideal.logistic (ri + rh) * nh) + Ideal.logistic (zi + zh) * s) Cert.Spec.zero
      = max ((Cert.Spec.one - Ideal.logistic (zi' + zh')) * Ideal.tanh (ni' + Ideal.logistic (ri' + rh') * nh') + Ideal.logistic (zi' + zh') * s') Cert.Spec.zero := by
  rw [hzi, hzh, hni, hri, hrh, hnh, hs]

/-- What point `t` writes back is block `t` of the gated update of the six arrays as the call finds them. -/
theorem flushed_eq (c : Dev nD) (t : Fin cfg1.N) :
    (dat1 (F := Ideal) V c).flushed 6 t = ((cfg1.win 6).blk t).view.read (Elt Ideal)
      (Cert.Spec.gru (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 (F := Ideal) V c).after 6 t) = _
  rw [after1_6]
  unfold out1_6
  rw [View.canon_unit_zero hz]
  simp only [View.ld_unit_zero (S := S5000x64) hz, View.ld_unit_zero (S := S64x192) hz, View.ld_unit_zero (S := S1x192) hz]
  refine funext fun (y : S5000x64.Idx) => ?_
  obtain ⟨p, j, rfl⟩ : ∃ (p : Fin 5000) (j : Fin 64), y = ix2 p j := ⟨y 0, y 1, eq_ix2 y⟩
  refine (stored_at (iblk1 (F := Ideal) V c 0 t) (iblk1 (F := Ideal) V c 1 t) (iblk1 (F := Ideal) V c 2 t) (iblk1 (F := Ideal) V c 3 t)
    (iblk1 (F := Ideal) V c 4 t) (iblk1 (F := Ideal) V c 5 t) p j).trans ?_
  have hN : cfg1.N = 20 := N_1
  have ht : t.val < 20 := hN ▸ t.isLt
  have hp : p.val < 5000 := p.isLt
  have hn : t.val * 5000 + p.val < 100000 := by omega
  refine Eq.trans ?_ (out_block (Cert.Spec.gru (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) t p j ⟨t.val * 5000 + p.val, hn⟩ rfl).symm
  refine Eq.trans ?_ (gru_at _ _ _ _ _ _ ⟨t.val * 5000 + p.val, hn⟩ j).symm
  exact update_congr (gate_in V c t p (Cert.Spec.colZ j) ⟨t.val * 5000 + p.val, hn⟩ rfl) (gate_st V c t p (Cert.Spec.colZ j) ⟨t.val * 5000 + p.val, hn⟩ rfl)
    (gate_in V c t p (Cert.Spec.colN j) ⟨t.val * 5000 + p.val, hn⟩ rfl) (gate_in V c t p (Cert.Spec.colR j) ⟨t.val * 5000 + p.val, hn⟩ rfl)
    (gate_st V c t p (Cert.Spec.colR j) ⟨t.val * 5000 + p.val, hn⟩ rfl) (gate_st V c t p (Cert.Spec.colN j) ⟨t.val * 5000 + p.val, hn⟩ rfl)
    (h_block V c t p j ⟨t.val * 5000 + p.val, hn⟩ rfl)

/-- Every row of the array is in the block of the point `row / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, -, -, e0, e1⟩ := idx_facts ⟨(i 0).val / 5000, hlt⟩
  have e0' : win1_6.index ⟨(i 0).val / 5000, hlt⟩ (0 : Fin 2) = (i 0).val / 5000 := e0
  refine ⟨⟨(i 0).val / 5000, hlt⟩, flush1_6 _, ?_⟩
  show i ∈ ((View.whole (Pipeline.arrRef spec1 6)).slice (win1_6.rect ⟨(i 0).val / 5000, hlt⟩)).set
  rw [View.set_slice_whole, Rect.mem_set_unit]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 64 ≤ (i 1).val ∧ (i 1).val < win1_6.index ⟨(i 0).val / 5000, hlt⟩ (1 : Fin 2) * 64 + 64; omega

/-- After the first update call its output array is the gated update of its six input arrays as the call finds them. -/
theorem arr (c : Dev nD) :
    (dat1 (F := Ideal) V c).arrAt 6 cfg1.N
      = Cert.Spec.gru (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => flushed_eq V c t) fun i => cover i

end Cert.KernelIdeal.R1

end
-- ==== Proof.RefGru1.lean ====
import proofs.«428605_j28329604284558_1_alg».proof.Proof.RefStages
import proofs.«428605_j28329604284558_1_alg».proof.Proof.Spec
import Idealize.ShloMosaic.Lib.Pipeline.Value
import Idealize.ShloMosaic.Lib.ValueIdx
import Idealize.ShloMosaic.PureOps.Ideal.Laws

noncomputable section

namespace Cert.ReferenceIdeal.BridgeGru1

open Cert.ReferenceIdeal Cert.ReferenceIdeal.Gen Cert.ReferenceIdeal.Stages
open Idealize.ShloMosaic Idealize.ShloMosaic.TcCoe Idealize.ShloMosaic.ValueIdx Idealize.SL.Sem

variable (x0 : (⟨S100000x1, .i32⟩ : BufTy).Contents (Elt Ideal)) (x1 : (⟨S2x1000000, .i32⟩ : BufTy).Contents (Elt Ideal))
  (x3 : (⟨S100000, .i32⟩ : BufTy).Contents (Elt Ideal)) (x4 : (⟨S100x64, .f32⟩ : BufTy).Contents (Elt Ideal))
  (x7 : (⟨S3x64x64, .f32⟩ : BufTy).Contents (Elt Ideal)) (x8 x9 : (⟨S3x192x64, .f32⟩ : BufTy).Contents (Elt Ideal))
  (x10 x11 : (⟨S3x192, .f32⟩ : BufTy).Contents (Elt Ideal))

/-- The binary word of the float 1.0 denotes the extended real 1. -/
theorem ofBits_one_f32 : Ideal.ofBits .f32 0x3F800000#32 = (1 : EReal) := by
  simp [Ideal.ofBits, Ideal.ieee, -EReal.coe_mul]; norm_num

/-- `1 / (1 + e^(-x))`, spelled with the reference's operations and the word of 1.0, is the logistic function. -/
theorem logistic_expand (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [ofBits_one_f32]

/-- The three column slices of the input-side pre-activations read the reset, update and candidate columns. -/
theorem sliceR_agg (n : Fin 100000) (j : Fin 64) : idx_main_v48 (ix2 n j) = ix2 n (Cert.Spec.colR j) :=
  funext fun a => Fin.ext (by match a with | ⟨0, _⟩ => rfl | ⟨1, _⟩ => rfl)
theorem sliceZ_agg (n : Fin 100000) (j : Fin 64) : idx_main_v49 (ix2 n j) = ix2 n (Cert.Spec.colZ j) :=
  funext fun a => Fin.ext (by match a with | ⟨0, _⟩ => rfl | ⟨1, _⟩ => rfl)
theorem sliceN_agg (n : Fin 100000) (j : Fin 64) : idx_main_v50 (ix2 n j) = ix2 n (Cert.Spec.colN j) :=
  funext fun a => Fin.ext (by match a with | ⟨0, _⟩ => rfl | ⟨1, _⟩ => rfl)
/-- The same three slices of the state-side pre-activations. -/
theorem sliceR_st (n : Fin 100000) (j : Fin 64) : idx_main_v51 (ix2 n j) = ix2 n (Cert.Spec.colR j) :=
  funext fun a => Fin.ext (by match a with | ⟨0, _⟩ => rfl | ⟨1, _⟩ => rfl)
theorem sliceZ_st (n : Fin 100000) (j : Fin 64) : idx_main_v52 (ix2 n j) = ix2 n (Cert.Spec.colZ j) :=
  funext fun a => Fin.ext (by match a with | ⟨0, _⟩ => rfl | ⟨1, _⟩ => rfl)
theorem sliceN_st (n : Fin 100000) (j : Fin 64) : idx_main_v53 (ix2 n j) = ix2 n (Cert.Spec.colN j) :=
  funext fun a => Fin.ext (by match a with | ⟨0, _⟩ => rfl | ⟨1, _⟩ => rfl)

/-- The input-side pre-activation, a product along the contraction plus the broadcast bias row, at row `n` and gate column `c`. -/
theorem gate_agg (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v39 (ix2 n c) k) * w (ridx_main_v39 (ix2 n c) k)) (b (idx_main_v41 (ix2 n c)))
      = Cert.Spec.gate a w b n c := by
  have el : ∀ k : Fin 64, lidx_main_v39 (ix2 n c) k = ix2 n k := fun k =>
    funext fun d => Fin.ext (by match d with | ⟨0, _⟩ => rfl | ⟨1, _⟩ => rfl)
  have er : ∀ k : Fin 64, ridx_main_v39 (ix2 n c) k = ix2 k c := fun k =>
    funext fun d => Fin.ext (by match d with | ⟨0, _⟩ => rfl | ⟨1, _⟩ => rfl)
  have eb : idx_main_v41 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The state-side pre-activation at row `n` and gate column `c`. -/
theorem gate_st (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v44 (ix2 n c) k) * w (ridx_main_v44 (ix2 n c) k)) (b (idx_main_v46 (ix2 n c)))
      = Cert.Spec.gate a w b n c := by
  have el : ∀ k : Fin 64, lidx_main_v44 (ix2 n c) k = ix2 n k := fun k =>
    funext fun d => Fin.ext (by match d with | ⟨0, _⟩ => rfl | ⟨1, _⟩ => rfl)
  have er : ∀ k : Fin 64, ridx_main_v44 (ix2 n c) k = ix2 k c := fun k =>
    funext fun d => Fin.ext (by match d with | ⟨0, _⟩ => rfl | ⟨1, _⟩ => rfl)
  have eb : idx_main_v46 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The update's arithmetic at one entry, over any six arrays: the reference's operations at the ideal values, applied to the six
    gate pre-activations and the state's entry, are the specification's update there. -/
theorem gru_point (agg h : S100000x64.Idx → Ideal .f32) (wih whh : S64x192.Idx → Ideal .f32) (bih bhh : S1x192.Idx → Ideal .f32)
    (n : Fin 100000) (j : Fin 64) :
    FloatOps.maximumf (F := Ideal) (φ := .f32)
      (FloatOps.addf (F := Ideal) (φ := .f32)
        (FloatOps.mulf (F := Ideal) (φ := .f32)
          (FloatOps.subf (F := Ideal) (φ := .f32) (FloatOps.ofBits (F := Ideal) .f32 0x3F800000#32)
            (Ideal.logistic (FloatOps.addf (F := Ideal) (φ := .f32) (Cert.Spec.gate agg wih bih n (Cert.Spec.colZ j)) (Cert.Spec.gate h whh bhh n (Cert.Spec.colZ j)))))
          (FloatOps.hostUnary (F := Ideal) (φ := .f32) .tanh
            (FloatOps.addf (F := Ideal) (φ := .f32) (Cert.Spec.gate agg wih bih n (Cert.Spec.colN j))
              (FloatOps.mulf (F := Ideal) (φ := .f32)
                (Ideal.logistic (FloatOps.addf (F := Ideal) (φ := .f32) (Cert.Spec.gate agg wih bih n (Cert.Spec.colR j)) (Cert.Spec.gate h whh bhh n (Cert.Spec.colR j))))
                (Cert.Spec.gate h whh bhh n (Cert.Spec.colN j))))))
        (FloatOps.mulf (F := Ideal) (φ := .f32)
          (Ideal.logistic (FloatOps.addf (F := Ideal) (φ := .f32) (Cert.Spec.gate agg wih bih n (Cert.Spec.colZ j)) (Cert.Spec.gate h whh bhh n (Cert.Spec.colZ j))))
          (h (ix2 n j))))
      (FloatOps.ofBits (F := Ideal) .f32 0x00000000#32)
    = Cert.Spec.gru agg h wih whh bih bhh (ix2 n j) := rfl

/-- The reference's first gated update and rectifier, as the stage function of its aggregate, its state, its two
    transposed weight slices and its two bias rows. -/
theorem gru1 : val_main_v76 (F := Ideal) x0 x1 x4 x7 x8 x9 x10 x11
    = Cert.Spec.gru (val_main_v29 (F := Ideal) x0 x1 x4 x7) (val_main_v7 (F := Ideal) x0 x4)
        (val_main_v38 (F := Ideal) x8) (val_main_v43 (F := Ideal) x9) (val_main_v40 (F := Ideal) x10) (val_main_v45 (F := Ideal) x11) := by
  funext i
  obtain ⟨n, j, rfl⟩ : ∃ (n : Fin 100000) (j : Fin 64), i = ix2 n j := ⟨i 0, i 1, eq_ix2 i⟩
  -- each constant-filled array, read at an entry, is its word
  have oneA : val_main_v57 (F := Ideal) (ix2 n j) = FloatOps.ofBits (F := Ideal) .f32 0x3F800000#32 := (val_main_v57_apply _).trans rfl
  have oneB : val_main_v59 (F := Ideal) (ix2 n j) = FloatOps.ofBits (F := Ideal) .f32 0x3F800000#32 := (val_main_v59_apply _).trans rfl
  have oneC : val_main_v64 (F := Ideal) (ix2 n j) = FloatOps.ofBits (F := Ideal) .f32 0x3F800000#32 := (val_main_v64_apply _).trans rfl
  have oneD : val_main_v66 (F := Ideal) (ix2 n j) = FloatOps.ofBits (F := Ideal) .f32 0x3F800000#32 := (val_main_v66_apply _).trans rfl
  have oneE : val_main_v71 (F := Ideal) (ix2 n j) = FloatOps.ofBits (F := Ideal) .f32 0x3F800000#32 := (val_main_v71_apply _).trans rfl
  have zeroA : val_main_call0_v0 (F := Ideal) (ix2 n j) = FloatOps.ofBits (F := Ideal) .f32 0x00000000#32 := (val_main_call0_v0_apply _).trans rfl
  -- a pre-activation array is the product array plus the broadcast bias row, entry by entry
  have sumI := val_main_v42_apply (F := Ideal)
  have sumS := val_main_v47_apply (F := Ideal)
  -- open the entrywise stages from the output inwards; the two `1 / (1 + e^(-x))` are logistic functions, and the six
  -- column slices read the reset, update and candidate columns
  rw [val_main_v76_apply, val_main_v75_apply, val_main_v73_apply, val_main_v74_apply, val_main_v72_apply,
    val_main_v70_apply, val_main_v69_apply, val_main_v68_apply,
    val_main_v67_apply, val_main_v65_apply, val_main_v63_apply, val_main_v62_apply, val_main_v61_apply,
    val_main_v60_apply, val_main_v58_apply, val_main_v56_apply, val_main_v55_apply, val_main_v54_apply,
    oneA, oneB, oneC, oneD, oneE, zeroA, logistic_expand, logistic_expand,
    val_main_v48_apply, val_main_v49_apply, val_main_v50_apply, val_main_v51_apply, val_main_v52_apply, val_main_v53_apply,
    sliceR_agg, sliceZ_agg, sliceN_agg, sliceR_st, sliceZ_st, sliceN_st]
  -- each of the six pre-activations is a gate of the specification
  simp only [sumI, sumS, val_main_v39_apply, val_main_v44_apply, val_main_v41_apply, val_main_v46_apply, gate_agg, gate_st]
  exact gru_point _ _ _ _ _ _ n j

end Cert.ReferenceIdeal.BridgeGru1

end
-- ==== Proof.KLayer1d.lean ====
import proofs.«428605_j28329604284558_1_alg».proof.Proof.KCarried
import proofs.«428605_j28329604284558_1_alg».proof.Proof.KLayer1b
import proofs.«428605_j28329604284558_1_alg».proof.Proof.KLayer1c
import proofs.«428605_j28329604284558_1_alg».proof.Proof.Region1
import proofs.«428605_j28329604284558_1_alg».proof.Proof.RefGru1

set_option maxRecDepth 16384
-- one declaration at a time: each reading of a stretch holds gigabytes while it is checked
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages
open Cert.KernelIdeal.Facts₀ Cert.KernelIdeal.Facts

variable (m : (ℓ : Loc nD τ sig) → Buf (Elt Ideal) ℓ) (ρ : Dev nD → PrngReg) (c : Dev nD)

/-! ## The stretch between the first two calls at the boundaries, and the first update call -/

/-- The carried buffers after the gather stretch. -/
theorem carried5 : Carried m c (W5 m ρ c) where
  src := (keep5 m ρ c main_v3 (by not_written hostOps1)).trans (carried4 m ρ c).src
  dst := (keep5 m ρ c main_v5 (by not_written hostOps1)).trans (carried4 m ρ c).dst
  wih := (keep5 m ρ c main_v6 (by not_written hostOps1)).trans (carried4 m ρ c).wih
  whh := (keep5 m ρ c main_v7 (by not_written hostOps1)).trans (carried4 m ρ c).whh
  arg3 := (keep5 m ρ c main_arg3 (by not_written hostOps1)).trans (carried4 m ρ c).arg3
  arg7 := (keep5 m ρ c main_arg7 (by not_written hostOps1)).trans (carried4 m ρ c).arg7
  arg10 := (keep5 m ρ c main_arg10 (by not_written hostOps1)).trans (carried4 m ρ c).arg10
  arg11 := (keep5 m ρ c main_arg11 (by not_written hostOps1)).trans (carried4 m ρ c).arg11

theorem W5_v11 (hx : TokRange m c) (hs : SrcRange m c) :
    W5 m ρ c (Proc.devRef .tc main_v11) = val_main_v26 (F := Ideal) (a0 m c) (a1 m c) (a4 m c) (a7 m c) :=
  (gathered (W4 m ρ c) _ (a1 m c) hs (W4_v10 m ρ c hx) (carried4 m ρ c).src).trans rfl

/-- The aggregate the first update call reads. -/
theorem W6_v14 (hx : TokRange m c) (hs : SrcRange m c) :
    W6 m ρ c (Proc.devRef .tc main_v14) = val_main_v29 (F := Ideal) (a0 m c) (a1 m c) (a4 m c) (a7 m c) :=
  (scattered (W5 m ρ c) _ (a1 m c) (W5_v11 m ρ c hx hs) (carried5 m ρ c).dst).trans rfl

/-- The state the first update call reads: the embedding, untouched since the look-up. -/
theorem W6_v1 (hx : TokRange m c) : W6 m ρ c (Proc.devRef .tc main_v1) = val_main_v7 (F := Ideal) (a0 m c) (a4 m c) :=
  (keep6 m ρ c main_v1 (by not_written hostOps1_1)).trans ((keep5 m ρ c main_v1 (by not_written hostOps1)).trans
    (W4_v1 m ρ c hx))

/-! ## The first update call -/

theorem W7_v25 (hx : TokRange m c) (hs : SrcRange m c) :
    W7 m ρ c (Proc.devRef .tc main_v25) = val_main_v76 (F := Ideal) (a0 m c) (a1 m c) (a4 m c) (a7 m c) (a8 m c) (a9 m c) (a10 m c) (a11 m c) :=
  (W7_arr m ρ c 6).trans ((Cert.KernelIdeal.R1.arr (V6 m ρ) c).trans
    ((congr (congr (congr (congr (congr (congrArg Cert.Spec.gru (W6_v14 m ρ c hx hs)) (W6_v1 m ρ c hx))
        (wih_slice (W5 m ρ c) (a8 m c) (carried5 m ρ c).wih))
        (whh_slice (W5 m ρ c) (a9 m c) (carried5 m ρ c).whh))
        (bih_row (W5 m ρ c) (a10 m c) (carried5 m ρ c).arg10))
        (bhh_row (W5 m ρ c) (a11 m c) (carried5 m ρ c).arg11)).trans
      (Cert.ReferenceIdeal.BridgeGru1.gru1 (a0 m c) (a1 m c) (a4 m c) (a7 m c) (a8 m c) (a9 m c) (a10 m c) (a11 m c)).symm))

/-- The carried buffers at the first update call's exit. -/
theorem carried7 : Carried m c (W7 m ρ c) where
  src := (keep7 m ρ c main_v3 (by decide)).trans ((keep6 m ρ c main_v3 (by not_written hostOps1_1)).trans (carried5 m ρ c).src)
  dst := (keep7 m ρ c main_v5 (by decide)).trans ((keep6 m ρ c main_v5 (by not_written hostOps1_1)).trans (carried5 m ρ c).dst)
  wih := (keep7 m ρ c main_v6 (by decide)).trans ((keep6 m ρ c main_v6 (by not_written hostOps1_1)).trans (carried5 m ρ c).wih)
  whh := (keep7 m ρ c main_v7 (by decide)).trans ((keep6 m ρ c main_v7 (by not_written hostOps1_1)).trans (carried5 m ρ c).whh)
  arg3 := (keep7 m ρ c main_arg3 (by decide)).trans ((keep6 m ρ c main_arg3 (by not_written hostOps1_1)).trans (carried5 m ρ c).arg3)
  arg7 := (keep7 m ρ c main_arg7 (by decide)).trans ((keep6 m ρ c main_arg7 (by not_written hostOps1_1)).trans (carried5 m ρ c).arg7)
  arg10 := (keep7 m ρ c main_arg10 (by decide)).trans ((keep6 m ρ c main_arg10 (by not_written hostOps1_1)).trans (carried5 m ρ c).arg10)
  arg11 := (keep7 m ρ c main_arg11 (by decide)).trans ((keep6 m ρ c main_arg11 (by not_written hostOps1_1)).trans (carried5 m ρ c).arg11)

/-- After the first layer (the embedding look-up, the first transform call, the gather and scatter-add along the edges,
    the first update call) the state buffer holds the reference's first-layer stage, and the carried buffers are intact. -/
theorem layer1 (hx : TokRange m c) (hs : SrcRange m c) :
    W7 m ρ c (Proc.devRef .tc main_v25) = val_main_v76 (F := Ideal) (a0 m c) (a1 m c) (a4 m c) (a7 m c) (a8 m c) (a9 m c) (a10 m c) (a11 m c) ∧ Carried m c (W7 m ρ c) :=
  ⟨W7_v25 m ρ c hx hs, carried7 m ρ c⟩

end Cert.KernelIdeal.Chain

end
-- ==== Proof.Region2.lean ====
/-
  The transform call, read as mathematics. The call walks 20 points; at point t it takes rows 5000·t … 5000·t + 4999 of a
  [100000, 64] array and the whole of a [64, 64] matrix, and stores into rows 5000·t … 5000·t + 4999 of its output the
  product of the two blocks. Over the extended reals the narrowing casts are the identity and the product into a zero
  accumulator is the plain sum over the 64 channels, so entry (r, q) of the stored block is Σ_k x0[r, k] · x1[k, q]
  (`pay_apply`). Block t of the left array at row r is row 5000·t + r of the array, and the matrix window is the matrix
  itself at every point, so what point t writes back is block t of `h @ W` (`flushed_eq`). Row n of the output lies in the
  block of point n / 5000, every point writes its block back, so the blocks tile the output (`covered`) and the array ends
  holding `h @ W` (`arr`).
-/
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index at output index `i` and contraction index `q`: the output's row on axis 0 … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contraction coordinate on axis 1. -/
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction coordinate on axis 0 … -/
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column on axis 1. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores, at row `p` and column `q` of its block: over the extended reals the narrowing casts and the
    same-shape casts are the identity and the product into a zero accumulator is the plain sum, so the entry is
    Σ_k x0[p, k] · x1[k, q]. -/
theorem pay_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]
  rfl

/-! ## What a point writes back -/

theorem zero_offsets : (![0, 0] : Fin 2 → Nat) = fun _ => 0 := funext fun a => by
  match a with
  | ⟨0, _⟩ => rfl
  | ⟨1, _⟩ => rfl

/-- The printed index maps, decided over the grid: at point `t` the row window and the output window sit at block row
    `t` and block column 0, and the matrix window at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 1000000 in
/-- WHAT POINT `t` WRITES BACK is block `t` of the product of the two input arrays as the call finds them: row `r` of
    the stored block is row 5000·t + r of the left array against the whole right array. -/
theorem flushed_eq (c : Dev nD) (t : Fin cfg2.N) :
    (dat2 (F := Ideal) V c).flushed 2 t = ((cfg2.win 2).blk t).view.read (Elt Ideal) (Cert.Spec.mm (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := idx_facts t
  funext j
  have hj0 : (j 0).val < 5000 := (j 0).isLt
  have hj1 : (j 1).val < 64 := (j 1).isLt
  show k2_pay1 (iblk2 V c 0 t) (iblk2 V c 1 t) (ix2 ⟨(j 0).val, hj0⟩ ⟨(j 1).val, hj1⟩) = Cert.Spec.mm (V c (Pipeline.arrRef spec2 0)) (V c (Pipeline.arrRef spec2 1)) (((cfg2.win 2).blk t).view.emb j)
  rw [pay_apply]
  unfold Cert.Spec.mm
  refine Finset.sum_congr rfl fun k _ => ?_
  have h0 : ((cfg2.win 0).blk t).view.emb (ix2 ⟨(j 0).val, hj0⟩ k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 k ⟨(j 1).val, hj1⟩) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have g0 : iblk2 V c 0 t (ix2 ⟨(j 0).val, hj0⟩ k) = V c (Pipeline.arrRef spec2 0) (ix2 ((((cfg2.win 2).blk t).view.emb j) 0) k) :=
    congrArg (V c (Pipeline.arrRef spec2 0)) h0
  have g1 : iblk2 V c 1 t (ix2 k ⟨(j 1).val, hj1⟩) = V c (Pipeline.arrRef spec2 1) (ix2 k ((((cfg2.win 2).blk t).view.emb j) 1)) :=
    congrArg (V c (Pipeline.arrRef spec2 1)) h1
  rw [g0, g1]

/-! ## The output's blocks tile the array -/

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole (Pipeline.arrRef spec2 2)).slice (win2_2.rect t)).set ↔ _
  rw [View.set_slice_whole, Rect.mem_set_unit]
  exact Iff.rfl

/-- Row `r` of the array lies in the block of point `r / 5000`, which is written back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-! ## The array after the call -/

/-- After the transform call its output array is `h @ W` of its two input arrays as the call finds them. -/
theorem arr (c : Dev nD) :
    (dat2 (F := Ideal) V c).arrAt 2 cfg2.N = Cert.Spec.mm (V c (Pipeline.arrRef spec2 0)) (V c (Pipeline.arrRef spec2 1)) :=
  (dat2 V c).arrAt_eq_of_cover 2 _ (fun t _ => flushed_eq V c t) covered

end Cert.KernelIdeal.R2

end
-- ==== Proof.Region3.lean ====
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index of the block -/

/-- The product of a block of rows with a weight matrix pairs row index with row, contraction index with column on the left, -/
theorem lhs_rows (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
  rfl
theorem lhs_contr (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q
/-- and contraction index with row, column index with column on the right. -/
theorem rhs_contr (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q
theorem rhs_cols (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
  rfl

/-- One gate pre-activation over a block: row `p` of the block against column `c` of the weights, plus the bias. -/
def gateB (a : S5000x64.Idx → EReal) (w : S64x192.Idx → EReal) (b : S1x192.Idx → EReal) (p : Fin 5000) (c : Fin 192) : EReal :=
  (∑ k : Fin 64, a (ix2 p k) * w (ix2 k c)) + b (ix2 0 c)

/-- Over the extended reals the block's matrix product started from zero is the plain sum over the 64 channels. -/
theorem matmul_at (x : Vec Ideal S5000x64 .f32) (w : Vec Ideal S64x192 .f32)
    (hx : S5000x64.ShapeCasts S5000x64) (hw : S64x192.ShapeCasts S64x192) (hlt : FTy.bits .bf16 < FTy.bits .f32)
    (p : Fin 5000) (c : Fin 192) :
    matmul (F := Ideal) dot_S5000x64_S64x192_S5000x192_1_0_0_1_n_n none (truncf .bf16 (shapeCast S5000x64 x hx) hlt)
        (truncf .bf16 (shapeCast S64x192 w hw) hlt) (constant S5000x192 .f32 0x00000000#32) (ix2 p c)
      = ∑ k : Fin 64, x (ix2 p k) * w (ix2 k c) := by
  simp only [matmul]
  rw [Ideal.matmul_constant_zero_apply, ← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : dot_S5000x64_S64x192_S5000x192_1_0_0_1_n_n.lhsIdx (ix2 p c) ((contrEquiv1 dot_S5000x64_S64x192_S5000x192_1_0_0_1_n_n 64 rfl rfl).symm k) = ix2 p k := funext fun a => Fin.ext (by
    match a with
    | ⟨0, _⟩ => exact lhs_rows _ _
    | ⟨1, _⟩ => exact (lhs_contr _ _).trans hk)
  have er : dot_S5000x64_S64x192_S5000x192_1_0_0_1_n_n.rhsIdx (ix2 p c) ((contrEquiv1 dot_S5000x64_S64x192_S5000x192_1_0_0_1_n_n 64 rfl rfl).symm k) = ix2 k c := funext fun a => Fin.ext (by
    match a with
    | ⟨0, _⟩ => exact (rhs_contr _ _).trans hk
    | ⟨1, _⟩ => exact rhs_cols _ _)
  rw [el, er]
  show shapeCast S5000x64 x hx (ix2 p k) * shapeCast S64x192 w hw (ix2 k c) = _
  rw [shapeCast_self, shapeCast_self]

/-- The gate pre-activations the body forms: product, plus the bias row broadcast down the block. -/
theorem pre_at (x : Vec Ideal S5000x64 .f32) (w : Vec Ideal S64x192 .f32) (b : Vec Ideal S1x192 .f32)
    (hx : S5000x64.ShapeCasts S5000x64) (hw : S64x192.ShapeCasts S64x192) (hb : S1x192.ShapeCasts S1x192)
    (hlt : FTy.bits .bf16 < FTy.bits .f32) (hbc : S1x192.Broadcasts S5000x192) (p : Fin 5000) (c : Fin 192) :
    addf (F := Ideal) (matmul dot_S5000x64_S64x192_S5000x192_1_0_0_1_n_n none (truncf .bf16 (shapeCast S5000x64 x hx) hlt)
          (truncf .bf16 (shapeCast S64x192 w hw) hlt) (constant S5000x192 .f32 0x00000000#32))
        (broadcastTo S5000x192 (shapeCast S1x192 b hb) hbc) (ix2 p c)
      = gateB x w b p c := by
  show matmul (F := Ideal) dot_S5000x64_S64x192_S5000x192_1_0_0_1_n_n none (truncf .bf16 (shapeCast S5000x64 x hx) hlt)
          (truncf .bf16 (shapeCast S64x192 w hw) hlt) (constant S5000x192 .f32 0x00000000#32) (ix2 p c)
        + broadcastTo S5000x192 (shapeCast S1x192 b hb) hbc (ix2 p c) = _
  rw [matmul_at, broadcastTo_1b_ab_apply, shapeCast_self]
  rfl

/-- The update the body forms from the two arrays of gate pre-activations and the state block, at one entry. -/
theorem update_at (gi gh : FVec Ideal S5000x192 .f32) (h : Vec Ideal S5000x64 .f32)
    (s0 : S5000x192.Slices ![0, 0] S5000x64) (s64 : S5000x192.Slices ![0, 64] S5000x64)
    (s128 : S5000x192.Slices ![0, 128] S5000x64) (hc : S5000x64.ShapeCasts S5000x64) (p : Fin 5000) (j : Fin 64) :
    maximumf (F := Ideal)
        (addf
          (mulf (subf (broadcast S5000x64 (Scalar.ofBits .f32 0x3F800000#32))
                  (logistic (addf (extractStridedSlice S5000x64 ![0, 64] gi s64) (extractStridedSlice S5000x64 ![0, 64] gh s64))))
            (tanh (addf (extractStridedSlice S5000x64 ![0, 128] gi s128)
                  (mulf (logistic (addf (extractStridedSlice S5000x64 ![0, 0] gi s0) (extractStridedSlice S5000x64 ![0, 0] gh s0)))
                    (extractStridedSlice S5000x64 ![0, 128] gh s128)))))
          (mulf (logistic (addf (extractStridedSlice S5000x64 ![0, 64] gi s64) (extractStridedSlice S5000x64 ![0, 64] gh s64)))
            (shapeCast S5000x64 h hc)))
        (broadcast S5000x64 (Scalar.ofBits .f32 0x00000000#32)) (ix2 p j)
      = max ((Cert.Spec.one - Ideal.logistic (gi (ix2 p (Cert.Spec.colZ j)) + gh (ix2 p (Cert.Spec.colZ j))))
              * Ideal.tanh (gi (ix2 p (Cert.Spec.colN j))
                  + Ideal.logistic (gi (ix2 p (Cert.Spec.colR j)) + gh (ix2 p (Cert.Spec.colR j))) * gh (ix2 p (Cert.Spec.colN j)))
            + Ideal.logistic (gi (ix2 p (Cert.Spec.colZ j)) + gh (ix2 p (Cert.Spec.colZ j))) * h (ix2 p j))
          Cert.Spec.zero := by
  have ri := slice2_axis1_apply 0 gi s0 p j (Cert.Spec.colR j) (Nat.zero_add _).symm
  have rh := slice2_axis1_apply 0 gh s0 p j (Cert.Spec.colR j) (Nat.zero_add _).symm
  have zi := slice2_axis1_apply 64 gi s64 p j (Cert.Spec.colZ j) rfl
  have zh := slice2_axis1_apply 64 gh s64 p j (Cert.Spec.colZ j) rfl
  have ni := slice2_axis1_apply 128 gi s128 p j (Cert.Spec.colN j) rfl
  have nh := slice2_axis1_apply 128 gh s128 p j (Cert.Spec.colN j) rfl
  have hh : shapeCast S5000x64 h hc (ix2 p j) = h (ix2 p j) := by rw [shapeCast_self]
  show max ((Cert.Spec.one - Ideal.logistic (extractStridedSlice S5000x64 ![0, 64] gi s64 (ix2 p j) + extractStridedSlice S5000x64 ![0, 64] gh s64 (ix2 p j)))
              * Ideal.tanh (extractStridedSlice S5000x64 ![0, 128] gi s128 (ix2 p j)
                  + Ideal.logistic (extractStridedSlice S5000x64 ![0, 0] gi s0 (ix2 p j) + extractStridedSlice S5000x64 ![0, 0] gh s0 (ix2 p j))
                    * extractStridedSlice S5000x64 ![0, 128] gh s128 (ix2 p j))
            + Ideal.logistic (extractStridedSlice S5000x64 ![0, 64] gi s64 (ix2 p j) + extractStridedSlice S5000x64 ![0, 64] gh s64 (ix2 p j))
              * shapeCast S5000x64 h hc (ix2 p j))
          Cert.Spec.zero = _
  rw [ri, rh, zi, zh, ni, nh, hh]

/-- What the body stores at row `p`, channel `j` of its block, from the six blocks it loads. -/
theorem stored_at (x0 x1 : Vec Ideal S5000x64 .f32) (x2 x3 : Vec Ideal S64x192 .f32) (x4 x5 : Vec Ideal S1x192 .f32)
    (p : Fin 5000) (j : Fin 64) :
    k3_pay1 (F := Ideal) (k3_pay2 x0 x1 x2 x3 x4 x5 x1) (ix2 p j)
      = max ((Cert.Spec.one - Ideal.logistic (gateB x0 x2 x4 p (Cert.Spec.colZ j) + gateB x1 x3 x5 p (Cert.Spec.colZ j)))
              * Ideal.tanh (gateB x0 x2 x4 p (Cert.Spec.colN j)
                  + Ideal.logistic (gateB x0 x2 x4 p (Cert.Spec.colR j) + gateB x1 x3 x5 p (Cert.Spec.colR j)) * gateB x1 x3 x5 p (Cert.Spec.colN j))
            + Ideal.logistic (gateB x0 x2 x4 p (Cert.Spec.colZ j) + gateB x1 x3 x5 p (Cert.Spec.colZ j)) * x1 (ix2 p j))
          Cert.Spec.zero := by
  unfold k3_pay1 k3_pay2
  refine (update_at _ _ x1 _ _ _ _ p j).trans ?_
  simp only [pre_at]

/-! ## The loaded blocks as parts of the arrays -/

theorem hz : (![0, 0] : Fin 2 → Nat) = fun _ => 0 := funext fun a => by fin_cases a <;> rfl

/-- The index maps over the grid: the two row-blocked inputs and the output sit at block `t`, the weights and the biases at
    block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of block `t` of the aggregated messages is row `5000 t + p` of the array. -/
theorem agg_block (c : Dev nD) (t : Fin cfg3.N) (p : Fin 5000) (k : Fin 64) (n : Fin 100000) (hn : n.val = t.val * 5000 + p.val) :
    (iblk3 (F := Ideal) V c 0 t : Vec Ideal S5000x64 .f32) (ix2 p k) = (V c (Pipeline.arrRef spec3 0) : S100000x64.Idx → EReal) (ix2 n k) := by
  obtain ⟨e0, e1, -⟩ := idx_facts t
  show (V c (Pipeline.arrRef spec3 0) : S100000x64.Idx → EReal) (((cfg3.win 0).blk t).view.emb (ix2 p k)) = _
  refine congrArg _ (funext fun a => Fin.ext ?_)
  match a with
  | ⟨0, _⟩ => show win3_0.index t (0 : Fin 2) * 5000 + 1 * p.val = n.val; omega
  | ⟨1, _⟩ => show win3_0.index t (1 : Fin 2) * 64 + 1 * k.val = k.val; omega

/-- Row `p` of block `t` of the state is row `5000 t + p` of the array. -/
theorem h_block (c : Dev nD) (t : Fin cfg3.N) (p : Fin 5000) (k : Fin 64) (n : Fin 100000) (hn : n.val = t.val * 5000 + p.val) :
    (iblk3 (F := Ideal) V c 1 t : Vec Ideal S5000x64 .f32) (ix2 p k) = (V c (Pipeline.arrRef spec3 1) : S100000x64.Idx → EReal) (ix2 n k) := by
  obtain ⟨-, -, e0, e1, -⟩ := idx_facts t
  show (V c (Pipeline.arrRef spec3 1) : S100000x64.Idx → EReal) (((cfg3.win 1).blk t).view.emb (ix2 p k)) = _
  refine congrArg _ (funext fun a => Fin.ext ?_)
  match a with
  | ⟨0, _⟩ => show win3_1.index t (0 : Fin 2) * 5000 + 1 * p.val = n.val; omega
  | ⟨1, _⟩ => show win3_1.index t (1 : Fin 2) * 64 + 1 * k.val = k.val; omega

/-- The one block of each weight matrix is the matrix, -/
theorem wih_block (c : Dev nD) (t : Fin cfg3.N) (i : S64x192.Idx) :
    (iblk3 (F := Ideal) V c 2 t : Vec Ideal S64x192 .f32) i = (V c (Pipeline.arrRef spec3 2) : S64x192.Idx → EReal) i := by
  obtain ⟨-, -, -, -, e0, e1, -⟩ := idx_facts t
  show (V c (Pipeline.arrRef spec3 2) : S64x192.Idx → EReal) (((cfg3.win 2).blk t).view.emb i) = _
  refine congrArg _ (funext fun a => Fin.ext ?_)
  match a with
  | ⟨0, _⟩ => show win3_2.index t (0 : Fin 2) * 64 + 1 * (i 0).val = (i 0).val; omega
  | ⟨1, _⟩ => show win3_2.index t (1 : Fin 2) * 192 + 1 * (i 1).val = (i 1).val; omega
theorem whh_block (c : Dev nD) (t : Fin cfg3.N) (i : S64x192.Idx) :
    (iblk3 (F := Ideal) V c 3 t : Vec Ideal S64x192 .f32) i = (V c (Pipeline.arrRef spec3 3) : S64x192.Idx → EReal) i := by
  obtain ⟨-, -, -, -, -, -, e0, e1, -⟩ := idx_facts t
  show (V c (Pipeline.arrRef spec3 3) : S64x192.Idx → EReal) (((cfg3.win 3).blk t).view.emb i) = _
  refine congrArg _ (funext fun a => Fin.ext ?_)
  match a with
  | ⟨0, _⟩ => show win3_3.index t (0 : Fin 2) * 64 + 1 * (i 0).val = (i 0).val; omega
  | ⟨1, _⟩ => show win3_3.index t (1 : Fin 2) * 192 + 1 * (i 1).val = (i 1).val; omega
/-- and the one block of each bias row is the row. -/
theorem bih_block (c : Dev nD) (t : Fin cfg3.N) (i : S1x192.Idx) :
    (iblk3 (F := Ideal) V c 4 t : Vec Ideal S1x192 .f32) i = (V c (Pipeline.arrRef spec3 4) : S1x192.Idx → EReal) i := by
  obtain ⟨-, -, -, -, -, -, -, -, e0, e1, -⟩ := idx_facts t
  show (V c (Pipeline.arrRef spec3 4) : S1x192.Idx → EReal) (((cfg3.win 4).blk t).view.emb i) = _
  refine congrArg _ (funext fun a => Fin.ext ?_)
  match a with
  | ⟨0, _⟩ => show win3_4.index t (0 : Fin 2) * 1 + 1 * (i 0).val = (i 0).val; omega
  | ⟨1, _⟩ => show win3_4.index t (1 : Fin 2) * 192 + 1 * (i 1).val = (i 1).val; omega
theorem bhh_block (c : Dev nD) (t : Fin cfg3.N) (i : S1x192.Idx) :
    (iblk3 (F := Ideal) V c 5 t : Vec Ideal S1x192 .f32) i = (V c (Pipeline.arrRef spec3 5) : S1x192.Idx → EReal) i := by
  obtain ⟨-, -, -, -, -, -, -, -, -, -, e0, e1, -⟩ := idx_facts t
  show (V c (Pipeline.arrRef spec3 5) : S1x192.Idx → EReal) (((cfg3.win 5).blk t).view.emb i) = _
  refine congrArg _ (funext fun a => Fin.ext ?_)
  match a with
  | ⟨0, _⟩ => show win3_5.index t (0 : Fin 2) * 1 + 1 * (i 0).val = (i 0).val; omega
  | ⟨1, _⟩ => show win3_5.index t (1 : Fin 2) * 192 + 1 * (i 1).val = (i 1).val; omega

/-- So a gate pre-activation over the blocks at point `t` is the array's at row `5000 t + p`: the input gates, -/
theorem gate_in (c : Dev nD) (t : Fin cfg3.N) (p : Fin 5000) (col : Fin 192) (n : Fin 100000) (hn : n.val = t.val * 5000 + p.val) :
    gateB (iblk3 (F := Ideal) V c 0 t) (iblk3 (F := Ideal) V c 2 t) (iblk3 (F := Ideal) V c 4 t) p col
      = Cert.Spec.gate (V c (Pipeline.arrRef spec3 0)) (V c (Pipeline.arrRef spec3 2)) (V c (Pipeline.arrRef spec3 4)) n col := by
  unfold gateB Cert.Spec.gate
  exact congrArg₂ (· + ·) (Finset.sum_congr rfl fun k _ => congrArg₂ (· * ·) (agg_block V c t p k n hn) (wih_block V c t (ix2 k col)))
    (bih_block V c t (ix2 0 col))
/-- and the state gates. -/
theorem gate_st (c : Dev nD) (t : Fin cfg3.N) (p : Fin 5000) (col : Fin 192) (n : Fin 100000) (hn : n.val = t.val * 5000 + p.val) :
    gateB (iblk3 (F := Ideal) V c 1 t) (iblk3 (F := Ideal) V c 3 t) (iblk3 (F := Ideal) V c 5 t) p col
      = Cert.Spec.gate (V c (Pipeline.arrRef spec3 1)) (V c (Pipeline.arrRef spec3 3)) (V c (Pipeline.arrRef spec3 5)) n col := by
  unfold gateB Cert.Spec.gate
  exact congrArg₂ (· + ·) (Finset.sum_congr rfl fun k _ => congrArg₂ (· * ·) (h_block V c t p k n hn) (whh_block V c t (ix2 k col)))
    (bhh_block V c t (ix2 0 col))

/-! ## What a point writes back, the cover, the array -/

/-- Row `p` of block `t` of any array of the output's shape, read through the output's window, is row `5000 t + p` of it. -/
theorem out_block (G : S100000x64.Idx → EReal) (t : Fin cfg3.N) (p : Fin 5000) (j : Fin 64) (n : Fin 100000)
    (hn : n.val = t.val * 5000 + p.val) :
    ((cfg3.win 6).blk t).view.read (Elt Ideal) G (ix2 p j) = G (ix2 n j) := by
  obtain ⟨-, -, -, -, -, -, -, -, -, -, -, -, e0, e1⟩ := idx_facts t
  show G (((cfg3.win 6).blk t).view.emb (ix2 p j)) = _
  refine congrArg _ (funext fun a => Fin.ext ?_)
  match a with
  | ⟨0, _⟩ => show win3_6.index t (0 : Fin 2) * 5000 + 1 * p.val = n.val; omega
  | ⟨1, _⟩ => show win3_6.index t (1 : Fin 2) * 64 + 1 * j.val = j.val; omega

/-- The gated update at row `n`, channel `j`, written out. -/
theorem gru_at (agg h : Cert.Spec.SNxH.Idx → EReal) (wih whh : Cert.Spec.SHxG.Idx → EReal) (bih bhh : Cert.Spec.S1xG.Idx → EReal)
    (n : Fin 100000) (j : Fin 64) :
    Cert.Spec.gru agg h wih whh bih bhh (ix2 n j)
      = max ((Cert.Spec.one - Ideal.logistic (Cert.Spec.gate agg wih bih n (Cert.Spec.colZ j) + Cert.Spec.gate h whh bhh n (Cert.Spec.colZ j)))
              * Ideal.tanh (Cert.Spec.gate agg wih bih n (Cert.Spec.colN j)
                  + Ideal.logistic (Cert.Spec.gate agg wih bih n (Cert.Spec.colR j) + Cert.Spec.gate h whh bhh n (Cert.Spec.colR j))
                    * Cert.Spec.gate h whh bhh n (Cert.Spec.colN j))
            + Ideal.logistic (Cert.Spec.gate agg wih bih n (Cert.Spec.colZ j) + Cert.Spec.gate h whh bhh n (Cert.Spec.colZ j)) * h (ix2 n j))
          Cert.Spec.zero := rfl

/-- The update is a function of its seven entries. -/
theorem update_congr {zi zh ni ri rh nh s zi' zh' ni' ri' rh' nh' s' : EReal} (hzi : zi = zi') (hzh : zh = zh') (hni : ni = ni')
    (hri : ri = ri') (hrh : rh = rh') (hnh : nh = nh') (hs : s = s') :
    max ((Cert.Spec.one - Ideal.logistic (zi + zh)) * Ideal.tanh (ni + Ideal.logistic (ri + rh) * nh) + Ideal.logistic (zi + zh) * s) Cert.Spec.zero
      = max ((Cert.Spec.one - Ideal.logistic (zi' + zh')) * Ideal.tanh (ni' + Ideal.logistic (ri' + rh') * nh') + Ideal.logistic (zi' + zh') * s') Cert.Spec.zero := by
  rw [hzi, hzh, hni, hri, hrh, hnh, hs]

/-- What point `t` writes back is block `t` of the gated update of the six arrays as the call finds them. -/
theorem flushed_eq (c : Dev nD) (t : Fin cfg3.N) :
    (dat3 (F := Ideal) V c).flushed 6 t = ((cfg3.win 6).blk t).view.read (Elt Ideal)
      (Cert.Spec.gru (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero hz]
  simp only [View.ld_unit_zero (S := S5000x64) hz, View.ld_unit_zero (S := S64x192) hz, View.ld_unit_zero (S := S1x192) hz]
  refine funext fun (y : S5000x64.Idx) => ?_
  obtain ⟨p, j, rfl⟩ : ∃ (p : Fin 5000) (j : Fin 64), y = ix2 p j := ⟨y 0, y 1, eq_ix2 y⟩
  refine (stored_at (iblk3 (F := Ideal) V c 0 t) (iblk3 (F := Ideal) V c 1 t) (iblk3 (F := Ideal) V c 2 t) (iblk3 (F := Ideal) V c 3 t)
    (iblk3 (F := Ideal) V c 4 t) (iblk3 (F := Ideal) V c 5 t) p j).trans ?_
  have hN : cfg3.N = 20 := N_3
  have ht : t.val < 20 := hN ▸ t.isLt
  have hp : p.val < 5000 := p.isLt
  have hn : t.val * 5000 + p.val < 100000 := by omega
  refine Eq.trans ?_ (out_block (Cert.Spec.gru (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) t p j ⟨t.val * 5000 + p.val, hn⟩ rfl).symm
  refine Eq.trans ?_ (gru_at _ _ _ _ _ _ ⟨t.val * 5000 + p.val, hn⟩ j).symm
  exact update_congr (gate_in V c t p (Cert.Spec.colZ j) ⟨t.val * 5000 + p.val, hn⟩ rfl) (gate_st V c t p (Cert.Spec.colZ j) ⟨t.val * 5000 + p.val, hn⟩ rfl)
    (gate_in V c t p (Cert.Spec.colN j) ⟨t.val * 5000 + p.val, hn⟩ rfl) (gate_in V c t p (Cert.Spec.colR j) ⟨t.val * 5000 + p.val, hn⟩ rfl)
    (gate_st V c t p (Cert.Spec.colR j) ⟨t.val * 5000 + p.val, hn⟩ rfl) (gate_st V c t p (Cert.Spec.colN j) ⟨t.val * 5000 + p.val, hn⟩ rfl)
    (h_block V c t p j ⟨t.val * 5000 + p.val, hn⟩ rfl)

/-- Every row of the array is in the block of the point `row / 5000`. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have hlt : (i 0).val / 5000 < cfg3.N := by rw [hN]; omega
  obtain ⟨-, -, -, -, -, -, -, -, -, -, -, -, e0, e1⟩ := idx_facts ⟨(i 0).val / 5000, hlt⟩
  have e0' : win3_6.index ⟨(i 0).val / 5000, hlt⟩ (0 : Fin 2) = (i 0).val / 5000 := e0
  refine ⟨⟨(i 0).val / 5000, hlt⟩, flush3_6 _, ?_⟩
  show i ∈ ((View.whole (Pipeline.arrRef spec3 6)).slice (win3_6.rect ⟨(i 0).val / 5000, hlt⟩)).set
  rw [View.set_slice_whole, Rect.mem_set_unit]
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; omega
  | ⟨1, _⟩ => show win3_6.index ⟨(i 0).val / 5000, hlt⟩ (1 : Fin 2) * 64 ≤ (i 1).val ∧ (i 1).val < win3_6.index ⟨(i 0).val / 5000, hlt⟩ (1 : Fin 2) * 64 + 64; omega

/-- After the first update call its output array is the gated update of its six input arrays as the call finds them. -/
theorem arr (c : Dev nD) :
    (dat3 (F := Ideal) V c).arrAt 6 cfg3.N
      = Cert.Spec.gru (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed_eq V c t) fun i => cover i

end Cert.KernelIdeal.R3

end
-- ==== Proof.RefGru2.lean ====
import proofs.«428605_j28329604284558_1_alg».proof.Proof.RefStages
import proofs.«428605_j28329604284558_1_alg».proof.Proof.Spec
import Idealize.ShloMosaic.Lib.Pipeline.Value
import Idealize.ShloMosaic.Lib.ValueIdx
import Idealize.ShloMosaic.PureOps.Ideal.Laws

noncomputable section

namespace Cert.ReferenceIdeal.BridgeGru2

open Cert.ReferenceIdeal Cert.ReferenceIdeal.Gen Cert.ReferenceIdeal.Stages
open Idealize.ShloMosaic Idealize.ShloMosaic.TcCoe Idealize.ShloMosaic.ValueIdx Idealize.SL.Sem

variable (x0 : (⟨S100000x1, .i32⟩ : BufTy).Contents (Elt Ideal)) (x1 : (⟨S2x1000000, .i32⟩ : BufTy).Contents (Elt Ideal))
  (x3 : (⟨S100000, .i32⟩ : BufTy).Contents (Elt Ideal)) (x4 : (⟨S100x64, .f32⟩ : BufTy).Contents (Elt Ideal))
  (x7 : (⟨S3x64x64, .f32⟩ : BufTy).Contents (Elt Ideal)) (x8 x9 : (⟨S3x192x64, .f32⟩ : BufTy).Contents (Elt Ideal))
  (x10 x11 : (⟨S3x192, .f32⟩ : BufTy).Contents (Elt Ideal))

/-- The binary word of the float 1.0 denotes the extended real 1. -/
theorem ofBits_one_f32 : Ideal.ofBits .f32 0x3F800000#32 = (1 : EReal) := by
  simp [Ideal.ofBits, Ideal.ieee, -EReal.coe_mul]; norm_num

/-- `1 / (1 + e^(-x))`, spelled with the reference's operations and the word of 1.0, is the logistic function. -/
theorem logistic_expand (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [ofBits_one_f32]

/-- The three column slices of the input-side pre-activations read the reset, update and candidate columns. -/
theorem sliceR_agg (n : Fin 100000) (j : Fin 64) : idx_main_v108 (ix2 n j) = ix2 n (Cert.Spec.colR j) :=
  funext fun a => Fin.ext (by match a with | ⟨0, _⟩ => rfl | ⟨1, _⟩ => rfl)
theorem sliceZ_agg (n : Fin 100000) (j : Fin 64) : idx_main_v109 (ix2 n j) = ix2 n (Cert.Spec.colZ j) :=
  funext fun a => Fin.ext (by match a with | ⟨0, _⟩ => rfl | ⟨1, _⟩ => rfl)
theorem sliceN_agg (n : Fin 100000) (j : Fin 64) : idx_main_v110 (ix2 n j) = ix2 n (Cert.Spec.colN j) :=
  funext fun a => Fin.ext (by match a with | ⟨0, _⟩ => rfl | ⟨1, _⟩ => rfl)
/-- The same three slices of the state-side pre-activations. -/
theorem sliceR_st (n : Fin 100000) (j : Fin 64) : idx_main_v111 (ix2 n j) = ix2 n (Cert.Spec.colR j) :=
  funext fun a => Fin.ext (by match a with | ⟨0, _⟩ => rfl | ⟨1, _⟩ => rfl)
theorem sliceZ_st (n : Fin 100000) (j : Fin 64) : idx_main_v112 (ix2 n j) = ix2 n (Cert.Spec.colZ j) :=
  funext fun a => Fin.ext (by match a with | ⟨0, _⟩ => rfl | ⟨1, _⟩ => rfl)
theorem sliceN_st (n : Fin 100000) (j : Fin 64) : idx_main_v113 (ix2 n j) = ix2 n (Cert.Spec.colN j) :=
  funext fun a => Fin.ext (by match a with | ⟨0, _⟩ => rfl | ⟨1, _⟩ => rfl)

/-- The input-side pre-activation, a product along the contraction plus the broadcast bias row, at row `n` and gate column `c`. -/
theorem gate_agg (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v99 (ix2 n c) k) * w (ridx_main_v99 (ix2 n c) k)) (b (idx_main_v101 (ix2 n c)))
      = Cert.Spec.gate a w b n c := by
  have el : ∀ k : Fin 64, lidx_main_v99 (ix2 n c) k = ix2 n k := fun k =>
    funext fun d => Fin.ext (by match d with | ⟨0, _⟩ => rfl | ⟨1, _⟩ => rfl)
  have er : ∀ k : Fin 64, ridx_main_v99 (ix2 n c) k = ix2 k c := fun k =>
    funext fun d => Fin.ext (by match d with | ⟨0, _⟩ => rfl | ⟨1, _⟩ => rfl)
  have eb : idx_main_v101 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The state-side pre-activation at row `n` and gate column `c`. -/
theorem gate_st (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v104 (ix2 n c) k) * w (ridx_main_v104 (ix2 n c) k)) (b (idx_main_v106 (ix2 n c)))
      = Cert.Spec.gate a w b n c := by
  have el : ∀ k : Fin 64, lidx_main_v104 (ix2 n c) k = ix2 n k := fun k =>
    funext fun d => Fin.ext (by match d with | ⟨0, _⟩ => rfl | ⟨1, _⟩ => rfl)
  have er : ∀ k : Fin 64, ridx_main_v104 (ix2 n c) k = ix2 k c := fun k =>
    funext fun d => Fin.ext (by match d with | ⟨0, _⟩ => rfl | ⟨1, _⟩ => rfl)
  have eb : idx_main_v106 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The update's arithmetic at one entry, over any six arrays: the reference's operations at the ideal values, applied to the six
    gate pre-activations and the state's entry, are the specification's update there. -/
theorem gru_point (agg h : S100000x64.Idx → Ideal .f32) (wih whh : S64x192.Idx → Ideal .f32) (bih bhh : S1x192.Idx → Ideal .f32)
    (n : Fin 100000) (j : Fin 64) :
    FloatOps.maximumf (F := Ideal) (φ := .f32)
      (FloatOps.addf (F := Ideal) (φ := .f32)
        (FloatOps.mulf (F := Ideal) (φ := .f32)
          (FloatOps.subf (F := Ideal) (φ := .f32) (FloatOps.ofBits (F := Ideal) .f32 0x3F800000#32)
            (Ideal.logistic (FloatOps.addf (F := Ideal) (φ := .f32) (Cert.Spec.gate agg wih bih n (Cert.Spec.colZ j)) (Cert.Spec.gate h whh bhh n (Cert.Spec.colZ j)))))
          (FloatOps.hostUnary (F := Ideal) (φ := .f32) .tanh
            (FloatOps.addf (F := Ideal) (φ := .f32) (Cert.Spec.gate agg wih bih n (Cert.Spec.colN j))
              (FloatOps.mulf (F := Ideal) (φ := .f32)
                (Ideal.logistic (FloatOps.addf (F := Ideal) (φ := .f32) (Cert.Spec.gate agg wih bih n (Cert.Spec.colR j)) (Cert.Spec.gate h whh bhh n (Cert.Spec.colR j))))
                (Cert.Spec.gate h whh bhh n (Cert.Spec.colN j))))))
        (FloatOps.mulf (F := Ideal) (φ := .f32)
          (Ideal.logistic (FloatOps.addf (F := Ideal) (φ := .f32) (Cert.Spec.gate agg wih bih n (Cert.Spec.colZ j)) (Cert.Spec.gate h whh bhh n (Cert.Spec.colZ j))))
          (h (ix2 n j))))
      (FloatOps.ofBits (F := Ideal) .f32 0x00000000#32)
    = Cert.Spec.gru agg h wih whh bih bhh (ix2 n j) := rfl

/-- The reference's second gated update and rectifier, as the stage function of its aggregate, its state, its two
    transposed weight slices and its two bias rows. -/
theorem gru2 : val_main_v136 (F := Ideal) x0 x1 x4 x7 x8 x9 x10 x11
    = Cert.Spec.gru (val_main_v89 (F := Ideal) x0 x1 x4 x7 x8 x9 x10 x11) (val_main_v76 (F := Ideal) x0 x1 x4 x7 x8 x9 x10 x11)
        (val_main_v98 (F := Ideal) x8) (val_main_v103 (F := Ideal) x9) (val_main_v100 (F := Ideal) x10) (val_main_v105 (F := Ideal) x11) := by
  funext i
  obtain ⟨n, j, rfl⟩ : ∃ (n : Fin 100000) (j : Fin 64), i = ix2 n j := ⟨i 0, i 1, eq_ix2 i⟩
  -- each constant-filled array, read at an entry, is its word
  have oneA : val_main_v117 (F := Ideal) (ix2 n j) = FloatOps.ofBits (F := Ideal) .f32 0x3F800000#32 := (val_main_v117_apply _).trans rfl
  have oneB : val_main_v119 (F := Ideal) (ix2 n j) = FloatOps.ofBits (F := Ideal) .f32 0x3F800000#32 := (val_main_v119_apply _).trans rfl
  have oneC : val_main_v124 (F := Ideal) (ix2 n j) = FloatOps.ofBits (F := Ideal) .f32 0x3F800000#32 := (val_main_v124_apply _).trans rfl
  have oneD : val_main_v126 (F := Ideal) (ix2 n j) = FloatOps.ofBits (F := Ideal) .f32 0x3F800000#32 := (val_main_v126_apply _).trans rfl
  have oneE : val_main_v131 (F := Ideal) (ix2 n j) = FloatOps.ofBits (F := Ideal) .f32 0x3F800000#32 := (val_main_v131_apply _).trans rfl
  have zeroA : val_main_call1_v0 (F := Ideal) (ix2 n j) = FloatOps.ofBits (F := Ideal) .f32 0x00000000#32 := (val_main_call1_v0_apply _).trans rfl
  -- a pre-activation array is the product array plus the broadcast bias row, entry by entry
  have sumI := val_main_v102_apply (F := Ideal)
  have sumS := val_main_v107_apply (F := Ideal)
  -- open the entrywise stages from the output inwards; the two `1 / (1 + e^(-x))` are logistic functions, and the six
  -- column slices read the reset, update and candidate columns
  rw [val_main_v136_apply, val_main_v135_apply, val_main_v133_apply, val_main_v134_apply, val_main_v132_apply,
    val_main_v130_apply, val_main_v129_apply, val_main_v128_apply,
    val_main_v127_apply, val_main_v125_apply, val_main_v123_apply, val_main_v122_apply, val_main_v121_apply,
    val_main_v120_apply, val_main_v118_apply, val_main_v116_apply, val_main_v115_apply, val_main_v114_apply,
    oneA, oneB, oneC, oneD, oneE, zeroA, logistic_expand, logistic_expand,
    val_main_v108_apply, val_main_v109_apply, val_main_v110_apply, val_main_v111_apply, val_main_v112_apply, val_main_v113_apply,
    sliceR_agg, sliceZ_agg, sliceN_agg, sliceR_st, sliceZ_st, sliceN_st]
  -- each of the six pre-activations is a gate of the specification
  simp only [sumI, sumS, val_main_v99_apply, val_main_v104_apply, val_main_v101_apply, val_main_v106_apply, gate_agg, gate_st]
  exact gru_point _ _ _ _ _ _ n j

end Cert.ReferenceIdeal.BridgeGru2

end
-- ==== Proof.KLayer2.lean ====
/-
  The second layer, followed through the run: from the state buffer at the first update call's exit to the state
  buffer at the second update call's exit.

  Between the two there are, in order: a stretch that slices this layer's transform weights; the transform call (the
  state times those weights); a stretch that looks the transformed rows up at the edges' source row numbers (wrapped
  the NumPy way, rows out of range masked: with every number in range the mask keeps every row); a stretch that adds
  the gathered rows up at the edges' destination row numbers into zeros and lays out this layer's weight and bias
  slices; and the update call (the gated update of the state by the aggregate). Each stretch is read by evaluating the
  fold of its operations at the buffer asked for, over any contents and any float values; each call by its region's
  value and the reference's matching stage. Every buffer the layer only reads keeps what it held when the layer began.
-/
import proofs.«428605_j28329604284558_1_alg».proof.Proof.KCarried
import proofs.«428605_j28329604284558_1_alg».proof.Proof.Region2
import proofs.«428605_j28329604284558_1_alg».proof.Proof.Region3
import proofs.«428605_j28329604284558_1_alg».proof.Proof.RefMm
import proofs.«428605_j28329604284558_1_alg».proof.Proof.RefGru2
import proofs.«428605_j28329604284558_1_alg».proof.Proof.TakeFill
import proofs.«428605_j28329604284558_1_alg».proof.Proof.Layout
import proofs.«428605_j28329604284558_1_alg».proof.Proof.LibTypedRef

set_option maxRecDepth 16384
-- one declaration at a time: each reading of a stretch is large while it is checked
set_option Elab.async false

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages

/-! ### The stretches of host operations, over any contents and any float values -/

section Stretch
variable {F : FTy → Type} [FloatOps F] (V : Valuation τ sig (Elt F))

/-- The stretch before the transform call slices one layer of the transform weights and drops the unit axis:
    the reference's two operations on the same argument. -/
theorem slice_stage (x7 : (⟨S3x64x64, .f32⟩ : BufTy).Contents (Elt F)) (h : V (Proc.devRef .tc main_arg7) = x7) :
    StableHlo.after hostOps2 V (Proc.devRef .tc main_v27) = val_main_v78 (F := F) x7 := by
  dsimp only [hostOps2]
  after_results_simp
  rw [h]
  rfl

/-- The look-up stretch wraps the source row numbers, gathers the transformed rows at them and masks the rows whose
    number is out of range; with every number in range the mask keeps every row, and what is left is the reference's
    gather of its wrapped numbers. -/
theorem take_stage
    (x0 : (⟨S100000x1, .i32⟩ : BufTy).Contents (Elt F)) (x1 : (⟨S2x1000000, .i32⟩ : BufTy).Contents (Elt F))
    (x4 : (⟨S100x64, .f32⟩ : BufTy).Contents (Elt F)) (x7 : (⟨S3x64x64, .f32⟩ : BufTy).Contents (Elt F))
    (x8 x9 : (⟨S3x192x64, .f32⟩ : BufTy).Contents (Elt F)) (x10 x11 : (⟨S3x192, .f32⟩ : BufTy).Contents (Elt F))
    (hidx : ∀ i : Cert.ReferenceIdeal.S1000000.Idx,
      -100000 ≤ (val_main_v14 (F := F) x1 i).toInt ∧ (val_main_v14 (F := F) x1 i).toInt < 100000)
    (hi : V (Proc.devRef .tc main_v3) = val_main_v14 (F := F) x1)
    (ht : V (Proc.devRef .tc main_v28) = val_main_v79 (F := F) x0 x1 x4 x7 x8 x9 x10 x11) :
    StableHlo.after hostOps3 V (Proc.devRef .tc main_v29) = val_main_v86 (F := F) x0 x1 x4 x7 x8 x9 x10 x11 := by
  have hi' := Cert.TypedRef.ofBuf_eq_of_heq (Val := Elt F) (TRef.of main_v3 : TRef sig ⟨S1000000, .i32⟩) (V (Proc.devRef .tc main_v3))
    (val_main_v14 (F := F) x1) (heq_of_eq hi)
  have ht' := Cert.TypedRef.ofBuf_eq_of_heq (Val := Elt F) (TRef.of main_v28 : TRef sig ⟨S100000x64, .f32⟩) (V (Proc.devRef .tc main_v28))
    (val_main_v79 (F := F) x0 x1 x4 x7 x8 x9 x10 x11) (heq_of_eq ht)
  dsimp only [hostOps3]
  after_results_simp
  refine Cert.TypedRef.toBuf_eq_of_heq _ _ _ (heq_of_eq ?_)
  simp only [Cert.TypedRef.ofBuf_toBuf]
  rw [hi', ht']
  refine (Cert.TakeFill.masked_take_eq (F := F) 100000 1000000 64 (by decide) (by decide) _ _ _ _ _ _ _ _ _ ?_ 99999#32
    (by decide) _ _).trans ?_
  · exact hidx
  · rfl

/-- The gathered rows added up at the destination row numbers, into zeros: the reference's three operations. -/
theorem scatter_stage
    (x0 : (⟨S100000x1, .i32⟩ : BufTy).Contents (Elt F)) (x1 : (⟨S2x1000000, .i32⟩ : BufTy).Contents (Elt F))
    (x4 : (⟨S100x64, .f32⟩ : BufTy).Contents (Elt F)) (x7 : (⟨S3x64x64, .f32⟩ : BufTy).Contents (Elt F))
    (x8 x9 : (⟨S3x192x64, .f32⟩ : BufTy).Contents (Elt F)) (x10 x11 : (⟨S3x192, .f32⟩ : BufTy).Contents (Elt F))
    (hd : V (Proc.devRef .tc main_v5) = val_main_v16 (F := F) x1)
    (hu : V (Proc.devRef .tc main_v29) = val_main_v86 (F := F) x0 x1 x4 x7 x8 x9 x10 x11) :
    StableHlo.after hostOps3_1 V (Proc.devRef .tc main_v32) = val_main_v89 (F := F) x0 x1 x4 x7 x8 x9 x10 x11 := by
  dsimp only [hostOps3_1]
  after_results_simp
  rw [hd, hu]
  rfl

/-- The layer's input weights, transposed, as the update call takes them. -/
theorem wih_stage (x8 : (⟨S3x192x64, .f32⟩ : BufTy).Contents (Elt F))
    (hw : V (Proc.devRef .tc main_v6) = transpose S3x64x192 [0, 2, 1] x8 Gen.transposes_S3x192x64_S3x64x192_0_2_1) :
    StableHlo.after hostOps3_1 V (Proc.devRef .tc main_v34) = val_main_v98 (F := F) x8 := by
  dsimp only [hostOps3_1]
  after_results_simp
  rw [hw]
  exact Cert.Layout.wih2 x8

/-- The layer's state weights, transposed. -/
theorem whh_stage (x9 : (⟨S3x192x64, .f32⟩ : BufTy).Contents (Elt F))
    (hw : V (Proc.devRef .tc main_v7) = transpose S3x64x192 [0, 2, 1] x9 Gen.transposes_S3x192x64_S3x64x192_0_2_1) :
    StableHlo.after hostOps3_1 V (Proc.devRef .tc main_v36) = val_main_v103 (F := F) x9 := by
  dsimp only [hostOps3_1]
  after_results_simp
  rw [hw]
  exact Cert.Layout.whh2 x9

/-- The layer's input bias as a row. -/
theorem bih_stage (x10 : (⟨S3x192, .f32⟩ : BufTy).Contents (Elt F)) (hb : V (Proc.devRef .tc main_arg10) = x10) :
    StableHlo.after hostOps3_1 V (Proc.devRef .tc main_v41) = val_main_v100 (F := F) x10 := by
  dsimp only [hostOps3_1]
  after_results_simp
  rw [hb]
  exact Cert.Layout.bih2 x10

/-- The layer's state bias as a row. -/
theorem bhh_stage (x11 : (⟨S3x192, .f32⟩ : BufTy).Contents (Elt F)) (hb : V (Proc.devRef .tc main_arg11) = x11) :
    StableHlo.after hostOps3_1 V (Proc.devRef .tc main_v42) = val_main_v105 (F := F) x11 := by
  dsimp only [hostOps3_1]
  after_results_simp
  rw [hb]
  exact Cert.Layout.bhh2 x11

end Stretch

variable (m : (ℓ : Loc nD τ sig) → Buf (Elt Ideal) ℓ) (ρ : Dev nD → PrngReg) (c : Dev nD)

/-! ### What the layer leaves alone -/

/-- A buffer holds, after the transform call, after the look-up and after the update call, what it held when the
    layer began. -/
abbrev Kept (b : Ref sig .tc) : Prop :=
  W9 m ρ c (Proc.devRef .tc b) = W7 m ρ c (Proc.devRef .tc b)
    ∧ W10 m ρ c (Proc.devRef .tc b) = W7 m ρ c (Proc.devRef .tc b)
    ∧ W12 m ρ c (Proc.devRef .tc b) = W7 m ρ c (Proc.devRef .tc b)

/-- So does every buffer that none of the layer's three stretches writes and that is no array of its two calls. -/
theorem kept (b : Ref sig .tc)
    (h8 : ∀ op ∈ (hostOps2 : List (HloOp τ sig (Elt Ideal))), Proc.devRef .tc b ∉ op.writes)
    (h9 : ∀ w, Pipeline.arrRef spec2 w ≠ b)
    (h10 : ∀ op ∈ (hostOps3 : List (HloOp τ sig (Elt Ideal))), Proc.devRef .tc b ∉ op.writes)
    (h11 : ∀ op ∈ (hostOps3_1 : List (HloOp τ sig (Elt Ideal))), Proc.devRef .tc b ∉ op.writes)
    (h12 : ∀ w, Pipeline.arrRef spec3 w ≠ b) : Kept m ρ c b := by
  have e9 : W9 m ρ c (Proc.devRef .tc b) = W7 m ρ c (Proc.devRef .tc b) :=
    (keep9 m ρ c b h9).trans (keep8 m ρ c b h8)
  have e10 : W10 m ρ c (Proc.devRef .tc b) = W7 m ρ c (Proc.devRef .tc b) := (keep10 m ρ c b h10).trans e9
  exact ⟨e9, e10, (keep12 m ρ c b h12).trans ((keep11 m ρ c b h11).trans e10)⟩

theorem kept_src : Kept m ρ c main_v3 :=
  kept m ρ c main_v3 (by not_written hostOps2) (by decide) (by not_written hostOps3) (by not_written hostOps3_1) (by decide)
theorem kept_dst : Kept m ρ c main_v5 :=
  kept m ρ c main_v5 (by not_written hostOps2) (by decide) (by not_written hostOps3) (by not_written hostOps3_1) (by decide)
theorem kept_wih : Kept m ρ c main_v6 :=
  kept m ρ c main_v6 (by not_written hostOps2) (by decide) (by not_written hostOps3) (by not_written hostOps3_1) (by decide)
theorem kept_whh : Kept m ρ c main_v7 :=
  kept m ρ c main_v7 (by not_written hostOps2) (by decide) (by not_written hostOps3) (by not_written hostOps3_1) (by decide)
theorem kept_arg3 : Kept m ρ c main_arg3 :=
  kept m ρ c main_arg3 (by not_written hostOps2) (by decide) (by not_written hostOps3) (by not_written hostOps3_1) (by decide)
theorem kept_arg7 : Kept m ρ c main_arg7 :=
  kept m ρ c main_arg7 (by not_written hostOps2) (by decide) (by not_written hostOps3) (by not_written hostOps3_1) (by decide)
theorem kept_arg10 : Kept m ρ c main_arg10 :=
  kept m ρ c main_arg10 (by not_written hostOps2) (by decide) (by not_written hostOps3) (by not_written hostOps3_1) (by decide)
theorem kept_arg11 : Kept m ρ c main_arg11 :=
  kept m ρ c main_arg11 (by not_written hostOps2) (by decide) (by not_written hostOps3) (by not_written hostOps3_1) (by decide)

/-! ### The transform call -/

/-- The state buffer is an input array of the transform call, which does not write it. -/
theorem state_through_transform :
    W9 m ρ c (Proc.devRef .tc main_v25) = W8 m ρ c (Proc.devRef .tc main_v25) :=
  (W9_arr m ρ c 0).trans ((dat2 (F := Ideal) (V8 m ρ) c).arrAt_in 0 rfl _)

/-- The transform call leaves the product of the state with the sliced weights: the reference's stage. -/
theorem transform_stage
    (hin : W7 m ρ c (Proc.devRef .tc main_v25) = val_main_v76 (F := Ideal) (a0 m c) (a1 m c) (a4 m c) (a7 m c) (a8 m c) (a9 m c) (a10 m c) (a11 m c))
    (hc : Carried m c (W7 m ρ c)) :
    W9 m ρ c (Proc.devRef .tc main_v28) = val_main_v79 (F := Ideal) (a0 m c) (a1 m c) (a4 m c) (a7 m c) (a8 m c) (a9 m c) (a10 m c) (a11 m c) :=
  (W9_arr m ρ c 2).trans ((Cert.KernelIdeal.R2.arr (V8 m ρ) c).trans
    ((congr (congrArg Cert.Spec.mm ((keep8 m ρ c main_v25 (by not_written hostOps2)).trans hin))
        (slice_stage (W7 m ρ c) (a7 m c) hc.arg7)).trans
      (Cert.ReferenceIdeal.BridgeMm.mm2 (a0 m c) (a1 m c) (a4 m c) (a7 m c) (a8 m c) (a9 m c) (a10 m c) (a11 m c)).symm))

/-! ### The look-up, the scatter-add and the update call -/

/-- The gathered rows, after the look-up stretch. -/
theorem gather_stage (hs : SrcRange m c)
    (hin : W7 m ρ c (Proc.devRef .tc main_v25) = val_main_v76 (F := Ideal) (a0 m c) (a1 m c) (a4 m c) (a7 m c) (a8 m c) (a9 m c) (a10 m c) (a11 m c))
    (hc : Carried m c (W7 m ρ c)) :
    W10 m ρ c (Proc.devRef .tc main_v29) = val_main_v86 (F := Ideal) (a0 m c) (a1 m c) (a4 m c) (a7 m c) (a8 m c) (a9 m c) (a10 m c) (a11 m c) :=
  take_stage (W9 m ρ c) (a0 m c) (a1 m c) (a4 m c) (a7 m c) (a8 m c) (a9 m c) (a10 m c) (a11 m c) hs
    ((kept_src m ρ c).1.trans hc.src) (transform_stage m ρ c hin hc)

/-- The aggregate the update call reads. -/
theorem aggregate_stage (hs : SrcRange m c)
    (hin : W7 m ρ c (Proc.devRef .tc main_v25) = val_main_v76 (F := Ideal) (a0 m c) (a1 m c) (a4 m c) (a7 m c) (a8 m c) (a9 m c) (a10 m c) (a11 m c))
    (hc : Carried m c (W7 m ρ c)) :
    W11 m ρ c (Proc.devRef .tc main_v32) = val_main_v89 (F := Ideal) (a0 m c) (a1 m c) (a4 m c) (a7 m c) (a8 m c) (a9 m c) (a10 m c) (a11 m c) :=
  scatter_stage (W10 m ρ c) (a0 m c) (a1 m c) (a4 m c) (a7 m c) (a8 m c) (a9 m c) (a10 m c) (a11 m c)
    ((kept_dst m ρ c).2.1.trans hc.dst) (gather_stage m ρ c hs hin hc)

/-- The state the update call reads: untouched since the layer began. -/
theorem state_stage
    (hin : W7 m ρ c (Proc.devRef .tc main_v25) = val_main_v76 (F := Ideal) (a0 m c) (a1 m c) (a4 m c) (a7 m c) (a8 m c) (a9 m c) (a10 m c) (a11 m c)) :
    W11 m ρ c (Proc.devRef .tc main_v25) = val_main_v76 (F := Ideal) (a0 m c) (a1 m c) (a4 m c) (a7 m c) (a8 m c) (a9 m c) (a10 m c) (a11 m c) :=
  (keep11 m ρ c main_v25 (by not_written hostOps3_1)).trans ((keep10 m ρ c main_v25 (by not_written hostOps3)).trans
    ((state_through_transform m ρ c).trans ((keep8 m ρ c main_v25 (by not_written hostOps2)).trans hin)))

/-- The update call leaves the gated update of the state by the aggregate: the reference's stage. -/
theorem update_stage (hs : SrcRange m c)
    (hin : W7 m ρ c (Proc.devRef .tc main_v25) = val_main_v76 (F := Ideal) (a0 m c) (a1 m c) (a4 m c) (a7 m c) (a8 m c) (a9 m c) (a10 m c) (a11 m c))
    (hc : Carried m c (W7 m ρ c)) :
    W12 m ρ c (Proc.devRef .tc main_v43) = val_main_v136 (F := Ideal) (a0 m c) (a1 m c) (a4 m c) (a7 m c) (a8 m c) (a9 m c) (a10 m c) (a11 m c) :=
  (W12_arr m ρ c 6).trans ((Cert.KernelIdeal.R3.arr (V11 m ρ) c).trans
    ((congr (congr (congr (congr (congr (congrArg Cert.Spec.gru (aggregate_stage m ρ c hs hin hc)) (state_stage m ρ c hin))
        (wih_stage (W10 m ρ c) (a8 m c) ((kept_wih m ρ c).2.1.trans hc.wih)))
        (whh_stage (W10 m ρ c) (a9 m c) ((kept_whh m ρ c).2.1.trans hc.whh)))
        (bih_stage (W10 m ρ c) (a10 m c) ((kept_arg10 m ρ c).2.1.trans hc.arg10)))
        (bhh_stage (W10 m ρ c) (a11 m c) ((kept_arg11 m ρ c).2.1.trans hc.arg11))).trans
      (Cert.ReferenceIdeal.BridgeGru2.gru2 (a0 m c) (a1 m c) (a4 m c) (a7 m c) (a8 m c) (a9 m c) (a10 m c) (a11 m c)).symm))

/-- The carried buffers when the layer ends. -/
theorem carried_after (hc : Carried m c (W7 m ρ c)) : Carried m c (W12 m ρ c) where
  src := (kept_src m ρ c).2.2.trans hc.src
  dst := (kept_dst m ρ c).2.2.trans hc.dst
  wih := (kept_wih m ρ c).2.2.trans hc.wih
  whh := (kept_whh m ρ c).2.2.trans hc.whh
  arg3 := (kept_arg3 m ρ c).2.2.trans hc.arg3
  arg7 := (kept_arg7 m ρ c).2.2.trans hc.arg7
  arg10 := (kept_arg10 m ρ c).2.2.trans hc.arg10
  arg11 := (kept_arg11 m ρ c).2.2.trans hc.arg11

/-- After the second layer (the weight slice, the second transform call, the gather and scatter-add along the edges,
    the second update call) the state buffer holds the reference's second-layer stage, and the carried buffers are intact. -/
theorem layer2 (hs : SrcRange m c)
    (hin : W7 m ρ c (Proc.devRef .tc main_v25) = val_main_v76 (F := Ideal) (a0 m c) (a1 m c) (a4 m c) (a7 m c) (a8 m c) (a9 m c) (a10 m c) (a11 m c)) (hc : Carried m c (W7 m ρ c)) :
    W12 m ρ c (Proc.devRef .tc main_v43) = val_main_v136 (F := Ideal) (a0 m c) (a1 m c) (a4 m c) (a7 m c) (a8 m c) (a9 m c) (a10 m c) (a11 m c) ∧ Carried m c (W12 m ρ c) :=
  ⟨update_stage m ρ c hs hin hc, carried_after m ρ c hc⟩

end Cert.KernelIdeal.Chain

end
-- ==== Proof.Region4.lean ====
/-
  The transform call, read as mathematics. The call walks 20 points; at point t it takes rows 5000·t … 5000·t + 4999 of a
  [100000, 64] array and the whole of a [64, 64] matrix, and stores into rows 5000·t … 5000·t + 4999 of its output the
  product of the two blocks. Over the extended reals the narrowing casts are the identity and the product into a zero
  accumulator is the plain sum over the 64 channels, so entry (r, q) of the stored block is Σ_k x0[r, k] · x1[k, q]
  (`pay_apply`). Block t of the left array at row r is row 5000·t + r of the array, and the matrix window is the matrix
  itself at every point, so what point t writes back is block t of `h @ W` (`flushed_eq`). Row n of the output lies in the
  block of point n / 5000, every point writes its block back, so the blocks tile the output (`covered`) and the array ends
  holding `h @ W` (`arr`).
-/
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index at output index `i` and contraction index `q`: the output's row on axis 0 … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contraction coordinate on axis 1. -/
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction coordinate on axis 0 … -/
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column on axis 1. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores, at row `p` and column `q` of its block: over the extended reals the narrowing casts and the
    same-shape casts are the identity and the product into a zero accumulator is the plain sum, so the entry is
    Σ_k x0[p, k] · x1[k, q]. -/
theorem pay_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  simp only [shapeCast_self]
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]
  rfl

/-! ## What a point writes back -/

theorem zero_offsets : (![0, 0] : Fin 2 → Nat) = fun _ => 0 := funext fun a => by
  match a with
  | ⟨0, _⟩ => rfl
  | ⟨1, _⟩ => rfl

/-- The printed index maps, decided over the grid: at point `t` the row window and the output window sit at block row
    `t` and block column 0, and the matrix window at block (0, 0). -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

set_option maxHeartbeats 1000000 in
/-- WHAT POINT `t` WRITES BACK is block `t` of the product of the two input arrays as the call finds them: row `r` of
    the stored block is row 5000·t + r of the left array against the whole right array. -/
theorem flushed_eq (c : Dev nD) (t : Fin cfg4.N) :
    (dat4 (F := Ideal) V c).flushed 2 t = ((cfg4.win 2).blk t).view.read (Elt Ideal) (Cert.Spec.mm (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  obtain ⟨e0, e1, e2, e3, e4, e5⟩ := idx_facts t
  funext j
  have hj0 : (j 0).val < 5000 := (j 0).isLt
  have hj1 : (j 1).val < 64 := (j 1).isLt
  show k4_pay1 (iblk4 V c 0 t) (iblk4 V c 1 t) (ix2 ⟨(j 0).val, hj0⟩ ⟨(j 1).val, hj1⟩) = Cert.Spec.mm (V c (Pipeline.arrRef spec4 0)) (V c (Pipeline.arrRef spec4 1)) (((cfg4.win 2).blk t).view.emb j)
  rw [pay_apply]
  unfold Cert.Spec.mm
  refine Finset.sum_congr rfl fun k _ => ?_
  have h0 : ((cfg4.win 0).blk t).view.emb (ix2 ⟨(j 0).val, hj0⟩ k) = ix2 ((((cfg4.win 2).blk t).view.emb j) 0) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : ((cfg4.win 1).blk t).view.emb (ix2 k ⟨(j 1).val, hj1⟩) = ix2 k ((((cfg4.win 2).blk t).view.emb j) 1) := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  have g0 : iblk4 V c 0 t (ix2 ⟨(j 0).val, hj0⟩ k) = V c (Pipeline.arrRef spec4 0) (ix2 ((((cfg4.win 2).blk t).view.emb j) 0) k) :=
    congrArg (V c (Pipeline.arrRef spec4 0)) h0
  have g1 : iblk4 V c 1 t (ix2 k ⟨(j 1).val, hj1⟩) = V c (Pipeline.arrRef spec4 1) (ix2 k ((((cfg4.win 2).blk t).view.emb j) 1)) :=
    congrArg (V c (Pipeline.arrRef spec4 1)) h1
  rw [g0, g1]

/-! ## The output's blocks tile the array -/

/-- An index of the array is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole (Pipeline.arrRef spec4 2)).slice (win4_2.rect t)).set ↔ _
  rw [View.set_slice_whole, Rect.mem_set_unit]
  exact Iff.rfl

/-- Row `r` of the array lies in the block of point `r / 5000`, which is written back. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  have ht : t.val = (i 0).val / 5000 := rfl
  obtain ⟨e0, e1, e2, e3, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-! ## The array after the call -/

/-- After the transform call its output array is `h @ W` of its two input arrays as the call finds them. -/
theorem arr (c : Dev nD) :
    (dat4 (F := Ideal) V c).arrAt 2 cfg4.N = Cert.Spec.mm (V c (Pipeline.arrRef spec4 0)) (V c (Pipeline.arrRef spec4 1)) :=
  (dat4 V c).arrAt_eq_of_cover 2 _ (fun t _ => flushed_eq V c t) covered

end Cert.KernelIdeal.R4

end
-- ==== Proof.Region5.lean ====
import proofs.«428605_j28329604284558_1_alg».proof.Proof.Gen.KernelIdeal.Frame
import proofs.«428605_j28329604284558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R5

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index of the block -/

/-- The product of a block of rows with a weight matrix pairs row index with row, contraction index with column on the left, -/
theorem lhs_rows (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
  rfl
theorem lhs_contr (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q
/-- and contraction index with row, column index with column on the right. -/
theorem rhs_contr (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q
theorem rhs_cols (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
  rfl

/-- One gate pre-activation over a block: row `p` of the block against column `c` of the weights, plus the bias. -/
def gateB (a : S5000x64.Idx → EReal) (w : S64x192.Idx → EReal) (b : S1x192.Idx → EReal) (p : Fin 5000) (c : Fin 192) : EReal :=
  (∑ k : Fin 64, a (ix2 p k) * w (ix2 k c)) + b (ix2 0 c)

/-- Over the extended reals the block's matrix product started from zero is the plain sum over the 64 channels. -/
theorem matmul_at (x : Vec Ideal S5000x64 .f32) (w : Vec Ideal S64x192 .f32)
    (hx : S5000x64.ShapeCasts S5000x64) (hw : S64x192.ShapeCasts S64x192) (hlt : FTy.bits .bf16 < FTy.bits .f32)
    (p : Fin 5000) (c : Fin 192) :
    matmul (F := Ideal) dot_S5000x64_S64x192_S5000x192_1_0_0_1_n_n none (truncf .bf16 (shapeCast S5000x64 x hx) hlt)
        (truncf .bf16 (shapeCast S64x192 w hw) hlt) (constant S5000x192 .f32 0x00000000#32) (ix2 p c)
      = ∑ k : Fin 64, x (ix2 p k) * w (ix2 k c) := by
  simp only [matmul]
  rw [Ideal.matmul_constant_zero_apply, ← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : dot_S5000x64_S64x192_S5000x192_1_0_0_1_n_n.lhsIdx (ix2 p c) ((contrEquiv1 dot_S5000x64_S64x192_S5000x192_1_0_0_1_n_n 64 rfl rfl).symm k) = ix2 p k := funext fun a => Fin.ext (by
    match a with
    | ⟨0, _⟩ => exact lhs_rows _ _
    | ⟨1, _⟩ => exact (lhs_contr _ _).trans hk)
  have er : dot_S5000x64_S64x192_S5000x192_1_0_0_1_n_n.rhsIdx (ix2 p c) ((contrEquiv1 dot_S5000x64_S64x192_S5000x192_1_0_0_1_n_n 64 rfl rfl).symm k) = ix2 k c := funext fun a => Fin.ext (by
    match a with
    | ⟨0, _⟩ => exact (rhs_contr _ _).trans hk
    | ⟨1, _⟩ => exact rhs_cols _ _)
  rw [el, er]
  show shapeCast S5000x64 x hx (ix2 p k) * shapeCast S64x192 w hw (ix2 k c) = _
  rw [shapeCast_self, shapeCast_self]

/-- The gate pre-activations the body forms: product, plus the bias row broadcast down the block. -/
theorem pre_at (x : Vec Ideal S5000x64 .f32) (w : Vec Ideal S64x192 .f32) (b : Vec Ideal S1x192 .f32)
    (hx : S5000x64.ShapeCasts S5000x64) (hw : S64x192.ShapeCasts S64x192) (hb : S1x192.ShapeCasts S1x192)
    (hlt : FTy.bits .bf16 < FTy.bits .f32) (hbc : S1x192.Broadcasts S5000x192) (p : Fin 5000) (c : Fin 192) :
    addf (F := Ideal) (matmul dot_S5000x64_S64x192_S5000x192_1_0_0_1_n_n none (truncf .bf16 (shapeCast S5000x64 x hx) hlt)
          (truncf .bf16 (shapeCast S64x192 w hw) hlt) (constant S5000x192 .f32 0x00000000#32))
        (broadcastTo S5000x192 (shapeCast S1x192 b hb) hbc) (ix2 p c)
      = gateB x w b p c := by
  show matmul (F := Ideal) dot_S5000x64_S64x192_S5000x192_1_0_0_1_n_n none (truncf .bf16 (shapeCast S5000x64 x hx) hlt)
          (truncf .bf16 (shapeCast S64x192 w hw) hlt) (constant S5000x192 .f32 0x00000000#32) (ix2 p c)
        + broadcastTo S5000x192 (shapeCast S1x192 b hb) hbc (ix2 p c) = _
  rw [matmul_at, broadcastTo_1b_ab_apply, shapeCast_self]
  rfl

/-- The update the body forms from the two arrays of gate pre-activations and the state block, at one entry. -/
theorem update_at (gi gh : FVec Ideal S5000x192 .f32) (h : Vec Ideal S5000x64 .f32)
    (s0 : S5000x192.Slices ![0, 0] S5000x64) (s64 : S5000x192.Slices ![0, 64] S5000x64)
    (s128 : S5000x192.Slices ![0, 128] S5000x64) (hc : S5000x64.ShapeCasts S5000x64) (p : Fin 5000) (j : Fin 64) :
    maximumf (F := Ideal)
        (addf
          (mulf (subf (broadcast S5000x64 (Scalar.ofBits .f32 0x3F800000#32))
                  (logistic (addf (extractStridedSlice S5000x64 ![0, 64] gi s64) (extractStridedSlice S5000x64 ![0, 64] gh s64))))
            (tanh (addf (extractStridedSlice S5000x64 ![0, 128] gi s128)
                  (mulf (logistic (addf (extractStridedSlice S5000x64 ![0, 0] gi s0) (extractStridedSlice S5000x64 ![0, 0] gh s0)))
                    (extractStridedSlice S5000x64 ![0, 128] gh s128)))))
          (mulf (logistic (addf (extractStridedSlice S5000x64 ![0, 64] gi s64) (extractStridedSlice S5000x64 ![0, 64] gh s64)))
            (shapeCast S5000x64 h hc)))
        (broadcast S5000x64 (Scalar.ofBits .f32 0x00000000#32)) (ix2 p j)
      = max ((Cert.Spec.one - Ideal.logistic (gi (ix2 p (Cert.Spec.colZ j)) + gh (ix2 p (Cert.Spec.colZ j))))
              * Ideal.tanh (gi (ix2 p (Cert.Spec.colN j))
                  + Ideal.logistic (gi (ix2 p (Cert.Spec.colR j)) + gh (ix2 p (Cert.Spec.colR j))) * gh (ix2 p (Cert.Spec.colN j)))
            + Ideal.logistic (gi (ix2 p (Cert.Spec.colZ j)) + gh (ix2 p (Cert.Spec.colZ j))) * h (ix2 p j))
          Cert.Spec.zero := by
  have ri := slice2_axis1_apply 0 gi s0 p j (Cert.Spec.colR j) (Nat.zero_add _).symm
  have rh := slice2_axis1_apply 0 gh s0 p j (Cert.Spec.colR j) (Nat.zero_add _).symm
  have zi := slice2_axis1_apply 64 gi s64 p j (Cert.Spec.colZ j) rfl
  have zh := slice2_axis1_apply 64 gh s64 p j (Cert.Spec.colZ j) rfl
  have ni := slice2_axis1_apply 128 gi s128 p j (Cert.Spec.colN j) rfl
  have nh := slice2_axis1_apply 128 gh s128 p j (Cert.Spec.colN j) rfl
  have hh : shapeCast S5000x64 h hc (ix2 p j) = h (ix2 p j) := by rw [shapeCast_self]
  show max ((Cert.Spec.one - Ideal.logistic (extractStridedSlice S5000x64 ![0, 64] gi s64 (ix2 p j) + extractStridedSlice S5000x64 ![0, 64] gh s64 (ix2 p j)))
              * Ideal.tanh (extractStridedSlice S5000x64 ![0, 128] gi s128 (ix2 p j)
                  + Ideal.logistic (extractStridedSlice S5000x64 ![0, 0] gi s0 (ix2 p j) + extractStridedSlice S5000x64 ![0, 0] gh s0 (ix2 p j))
                    * extractStridedSlice S5000x64 ![0, 128] gh s128 (ix2 p j))
            + Ideal.logistic (extractStridedSlice S5000x64 ![0, 64] gi s64 (ix2 p j) + extractStridedSlice S5000x64 ![0, 64] gh s64 (ix2 p j))
              * shapeCast S5000x64 h hc (ix2 p j))
          Cert.Spec.zero = _
  rw [ri, rh, zi, zh, ni, nh, hh]

/-- What the body stores at row `p`, channel `j` of its block, from the six blocks it loads. -/
theorem stored_at (x0 x1 : Vec Ideal S5000x64 .f32) (x2 x3 : Vec Ideal S64x192 .f32) (x4 x5 : Vec Ideal S1x192 .f32)
    (p : Fin 5000) (j : Fin 64) :
    k5_pay1 (F := Ideal) (k5_pay2 x0 x1 x2 x3 x4 x5 x1) (ix2 p j)
      = max ((Cert.Spec.one - Ideal.logistic (gateB x0 x2 x4 p (Cert.Spec.colZ j) + gateB x1 x3 x5 p (Cert.Spec.colZ j)))
              * Ideal.tanh (gateB x0 x2 x4 p (Cert.Spec.colN j)
                  + Ideal.logistic (gateB x0 x2 x4 p (Cert.Spec.colR j) + gateB x1 x3 x5 p (Cert.Spec.colR j)) * gateB x1 x3 x5 p (Cert.Spec.colN j))
            + Ideal.logistic (gateB x0 x2 x4 p (Cert.Spec.colZ j) + gateB x1 x3 x5 p (Cert.Spec.colZ j)) * x1 (ix2 p j))
          Cert.Spec.zero := by
  unfold k5_pay1 k5_pay2
  refine (update_at _ _ x1 _ _ _ _ p j).trans ?_
  simp only [pre_at]

/-! ## The loaded blocks as parts of the arrays -/

theorem hz : (![0, 0] : Fin 2 → Nat) = fun _ => 0 := funext fun a => by fin_cases a <;> rfl

/-- The index maps over the grid: the two row-blocked inputs and the output sit at block `t`, the weights and the biases at
    block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row `p` of block `t` of the aggregated messages is row `5000 t + p` of the array. -/
theorem agg_block (c : Dev nD) (t : Fin cfg5.N) (p : Fin 5000) (k : Fin 64) (n : Fin 100000) (hn : n.val = t.val * 5000 + p.val) :
    (iblk5 (F := Ideal) V c 0 t : Vec Ideal S5000x64 .f32) (ix2 p k) = (V c (Pipeline.arrRef spec5 0) : S100000x64.Idx → EReal) (ix2 n k) := by
  obtain ⟨e0, e1, -⟩ := idx_facts t
  show (V c (Pipeline.arrRef spec5 0) : S100000x64.Idx → EReal) (((cfg5.win 0).blk t).view.emb (ix2 p k)) = _
  refine congrArg _ (funext fun a => Fin.ext ?_)
  match a with
  | ⟨0, _⟩ => show win5_0.index t (0 : Fin 2) * 5000 + 1 * p.val = n.val; omega
  | ⟨1, _⟩ => show win5_0.index t (1 : Fin 2) * 64 + 1 * k.val = k.val; omega

/-- Row `p` of block `t` of the state is row `5000 t + p` of the array. -/
theorem h_block (c : Dev nD) (t : Fin cfg5.N) (p : Fin 5000) (k : Fin 64) (n : Fin 100000) (hn : n.val = t.val * 5000 + p.val) :
    (iblk5 (F := Ideal) V c 1 t : Vec Ideal S5000x64 .f32) (ix2 p k) = (V c (Pipeline.arrRef spec5 1) : S100000x64.Idx → EReal) (ix2 n k) := by
  obtain ⟨-, -, e0, e1, -⟩ := idx_facts t
  show (V c (Pipeline.arrRef spec5 1) : S100000x64.Idx → EReal) (((cfg5.win 1).blk t).view.emb (ix2 p k)) = _
  refine congrArg _ (funext fun a => Fin.ext ?_)
  match a with
  | ⟨0, _⟩ => show win5_1.index t (0 : Fin 2) * 5000 + 1 * p.val = n.val; omega
  | ⟨1, _⟩ => show win5_1.index t (1 : Fin 2) * 64 + 1 * k.val = k.val; omega

/-- The one block of each weight matrix is the matrix, -/
theorem wih_block (c : Dev nD) (t : Fin cfg5.N) (i : S64x192.Idx) :
    (iblk5 (F := Ideal) V c 2 t : Vec Ideal S64x192 .f32) i = (V c (Pipeline.arrRef spec5 2) : S64x192.Idx → EReal) i := by
  obtain ⟨-, -, -, -, e0, e1, -⟩ := idx_facts t
  show (V c (Pipeline.arrRef spec5 2) : S64x192.Idx → EReal) (((cfg5.win 2).blk t).view.emb i) = _
  refine congrArg _ (funext fun a => Fin.ext ?_)
  match a with
  | ⟨0, _⟩ => show win5_2.index t (0 : Fin 2) * 64 + 1 * (i 0).val = (i 0).val; omega
  | ⟨1, _⟩ => show win5_2.index t (1 : Fin 2) * 192 + 1 * (i 1).val = (i 1).val; omega
theorem whh_block (c : Dev nD) (t : Fin cfg5.N) (i : S64x192.Idx) :
    (iblk5 (F := Ideal) V c 3 t : Vec Ideal S64x192 .f32) i = (V c (Pipeline.arrRef spec5 3) : S64x192.Idx → EReal) i := by
  obtain ⟨-, -, -, -, -, -, e0, e1, -⟩ := idx_facts t
  show (V c (Pipeline.arrRef spec5 3) : S64x192.Idx → EReal) (((cfg5.win 3).blk t).view.emb i) = _
  refine congrArg _ (funext fun a => Fin.ext ?_)
  match a with
  | ⟨0, _⟩ => show win5_3.index t (0 : Fin 2) * 64 + 1 * (i 0).val = (i 0).val; omega
  | ⟨1, _⟩ => show win5_3.index t (1 : Fin 2) * 192 + 1 * (i 1).val = (i 1).val; omega
/-- and the one block of each bias row is the row. -/
theorem bih_block (c : Dev nD) (t : Fin cfg5.N) (i : S1x192.Idx) :
    (iblk5 (F := Ideal) V c 4 t : Vec Ideal S1x192 .f32) i = (V c (Pipeline.arrRef spec5 4) : S1x192.Idx → EReal) i := by
  obtain ⟨-, -, -, -, -, -, -, -, e0, e1, -⟩ := idx_facts t
  show (V c (Pipeline.arrRef spec5 4) : S1x192.Idx → EReal) (((cfg5.win 4).blk t).view.emb i) = _
  refine congrArg _ (funext fun a => Fin.ext ?_)
  match a with
  | ⟨0, _⟩ => show win5_4.index t (0 : Fin 2) * 1 + 1 * (i 0).val = (i 0).val; omega
  | ⟨1, _⟩ => show win5_4.index t (1 : Fin 2) * 192 + 1 * (i 1).val = (i 1).val; omega
theorem bhh_block (c : Dev nD) (t : Fin cfg5.N) (i : S1x192.Idx) :
    (iblk5 (F := Ideal) V c 5 t : Vec Ideal S1x192 .f32) i = (V c (Pipeline.arrRef spec5 5) : S1x192.Idx → EReal) i := by
  obtain ⟨-, -, -, -, -, -, -, -, -, -, e0, e1, -⟩ := idx_facts t
  show (V c (Pipeline.arrRef spec5 5) : S1x192.Idx → EReal) (((cfg5.win 5).blk t).view.emb i) = _
  refine congrArg _ (funext fun a => Fin.ext ?_)
  match a with
  | ⟨0, _⟩ => show win5_5.index t (0 : Fin 2) * 1 + 1 * (i 0).val = (i 0).val; omega
  | ⟨1, _⟩ => show win5_5.index t (1 : Fin 2) * 192 + 1 * (i 1).val = (i 1).val; omega

/-- So a gate pre-activation over the blocks at point `t` is the array's at row `5000 t + p`: the input gates, -/
theorem gate_in (c : Dev nD) (t : Fin cfg5.N) (p : Fin 5000) (col : Fin 192) (n : Fin 100000) (hn : n.val = t.val * 5000 + p.val) :
    gateB (iblk5 (F := Ideal) V c 0 t) (iblk5 (F := Ideal) V c 2 t) (iblk5 (F := Ideal) V c 4 t) p col
      = Cert.Spec.gate (V c (Pipeline.arrRef spec5 0)) (V c (Pipeline.arrRef spec5 2)) (V c (Pipeline.arrRef spec5 4)) n col := by
  unfold gateB Cert.Spec.gate
  exact congrArg₂ (· + ·) (Finset.sum_congr rfl fun k _ => congrArg₂ (· * ·) (agg_block V c t p k n hn) (wih_block V c t (ix2 k col)))
    (bih_block V c t (ix2 0 col))
/-- and the state gates. -/
theorem gate_st (c : Dev nD) (t : Fin cfg5.N) (p : Fin 5000) (col : Fin 192) (n : Fin 100000) (hn : n.val = t.val * 5000 + p.val) :
    gateB (iblk5 (F := Ideal) V c 1 t) (iblk5 (F := Ideal) V c 3 t) (iblk5 (F := Ideal) V c 5 t) p col
      = Cert.Spec.gate (V c (Pipeline.arrRef spec5 1)) (V c (Pipeline.arrRef spec5 3)) (V c (Pipeline.arrRef spec5 5)) n col := by
  unfold gateB Cert.Spec.gate
  exact congrArg₂ (· + ·) (Finset.sum_congr rfl fun k _ => congrArg₂ (· * ·) (h_block V c t p k n hn) (whh_block V c t (ix2 k col)))
    (bhh_block V c t (ix2 0 col))

/-! ## What a point writes back, the cover, the array -/

/-- Row `p` of block `t` of any array of the output's shape, read through the output's window, is row `5000 t + p` of it. -/
theorem out_block (G : S100000x64.Idx → EReal) (t : Fin cfg5.N) (p : Fin 5000) (j : Fin 64) (n : Fin 100000)
    (hn : n.val = t.val * 5000 + p.val) :
    ((cfg5.win 6).blk t).view.read (Elt Ideal) G (ix2 p j) = G (ix2 n j) := by
  obtain ⟨-, -, -, -, -, -, -, -, -, -, -, -, e0, e1⟩ := idx_facts t
  show G (((cfg5.win 6).blk t).view.emb (ix2 p j)) = _
  refine congrArg _ (funext fun a => Fin.ext ?_)
  match a with
  | ⟨0, _⟩ => show win5_6.index t (0 : Fin 2) * 5000 + 1 * p.val = n.val; omega
  | ⟨1, _⟩ => show win5_6.index t (1 : Fin 2) * 64 + 1 * j.val = j.val; omega

/-- The gated update at row `n`, channel `j`, written out. -/
theorem gru_at (agg h : Cert.Spec.SNxH.Idx → EReal) (wih whh : Cert.Spec.SHxG.Idx → EReal) (bih bhh : Cert.Spec.S1xG.Idx → EReal)
    (n : Fin 100000) (j : Fin 64) :
    Cert.Spec.gru agg h wih whh bih bhh (ix2 n j)
      = max ((Cert.Spec.one - Ideal.logistic (Cert.Spec.gate agg wih bih n (Cert.Spec.colZ j) + Cert.Spec.gate h whh bhh n (Cert.Spec.colZ j)))
              * Ideal.tanh (Cert.Spec.gate agg wih bih n (Cert.Spec.colN j)
                  + Ideal.logistic (Cert.Spec.gate agg wih bih n (Cert.Spec.colR j) + Cert.Spec.gate h whh bhh n (Cert.Spec.colR j))
                    * Cert.Spec.gate h whh bhh n (Cert.Spec.colN j))
            + Ideal.logistic (Cert.Spec.gate agg wih bih n (Cert.Spec.colZ j) + Cert.Spec.gate h whh bhh n (Cert.Spec.colZ j)) * h (ix2 n j))
          Cert.Spec.zero := rfl

/-- The update is a function of its seven entries. -/
theorem update_congr {zi zh ni ri rh nh s zi' zh' ni' ri' rh' nh' s' : EReal} (hzi : zi = zi') (hzh : zh = zh') (hni : ni = ni')
    (hri : ri = ri') (hrh : rh = rh') (hnh : nh = nh') (hs : s = s') :
    max ((Cert.Spec.one - Ideal.logistic (zi + zh)) * Ideal.tanh (ni + Ideal.logistic (ri + rh) * nh) + Ideal.logistic (zi + zh) * s) Cert.Spec.zero
      = max ((Cert.Spec.one - Ideal.logistic (zi' + zh')) * Ideal.tanh (ni' + Ideal.logistic (ri' + rh') * nh') + Ideal.logistic (zi' + zh') * s') Cert.Spec.zero := by
  rw [hzi, hzh, hni, hri, hrh, hnh, hs]

/-- What point `t` writes back is block `t` of the gated update of the six arrays as the call finds them. -/
theorem flushed_eq (c : Dev nD) (t : Fin cfg5.N) :
    (dat5 (F := Ideal) V c).flushed 6 t = ((cfg5.win 6).blk t).view.read (Elt Ideal)
      (Cert.Spec.gru (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 (F := Ideal) V c).after 6 t) = _
  rw [after5_6]
  unfold out5_6
  rw [View.canon_unit_zero hz]
  simp only [View.ld_unit_zero (S := S5000x64) hz, View.ld_unit_zero (S := S64x192) hz, View.ld_unit_zero (S := S1x192) hz]
  refine funext fun (y : S5000x64.Idx) => ?_
  obtain ⟨p, j, rfl⟩ : ∃ (p : Fin 5000) (j : Fin 64), y = ix2 p j := ⟨y 0, y 1, eq_ix2 y⟩
  refine (stored_at (iblk5 (F := Ideal) V c 0 t) (iblk5 (F := Ideal) V c 1 t) (iblk5 (F := Ideal) V c 2 t) (iblk5 (F := Ideal) V c 3 t)
    (iblk5 (F := Ideal) V c 4 t) (iblk5 (F := Ideal) V c 5 t) p j).trans ?_
  have hN : cfg5.N = 20 := N_5
  have ht : t.val < 20 := hN ▸ t.isLt
  have hp : p.val < 5000 := p.isLt
  have hn : t.val * 5000 + p.val < 100000 := by omega
  refine Eq.trans ?_ (out_block (Cert.Spec.gru (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) t p j ⟨t.val * 5000 + p.val, hn⟩ rfl).symm
  refine Eq.trans ?_ (gru_at _ _ _ _ _ _ ⟨t.val * 5000 + p.val, hn⟩ j).symm
  exact update_congr (gate_in V c t p (Cert.Spec.colZ j) ⟨t.val * 5000 + p.val, hn⟩ rfl) (gate_st V c t p (Cert.Spec.colZ j) ⟨t.val * 5000 + p.val, hn⟩ rfl)
    (gate_in V c t p (Cert.Spec.colN j) ⟨t.val * 5000 + p.val, hn⟩ rfl) (gate_in V c t p (Cert.Spec.colR j) ⟨t.val * 5000 + p.val, hn⟩ rfl)
    (gate_st V c t p (Cert.Spec.colR j) ⟨t.val * 5000 + p.val, hn⟩ rfl) (gate_st V c t p (Cert.Spec.colN j) ⟨t.val * 5000 + p.val, hn⟩ rfl)
    (h_block V c t p j ⟨t.val * 5000 + p.val, hn⟩ rfl)

/-- Every row of the array is in the block of the point `row / 5000`. -/
theorem cover (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  have hlt : (i 0).val / 5000 < cfg5.N := by rw [hN]; omega
  obtain ⟨-, -, -, -, -, -, -, -, -, -, -, -, e0, e1⟩ := idx_facts ⟨(i 0).val / 5000, hlt⟩
  have e0' : win5_6.index ⟨(i 0).val / 5000, hlt⟩ (0 : Fin 2) = (i 0).val / 5000 := e0
  refine ⟨⟨(i 0).val / 5000, hlt⟩, flush5_6 _, ?_⟩
  show i ∈ ((View.whole (Pipeline.arrRef spec5 6)).slice (win5_6.rect ⟨(i 0).val / 5000, hlt⟩)).set
  rw [View.set_slice_whole, Rect.mem_set_unit]
  intro a
  match a with
  | ⟨0, _⟩ => show win5_6.index ⟨(i 0).val / 5000, hlt⟩ (0 : Fin 2) * 5000 ≤ (i 0).val ∧ (i 0).val < win5_6.index ⟨(i 0).val / 5000, hlt⟩ (0 : Fin 2) * 5000 + 5000; omega
  | ⟨1, _⟩ => show win5_6.index ⟨(i 0).val / 5000, hlt⟩ (1 : Fin 2) * 64 ≤ (i 1).val ∧ (i 1).val < win5_6.index ⟨(i 0).val / 5000, hlt⟩ (1 : Fin 2) * 64 + 64; omega

/-- After the first update call its output array is the gated update of its six input arrays as the call finds them. -/
theorem arr (c : Dev nD) :
    (dat5 (F := Ideal) V c).arrAt 6 cfg5.N
      = Cert.Spec.gru (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => flushed_eq V c t) fun i => cover i

end Cert.KernelIdeal.R5

end
-- ==== Proof.RefGru3.lean ====
import proofs.«428605_j28329604284558_1_alg».proof.Proof.RefStages
import proofs.«428605_j28329604284558_1_alg».proof.Proof.Spec
import Idealize.ShloMosaic.Lib.Pipeline.Value
import Idealize.ShloMosaic.Lib.ValueIdx
import Idealize.ShloMosaic.PureOps.Ideal.Laws

noncomputable section

namespace Cert.ReferenceIdeal.BridgeGru3

open Cert.ReferenceIdeal Cert.ReferenceIdeal.Gen Cert.ReferenceIdeal.Stages
open Idealize.ShloMosaic Idealize.ShloMosaic.TcCoe Idealize.ShloMosaic.ValueIdx Idealize.SL.Sem

variable (x0 : (⟨S100000x1, .i32⟩ : BufTy).Contents (Elt Ideal)) (x1 : (⟨S2x1000000, .i32⟩ : BufTy).Contents (Elt Ideal))
  (x3 : (⟨S100000, .i32⟩ : BufTy).Contents (Elt Ideal)) (x4 : (⟨S100x64, .f32⟩ : BufTy).Contents (Elt Ideal))
  (x7 : (⟨S3x64x64, .f32⟩ : BufTy).Contents (Elt Ideal)) (x8 x9 : (⟨S3x192x64, .f32⟩ : BufTy).Contents (Elt Ideal))
  (x10 x11 : (⟨S3x192, .f32⟩ : BufTy).Contents (Elt Ideal))

/-- The binary word of the float 1.0 denotes the extended real 1. -/
theorem ofBits_one_f32 : Ideal.ofBits .f32 0x3F800000#32 = (1 : EReal) := by
  simp [Ideal.ofBits, Ideal.ieee, -EReal.coe_mul]; norm_num

/-- `1 / (1 + e^(-x))`, spelled with the reference's operations and the word of 1.0, is the logistic function. -/
theorem logistic_expand (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [ofBits_one_f32]

/-- The three column slices of the input-side pre-activations read the reset, update and candidate columns. -/
theorem sliceR_agg (n : Fin 100000) (j : Fin 64) : idx_main_v168 (ix2 n j) = ix2 n (Cert.Spec.colR j) :=
  funext fun a => Fin.ext (by match a with | ⟨0, _⟩ => rfl | ⟨1, _⟩ => rfl)
theorem sliceZ_agg (n : Fin 100000) (j : Fin 64) : idx_main_v169 (ix2 n j) = ix2 n (Cert.Spec.colZ j) :=
  funext fun a => Fin.ext (by match a with | ⟨0, _⟩ => rfl | ⟨1, _⟩ => rfl)
theorem sliceN_agg (n : Fin 100000) (j : Fin 64) : idx_main_v170 (ix2 n j) = ix2 n (Cert.Spec.colN j) :=
  funext fun a => Fin.ext (by match a with | ⟨0, _⟩ => rfl | ⟨1, _⟩ => rfl)
/-- The same three slices of the state-side pre-activations. -/
theorem sliceR_st (n : Fin 100000) (j : Fin 64) : idx_main_v171 (ix2 n j) = ix2 n (Cert.Spec.colR j) :=
  funext fun a => Fin.ext (by match a with | ⟨0, _⟩ => rfl | ⟨1, _⟩ => rfl)
theorem sliceZ_st (n : Fin 100000) (j : Fin 64) : idx_main_v172 (ix2 n j) = ix2 n (Cert.Spec.colZ j) :=
  funext fun a => Fin.ext (by match a with | ⟨0, _⟩ => rfl | ⟨1, _⟩ => rfl)
theorem sliceN_st (n : Fin 100000) (j : Fin 64) : idx_main_v173 (ix2 n j) = ix2 n (Cert.Spec.colN j) :=
  funext fun a => Fin.ext (by match a with | ⟨0, _⟩ => rfl | ⟨1, _⟩ => rfl)

/-- The input-side pre-activation, a product along the contraction plus the broadcast bias row, at row `n` and gate column `c`. -/
theorem gate_agg (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v159 (ix2 n c) k) * w (ridx_main_v159 (ix2 n c) k)) (b (idx_main_v161 (ix2 n c)))
      = Cert.Spec.gate a w b n c := by
  have el : ∀ k : Fin 64, lidx_main_v159 (ix2 n c) k = ix2 n k := fun k =>
    funext fun d => Fin.ext (by match d with | ⟨0, _⟩ => rfl | ⟨1, _⟩ => rfl)
  have er : ∀ k : Fin 64, ridx_main_v159 (ix2 n c) k = ix2 k c := fun k =>
    funext fun d => Fin.ext (by match d with | ⟨0, _⟩ => rfl | ⟨1, _⟩ => rfl)
  have eb : idx_main_v161 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The state-side pre-activation at row `n` and gate column `c`. -/
theorem gate_st (a : S100000x64.Idx → Ideal .f32) (w : S64x192.Idx → Ideal .f32) (b : S1x192.Idx → Ideal .f32)
    (n : Fin 100000) (c : Fin 192) :
    FloatOps.addf (F := Ideal) (φ := .f32)
        (∑ k : Fin 64, a (lidx_main_v164 (ix2 n c) k) * w (ridx_main_v164 (ix2 n c) k)) (b (idx_main_v166 (ix2 n c)))
      = Cert.Spec.gate a w b n c := by
  have el : ∀ k : Fin 64, lidx_main_v164 (ix2 n c) k = ix2 n k := fun k =>
    funext fun d => Fin.ext (by match d with | ⟨0, _⟩ => rfl | ⟨1, _⟩ => rfl)
  have er : ∀ k : Fin 64, ridx_main_v164 (ix2 n c) k = ix2 k c := fun k =>
    funext fun d => Fin.ext (by match d with | ⟨0, _⟩ => rfl | ⟨1, _⟩ => rfl)
  have eb : idx_main_v166 (ix2 n c) = ix2 0 c :=
    funext fun d => Fin.ext (by match d with | ⟨0, _⟩ => rfl | ⟨1, _⟩ => rfl)
  unfold Cert.Spec.gate
  rw [eb]
  exact congrArg (· + b (ix2 0 c)) (Finset.sum_congr rfl fun k _ => by rw [el k, er k])

/-- The update's arithmetic at one entry, over any six arrays: the reference's operations at the ideal values, applied to the six
    gate pre-activations and the state's entry, are the specification's update there. -/
theorem gru_point (agg h : S100000x64.Idx → Ideal .f32) (wih whh : S64x192.Idx → Ideal .f32) (bih bhh : S1x192.Idx → Ideal .f32)
    (n : Fin 100000) (j : Fin 64) :
    FloatOps.maximumf (F := Ideal) (φ := .f32)
      (FloatOps.addf (F := Ideal) (φ := .f32)
        (FloatOps.mulf (F := Ideal) (φ := .f32)
          (FloatOps.subf (F := Ideal) (φ := .f32) (FloatOps.ofBits (F := Ideal) .f32 0x3F800000#32)
            (Ideal.logistic (FloatOps.addf (F := Ideal) (φ := .f32) (Cert.Spec.gate agg wih bih n (Cert.Spec.colZ j)) (Cert.Spec.gate h whh bhh n (Cert.Spec.colZ j)))))
          (FloatOps.hostUnary (F := Ideal) (φ := .f32) .tanh
            (FloatOps.addf (F := Ideal) (φ := .f32) (Cert.Spec.gate agg wih bih n (Cert.Spec.colN j))
              (FloatOps.mulf (F := Ideal) (φ := .f32)
                (Ideal.logistic (FloatOps.addf (F := Ideal) (φ := .f32) (Cert.Spec.gate agg wih bih n (Cert.Spec.colR j)) (Cert.Spec.gate h whh bhh n (Cert.Spec.colR j))))
                (Cert.Spec.gate h whh bhh n (Cert.Spec.colN j))))))
        (FloatOps.mulf (F := Ideal) (φ := .f32)
          (Ideal.logistic (FloatOps.addf (F := Ideal) (φ := .f32) (Cert.Spec.gate agg wih bih n (Cert.Spec.colZ j)) (Cert.Spec.gate h whh bhh n (Cert.Spec.colZ j))))
          (h (ix2 n j))))
      (FloatOps.ofBits (F := Ideal) .f32 0x00000000#32)
    = Cert.Spec.gru agg h wih whh bih bhh (ix2 n j) := rfl

/-- The reference's third gated update and rectifier, as the stage function of its aggregate, its state, its two
    transposed weight slices and its two bias rows. -/
theorem gru3 : val_main_v196 (F := Ideal) x0 x1 x4 x7 x8 x9 x10 x11
    = Cert.Spec.gru (val_main_v149 (F := Ideal) x0 x1 x4 x7 x8 x9 x10 x11) (val_main_v136 (F := Ideal) x0 x1 x4 x7 x8 x9 x10 x11)
        (val_main_v158 (F := Ideal) x8) (val_main_v163 (F := Ideal) x9) (val_main_v160 (F := Ideal) x10) (val_main_v165 (F := Ideal) x11) := by
  funext i
  obtain ⟨n, j, rfl⟩ : ∃ (n : Fin 100000) (j : Fin 64), i = ix2 n j := ⟨i 0, i 1, eq_ix2 i⟩
  -- each constant-filled array, read at an entry, is its word
  have oneA : val_main_v177 (F := Ideal) (ix2 n j) = FloatOps.ofBits (F := Ideal) .f32 0x3F800000#32 := (val_main_v177_apply _).trans rfl
  have oneB : val_main_v179 (F := Ideal) (ix2 n j) = FloatOps.ofBits (F := Ideal) .f32 0x3F800000#32 := (val_main_v179_apply _).trans rfl
  have oneC : val_main_v184 (F := Ideal) (ix2 n j) = FloatOps.ofBits (F := Ideal) .f32 0x3F800000#32 := (val_main_v184_apply _).trans rfl
  have oneD : val_main_v186 (F := Ideal) (ix2 n j) = FloatOps.ofBits (F := Ideal) .f32 0x3F800000#32 := (val_main_v186_apply _).trans rfl
  have oneE : val_main_v191 (F := Ideal) (ix2 n j) = FloatOps.ofBits (F := Ideal) .f32 0x3F800000#32 := (val_main_v191_apply _).trans rfl
  have zeroA : val_main_call2_v0 (F := Ideal) (ix2 n j) = FloatOps.ofBits (F := Ideal) .f32 0x00000000#32 := (val_main_call2_v0_apply _).trans rfl
  -- a pre-activation array is the product array plus the broadcast bias row, entry by entry
  have sumI := val_main_v162_apply (F := Ideal)
  have sumS := val_main_v167_apply (F := Ideal)
  -- open the entrywise stages from the output inwards; the two `1 / (1 + e^(-x))` are logistic functions, and the six
  -- column slices read the reset, update and candidate columns
  rw [val_main_v196_apply, val_main_v195_apply, val_main_v193_apply, val_main_v194_apply, val_main_v192_apply,
    val_main_v190_apply, val_main_v189_apply, val_main_v188_apply,
    val_main_v187_apply, val_main_v185_apply, val_main_v183_apply, val_main_v182_apply, val_main_v181_apply,
    val_main_v180_apply, val_main_v178_apply, val_main_v176_apply, val_main_v175_apply, val_main_v174_apply,
    oneA, oneB, oneC, oneD, oneE, zeroA, logistic_expand, logistic_expand,
    val_main_v168_apply, val_main_v169_apply, val_main_v170_apply, val_main_v171_apply, val_main_v172_apply, val_main_v173_apply,
    sliceR_agg, sliceZ_agg, sliceN_agg, sliceR_st, sliceZ_st, sliceN_st]
  -- each of the six pre-activations is a gate of the specification
  simp only [sumI, sumS, val_main_v159_apply, val_main_v164_apply, val_main_v161_apply, val_main_v166_apply, gate_agg, gate_st]
  exact gru_point _ _ _ _ _ _ n j

end Cert.ReferenceIdeal.BridgeGru3

end
-- ==== Proof.KLayer3.lean ====
/-
  The third layer, followed through the run: from the state buffer at the second update call's exit to the state
  buffer at the third update call's exit.

  Between the two there are, in order: a stretch that slices this layer's transform weights; the transform call (the
  state times those weights); a stretch that looks the transformed rows up at the edges' source row numbers (wrapped
  the NumPy way, rows out of range masked: with every number in range the mask keeps every row); a stretch that adds
  the gathered rows up at the edges' destination row numbers into zeros and lays out this layer's weight and bias
  slices; and the update call (the gated update of the state by the aggregate). Each stretch is read by evaluating the
  fold of its operations at the buffer asked for, over any contents and any float values; each call by its region's
  value and the reference's matching stage. Every buffer the layer only reads keeps what it held when the layer began.
-/
import proofs.«428605_j28329604284558_1_alg».proof.Proof.KCarried
import proofs.«428605_j28329604284558_1_alg».proof.Proof.Region4
import proofs.«428605_j28329604284558_1_alg».proof.Proof.Region5
import proofs.«428605_j28329604284558_1_alg».proof.Proof.RefMm
import proofs.«428605_j28329604284558_1_alg».proof.Proof.RefGru3
import proofs.«428605_j28329604284558_1_alg».proof.Proof.TakeFill
import proofs.«428605_j28329604284558_1_alg».proof.Proof.Layout
import proofs.«428605_j28329604284558_1_alg».proof.Proof.LibTypedRef

set_option maxRecDepth 16384
-- one declaration at a time: each reading of a stretch is large while it is checked
set_option Elab.async false

noncomputable section

namespace Cert.KernelIdeal.Chain.L3

open Cert.KernelIdeal Cert.KernelIdeal.Gen
open Idealize.ShloMosaic Idealize.ShloMosaic.TcCoe Idealize.SL.Sem Idealize.ShloMosaic.StableHlo
open Cert.ReferenceIdeal.Stages

/-! ### The stretches of host operations, over any contents and any float values -/

section Stretch
variable {F : FTy → Type} [FloatOps F] (V : Valuation τ sig (Elt F))

/-- The stretch before the transform call slices one layer of the transform weights and drops the unit axis:
    the reference's two operations on the same argument. -/
theorem slice_stage (x7 : (⟨S3x64x64, .f32⟩ : BufTy).Contents (Elt F)) (h : V (Proc.devRef .tc main_arg7) = x7) :
    StableHlo.after hostOps4 V (Proc.devRef .tc main_v45) = val_main_v138 (F := F) x7 := by
  dsimp only [hostOps4]
  after_results_simp
  rw [h]
  rfl

/-- The look-up stretch wraps the source row numbers, gathers the transformed rows at them and masks the rows whose
    number is out of range; with every number in range the mask keeps every row, and what is left is the reference's
    gather of its wrapped numbers. -/
theorem take_stage
    (x0 : (⟨S100000x1, .i32⟩ : BufTy).Contents (Elt F)) (x1 : (⟨S2x1000000, .i32⟩ : BufTy).Contents (Elt F))
    (x4 : (⟨S100x64, .f32⟩ : BufTy).Contents (Elt F)) (x7 : (⟨S3x64x64, .f32⟩ : BufTy).Contents (Elt F))
    (x8 x9 : (⟨S3x192x64, .f32⟩ : BufTy).Contents (Elt F)) (x10 x11 : (⟨S3x192, .f32⟩ : BufTy).Contents (Elt F))
    (hidx : ∀ i : Cert.ReferenceIdeal.S1000000.Idx,
      -100000 ≤ (val_main_v14 (F := F) x1 i).toInt ∧ (val_main_v14 (F := F) x1 i).toInt < 100000)
    (hi : V (Proc.devRef .tc main_v3) = val_main_v14 (F := F) x1)
    (ht : V (Proc.devRef .tc main_v46) = val_main_v139 (F := F) x0 x1 x4 x7 x8 x9 x10 x11) :
    StableHlo.after hostOps5 V (Proc.devRef .tc main_v47) = val_main_v146 (F := F) x0 x1 x4 x7 x8 x9 x10 x11 := by
  have hi' := Cert.TypedRef.ofBuf_eq_of_heq (Val := Elt F) (TRef.of main_v3 : TRef sig ⟨S1000000, .i32⟩) (V (Proc.devRef .tc main_v3))
    (val_main_v14 (F := F) x1) (heq_of_eq hi)
  have ht' := Cert.TypedRef.ofBuf_eq_of_heq (Val := Elt F) (TRef.of main_v46 : TRef sig ⟨S100000x64, .f32⟩) (V (Proc.devRef .tc main_v46))
    (val_main_v139 (F := F) x0 x1 x4 x7 x8 x9 x10 x11) (heq_of_eq ht)
  dsimp only [hostOps5]
  after_results_simp
  refine Cert.TypedRef.toBuf_eq_of_heq _ _ _ (heq_of_eq ?_)
  simp only [Cert.TypedRef.ofBuf_toBuf]
  rw [hi', ht']
  refine (Cert.TakeFill.masked_take_eq (F := F) 100000 1000000 64 (by decide) (by decide) _ _ _ _ _ _ _ _ _ ?_ 99999#32
    (by decide) _ _).trans ?_
  · exact hidx
  · rfl

/-- The gathered rows added up at the destination row numbers, into zeros: the reference's three operations. -/
theorem scatter_stage
    (x0 : (⟨S100000x1, .i32⟩ : BufTy).Contents (Elt F)) (x1 : (⟨S2x1000000, .i32⟩ : BufTy).Contents (Elt F))
    (x4 : (⟨S100x64, .f32⟩ : BufTy).Contents (Elt F)) (x7 : (⟨S3x64x64, .f32⟩ : BufTy).Contents (Elt F))
    (x8 x9 : (⟨S3x192x64, .f32⟩ : BufTy).Contents (Elt F)) (x10 x11 : (⟨S3x192, .f32⟩ : BufTy).Contents (Elt F))
    (hd : V (Proc.devRef .tc main_v5) = val_main_v16 (F := F) x1)
    (hu : V (Proc.devRef .tc main_v47) = val_main_v146 (F := F) x0 x1 x4 x7 x8 x9 x10 x11) :
    StableHlo.after hostOps5_1 V (Proc.devRef .tc main_v50) = val_main_v149 (F := F) x0 x1 x4 x7 x8 x9 x10 x11 := by
  dsimp only [hostOps5_1]
  after_results_simp
  rw [hd, hu]
  rfl

/-- The layer's input weights, transposed, as the update call takes them. -/
theorem wih_stage (x8 : (⟨S3x192x64, .f32⟩ : BufTy).Contents (Elt F))
    (hw : V (Proc.devRef .tc main_v6) = transpose S3x64x192 [0, 2, 1] x8 Gen.transposes_S3x192x64_S3x64x192_0_2_1) :
    StableHlo.after hostOps5_1 V (Proc.devRef .tc main_v52) = val_main_v158 (F := F) x8 := by
  dsimp only [hostOps5_1]
  after_results_simp
  rw [hw]
  exact Cert.Layout.wih3 x8

/-- The layer's state weights, transposed. -/
theorem whh_stage (x9 : (⟨S3x192x64, .f32⟩ : BufTy).Contents (Elt F))
    (hw : V (Proc.devRef .tc main_v7) = transpose S3x64x192 [0, 2, 1] x9 Gen.transposes_S3x192x64_S3x64x192_0_2_1) :
    StableHlo.after hostOps5_1 V (Proc.devRef .tc main_v54) = val_main_v163 (F := F) x9 := by
  dsimp only [hostOps5_1]
  after_results_simp
  rw [hw]
  exact Cert.Layout.whh3 x9

/-- The layer's input bias as a row. -/
theorem bih_stage (x10 : (⟨S3x192, .f32⟩ : BufTy).Contents (Elt F)) (hb : V (Proc.devRef .tc main_arg10) = x10) :
    StableHlo.after hostOps5_1 V (Proc.devRef .tc main_v59) = val_main_v160 (F := F) x10 := by
  dsimp only [hostOps5_1]
  after_results_simp
  rw [hb]
  exact Cert.Layout.bih3 x10

/-- The layer's state bias as a row. -/
theorem bhh_stage (x11 : (⟨S3x192, .f32⟩ : BufTy).Contents (Elt F)) (hb : V (Proc.devRef .tc main_arg11) = x11) :
    StableHlo.after hostOps5_1 V (Proc.devRef .tc main_v60) = val_main_v165 (F := F) x11 := by
  dsimp only [hostOps5_1]
  after_results_simp
  rw [hb]
  exact Cert.Layout.bhh3 x11

end Stretch

variable (m : (ℓ : Loc nD τ sig) → Buf (Elt Ideal) ℓ) (ρ : Dev nD → PrngReg) (c : Dev nD)

/-! ### What the layer leaves alone -/

/-- A buffer holds, after the transform call, after the look-up and after the update call, what it held when the
    layer began. -/
abbrev Kept (b : Ref sig .tc) : Prop :=
  W14 m ρ c (Proc.devRef .tc b) = W12 m ρ c (Proc.devRef .tc b)
    ∧ W15 m ρ c (Proc.devRef .tc b) = W12 m ρ c (Proc.devRef .tc b)
    ∧ W17 m ρ c (Proc.devRef .tc b) = W12 m ρ c (Proc.devRef .tc b)

/-- So does every buffer that none of the layer's three stretches writes and that is no array of its two calls. -/
theorem kept (b : Ref sig .tc)
    (h8 : ∀ op ∈ (hostOps4 : List (HloOp τ sig (Elt Ideal))), Proc.devRef .tc b ∉ op.writes)
    (h9 : ∀ w, Pipeline.arrRef spec4 w ≠ b)
    (h10 : ∀ op ∈ (hostOps5 : List (HloOp τ sig (Elt Ideal))), Proc.devRef .tc b ∉ op.writes)
    (h11 : ∀ op ∈ (hostOps5_1 : List (HloOp τ sig (Elt Ideal))), Proc.devRef .tc b ∉ op.writes)
    (h12 : ∀ w, Pipeline.arrRef spec5 w ≠ b) : Kept m ρ c b := by
  have e9 : W14 m ρ c (Proc.devRef .tc b) = W12 m ρ c (Proc.devRef .tc b) :=
    (keep14 m ρ c b h9).trans (keep13 m ρ c b h8)
  have e10 : W15 m ρ c (Proc.devRef .tc b) = W12 m ρ c (Proc.devRef .tc b) := (keep15 m ρ c b h10).trans e9
  exact ⟨e9, e10, (keep17 m ρ c b h12).trans ((keep16 m ρ c b h11).trans e10)⟩

theorem kept_src : Kept m ρ c main_v3 :=
  kept m ρ c main_v3 (by not_written hostOps4) (by decide) (by not_written hostOps5) (by not_written hostOps5_1) (by decide)
theorem kept_dst : Kept m ρ c main_v5 :=
  kept m ρ c main_v5 (by not_written hostOps4) (by decide) (by not_written hostOps5) (by not_written hostOps5_1) (by decide)
theorem kept_wih : Kept m ρ c main_v6 :=
  kept m ρ c main_v6 (by not_written hostOps4) (by decide) (by not_written hostOps5) (by not_written hostOps5_1) (by decide)
theorem kept_whh : Kept m ρ c main_v7 :=
  kept m ρ c main_v7 (by not_written hostOps4) (by decide) (by not_written hostOps5) (by not_written hostOps5_1) (by decide)
theorem kept_arg3 : Kept m ρ c main_arg3 :=
  kept m ρ c main_arg3 (by not_written hostOps4) (by decide) (by not_written hostOps5) (by not_written hostOps5_1) (by decide)
theorem kept_arg7 : Kept m ρ c main_arg7 :=
  kept m ρ c main_arg7 (by not_written hostOps4) (by decide) (by not_written hostOps5) (by not_written hostOps5_1) (by decide)
theorem kept_arg10 : Kept m ρ c main_arg10 :=
  kept m ρ c main_arg10 (by not_written hostOps4) (by decide) (by not_written hostOps5) (by not_written hostOps5_1) (by decide)
theorem kept_arg11 : Kept m ρ c main_arg11 :=
  kept m ρ c main_arg11 (by not_written hostOps4) (by decide) (by not_written hostOps5) (by not_written hostOps5_1) (by decide)

/-! ### The transform call -/

/-- The state buffer is an input array of the transform call, which does not write it. -/
theorem state_through_transform :
    W14 m ρ c (Proc.devRef .tc main_v43) = W13 m ρ c (Proc.devRef .tc main_v43) :=
  (W14_arr m ρ c 0).trans ((dat4 (F := Ideal) (V13 m ρ) c).arrAt_in 0 rfl _)

/-- The transform call leaves the product of the state with the sliced weights: the reference's stage. -/
theorem transform_stage
    (hin : W12 m ρ c (Proc.devRef .tc main_v43) = val_main_v136 (F := Ideal) (a0 m c) (a1 m c) (a4 m c) (a7 m c) (a8 m c) (a9 m c) (a10 m c) (a11 m c))
    (hc : Carried m c (W12 m ρ c)) :
    W14 m ρ c (Proc.devRef .tc main_v46) = val_main_v139 (F := Ideal) (a0 m c) (a1 m c) (a4 m c) (a7 m c) (a8 m c) (a9 m c) (a10 m c) (a11 m c) :=
  (W14_arr m ρ c 2).trans ((Cert.KernelIdeal.R4.arr (V13 m ρ) c).trans
    ((congr (congrArg Cert.Spec.mm ((keep13 m ρ c main_v43 (by not_written hostOps4)).trans hin))
        (slice_stage (W12 m ρ c) (a7 m c) hc.arg7)).trans
      (Cert.ReferenceIdeal.BridgeMm.mm3 (a0 m c) (a1 m c) (a4 m c) (a7 m c) (a8 m c) (a9 m c) (a10 m c) (a11 m c)).symm))

/-! ### The look-up, the scatter-add and the update call -/

/-- The gathered rows, after the look-up stretch. -/
theorem gather_stage (hs : SrcRange m c)
    (hin : W12 m ρ c (Proc.devRef .tc main_v43) = val_main_v136 (F := Ideal) (a0 m c) (a1 m c) (a4 m c) (a7 m c) (a8 m c) (a9 m c) (a10 m c) (a11 m c))
    (hc : Carried m c (W12 m ρ c)) :
    W15 m ρ c (Proc.devRef .tc main_v47) = val_main_v146 (F := Ideal) (a0 m c) (a1 m c) (a4 m c) (a7 m c) (a8 m c) (a9 m c) (a10 m c) (a11 m c) :=
  take_stage (W14 m ρ c) (a0 m c) (a1 m c) (a4 m c) (a7 m c) (a8 m c) (a9 m c) (a10 m c) (a11 m c) hs
    ((kept_src m ρ c).1.trans hc.src) (transform_stage m ρ c hin hc)

/-- The aggregate the update call reads. -/
theorem aggregate_stage (hs : SrcRange m c)
    (hin : W12 m ρ c (Proc.devRef .tc main_v43) = val_main_v136 (F := Ideal) (a0 m c) (a1 m c) (a4 m c) (a7 m c) (a8 m c) (a9 m c) (a10 m c) (a11 m c))
    (hc : Carried m c (W12 m ρ c)) :
    W16 m ρ c (Proc.devRef .tc main_v50) = val_main_v149 (F := Ideal) (a0 m c) (a1 m c) (a4 m c) (a7 m c) (a8 m c) (a9 m c) (a10 m c) (a11 m c) :=
  scatter_stage (W15 m ρ c) (a0 m c) (a1 m c) (a4 m c) (a7 m c) (a8 m c) (a9 m c) (a10 m c) (a11 m c)
    ((kept_dst m ρ c).2.1.trans hc.dst) (gather_stage m ρ c hs hin hc)

/-- The state the update call reads: untouched since the layer began. -/
theorem state_stage
    (hin : W12 m ρ c (Proc.devRef .tc main_v43) = val_main_v136 (F := Ideal) (a0 m c) (a1 m c) (a4 m c) (a7 m c) (a8 m c) (a9 m c) (a10 m c) (a11 m c)) :
    W16 m ρ c (Proc.devRef .tc main_v43) = val_main_v136 (F := Ideal) (a0 m c) (a1 m c) (a4 m c) (a7 m c) (a8 m c) (a9 m c) (a10 m c) (a11 m c) :=
  (keep16 m ρ c main_v43 (by not_written hostOps5_1)).trans ((keep15 m ρ c main_v43 (by not_written hostOps5)).trans
    ((state_through_transform m ρ c).trans ((keep13 m ρ c main_v43 (by not_written hostOps4)).trans hin)))

/-- The update call leaves the gated update of the state by the aggregate: the reference's stage. -/
theorem update_stage (hs : SrcRange m c)
    (hin : W12 m ρ c (Proc.devRef .tc main_v43) = val_main_v136 (F := Ideal) (a0 m c) (a1 m c) (a4 m c) (a7 m c) (a8 m c) (a9 m c) (a10 m c) (a11 m c))
    (hc : Carried m c (W12 m ρ c)) :
    W17 m ρ c (Proc.devRef .tc main_v61) = val_main_v196 (F := Ideal) (a0 m c) (a1 m c) (a4 m c) (a7 m c) (a8 m c) (a9 m c) (a10 m c) (a11 m c) :=
  (W17_arr m ρ c 6).trans ((Cert.KernelIdeal.R5.arr (V16 m ρ) c).trans
    ((congr (congr (congr (congr (congr (congrArg Cert.Spec.gru (aggregate_stage m ρ c hs hin hc)) (state_stage m ρ c hin))
        (wih_stage (W15 m ρ c) (a8 m c) ((kept_wih m ρ c).2.1.trans hc.wih)))
        (whh_stage (W15 m ρ c) (a9 m c) ((kept_whh m ρ c).2.1.trans hc.whh)))
        (bih_stage (W15 m ρ c) (a10 m c) ((kept_arg10 m ρ c).2.1.trans hc.arg10)))
        (bhh_stage (W15 m ρ c) (a11 m c) ((kept_arg11 m ρ c).2.1.trans hc.arg11))).trans
      (Cert.ReferenceIdeal.BridgeGru3.gru3 (a0 m c) (a1 m c) (a4 m c) (a7 m c) (a8 m c) (a9 m c) (a10 m c) (a11 m c)).symm))

/-- The carried buffers when the layer ends. -/
theorem carried_after (hc : Carried m c (W12 m ρ c)) : Carried m c (W17 m ρ c) where
  src := (kept_src m ρ c).2.2.trans hc.src
  dst := (kept_dst m ρ c).2.2.trans hc.dst
  wih := (kept_wih m ρ c).2.2.trans hc.wih
  whh := (kept_whh m ρ c).2.2.trans hc.whh
  arg3 := (kept_arg3 m ρ c).2.2.trans hc.arg3
  arg7 := (kept_arg7 m ρ c).2.2.trans hc.arg7
  arg10 := (kept_arg10 m ρ c).2.2.trans hc.arg10
  arg11 := (kept_arg11 m ρ c).2.2.trans hc.arg11

/-- After the third layer (the weight slice, the third transform call, the gather and scatter-add along the edges,
    the third update call) the state buffer holds the reference's third-layer stage, and the carried buffers are intact. -/
theorem layer3 (hs : SrcRange m c)
    (hin : W12 m ρ c (Proc.devRef .tc main_v43) = val_main_v136 (F := Ideal) (a0 m c) (a1 m c) (a4 m c) (a7 m c) (a8 m c) (a9 m c) (a10 m c) (a11 m c)) (hc : Carried m c (W12 m ρ c)) :
    W17 m ρ c (Proc.devRef .tc main_v61) = val_main_v196 (F := Ideal) (a0 m c) (a1 m c) (a4 m c) (a7 m c) (a8 m c) (a9 m c) (a10 m c) (a11 m c) ∧ Carried m c (W17 m ρ c) :=
  ⟨update_stage m ρ c hs hin hc, carried_after m ρ c hc⟩

end Cert.KernelIdeal.Chain.L3

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.Region6.lean ====
/-
  The pooling call, read as mathematics: after it, its two output arrays hold the per-graph sums of the node array's
  rows and the per-graph node counts.

  The call walks the 100000 rows in 20 blocks of 5000. At each block it forms the one-hot matrix of the block's graph
  ids against the 256 graph numbers, entry (r, g) = 1 when row r's id word is g and 0 otherwise, and adds to the
  running sums the product of its transpose with the block of node rows, and to the running counts the product of its
  transpose with a column of ones; the first block starts from zero. Over the extended reals a product with a one-hot
  row is a selection (0 · x = 0 and 1 · x = x for every x, the infinities included), and the word equality "id = g" for
  g below 256 is the signed reading "id read as an integer = g". So after block t the sums hold, at (g, j), the sum over
  the rows of blocks 0 … t whose id reads g of their entry j: by induction on the block. The accumulators are written
  back once, after the last block, and each is its whole array; twenty blocks of 5000 rows are the 100000 rows, row n
  being row n % 5000 of block n / 5000.
-/
import proofs.«428605_j28329604284558_1_alg».proof.Proof.Gen.KernelIdeal.Frame
import proofs.«428605_j28329604284558_1_alg».proof.Proof.Spec
import proofs.«428605_j28329604284558_1_alg».proof.Proof.LibScatterRows
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.R6

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## What each control case leaves in the two accumulators -/

section Pieces
variable {F : FTy → Type} [FloatOps F]

theorem hz : (![0, 0] : Fin 2 → Nat) = fun _ => 0 := funext fun a => by fin_cases a <;> rfl

/-- Away from the first point the body leaves, in the sums' buffer holding `xo2`, `xo2` plus the block's one-hot product. -/
theorem out_B_2 (c : Dev nD) (i : grid6.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (a4 : Memref sig .tc .vmem S256x1 .f32) (h4 : a4.IsWhole) (hc : ¬cond6_0 i)
    (x0 : Vec F S5000x64 .f32) (x1 : Vec F S5000x1 .i32) (xo2 : Vec F S256x64 .f32) (xo3 : Vec F S256x1 .f32) :
    out6_B_2 c i a1 h1 a2 h2 a3 h3 a4 h4 hc x0 x1 xo2 xo3 = k6_pay4 x0 x1 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero (S := S256x64) hz]
  simp only [View.readAt_eq_ld, h1.read_unread, h2.read_unread, h3.read_unread, View.ld_unit_zero (S := S5000x64) hz,
    View.ld_unit_zero (S := S5000x1) hz, View.ld_unit_zero (S := S256x64) hz]

/-- and in the counts' buffer holding `xo3`, `xo3` plus the block's one-hot column sums. -/
theorem out_B_3 (c : Dev nD) (i : grid6.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (a4 : Memref sig .tc .vmem S256x1 .f32) (h4 : a4.IsWhole) (hc : ¬cond6_0 i)
    (x0 : Vec F S5000x64 .f32) (x1 : Vec F S5000x1 .i32) (xo2 : Vec F S256x64 .f32) (xo3 : Vec F S256x1 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero (S := S256x1) hz]
  simp only [View.readAt_eq_ld, h1.read_unread, h2.read_unread, h4.read_unread, View.ld_unit_zero (S := S5000x1) hz,
    View.ld_unit_zero (S := S256x1) hz]

/-- At the first point the body zeroes the sums' buffer first, so it leaves the zero block plus the one-hot product. -/
theorem out_A_2 (c : Dev nD) (i : grid6.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (a4 : Memref sig .tc .vmem S256x1 .f32) (h4 : a4.IsWhole) (hc : cond6_0 i)
    (x0 : Vec F S5000x64 .f32) (x1 : Vec F S5000x1 .i32) :
    out6_A_2 c i a1 h1 a2 h2 a3 h3 a4 h4 hc x0 x1 = k6_pay4 x0 x1 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S256x64) hz, View.readCov_unit_zero (S := S256x64) _ hz]
  simp only [View.readAt_eq_ld, h1.read_unread, h2.read_unread, View.ld_unit_zero (S := S5000x64) hz,
    View.ld_unit_zero (S := S5000x1) hz]

/-- Likewise the counts' buffer: the zero column plus the one-hot column sums. -/
theorem out_A_3 (c : Dev nD) (i : grid6.Coords) (a1 : Memref sig .tc .vmem S5000x64 .f32) (h1 : a1.IsWhole)
    (a2 : Memref sig .tc .vmem S5000x1 .i32) (h2 : a2.IsWhole) (a3 : Memref sig .tc .vmem S256x64 .f32) (h3 : a3.IsWhole)
    (a4 : Memref sig .tc .vmem S256x1 .f32) (h4 : a4.IsWhole) (hc : cond6_0 i)
    (x0 : Vec F S5000x64 .f32) (x1 : Vec F S5000x1 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S256x1) hz, View.readCov_unit_zero (S := S256x1) _ hz]
  simp only [View.readAt_eq_ld, h2.read_unread, View.ld_unit_zero (S := S5000x1) hz]

end Pieces

/-! ## The payloads at an element, over the extended reals -/

section Values

/-- The signed conversion of the word 1 is the real 1, -/
theorem sitofp_word_one : FloatOps.sitofp (F := Ideal) .f32 (1#32) = (1 : EReal) := by
  show (((1#32 : BitVec 32).toInt : ℝ) : EReal) = 1
  rw [show (1#32 : BitVec 32).toInt = 1 from by decide]
  simp

/-- and of the word 0 the real 0. -/
theorem sitofp_word_zero : FloatOps.sitofp (F := Ideal) .f32 (0#32) = (0 : EReal) := by
  show (((0#32 : BitVec 32).toInt : ℝ) : EReal) = 0
  rw [show (0#32 : BitVec 32).toInt = 0 from by decide]
  simp

/-- The one-hot matrix of a block's id column: entry `(r, g)` is 1 when row `r`'s id word is `g`, else 0. -/
theorem onehot_apply (x1 : Vec Ideal S5000x1 .i32) (r : Fin 5000) (g : Fin 256) :
    k6_pay3 (F := Ideal) x1 (ix2 r g) = if x1 (ix2 r 0) = BitVec.ofNat 32 g.val then (1 : EReal) else 0 := by
  have hb : broadcastTo S5000x256 (shapeCast S5000x1 x1 shapeCasts_S5000x1_S5000x1) broadcasts_S5000x1_S5000x256 (ix2 r g)
      = x1 (ix2 r 0) := by
    rw [shapeCast_self]
    exact broadcastTo_apply x1 broadcasts_S5000x1_S5000x256 (ix2 r g) (ix2 r 0) (fun a => by fin_cases a <;> rfl)
  have hi : iota .tc S5000x256 32 [1] iota_S5000x256_d1_w32 (ix2 r g) = BitVec.ofNat 32 g.val :=
    iota_single_apply .tc S5000x256 32 1 iota_S5000x256_d1_w32 (ix2 r g)
  show FloatOps.sitofp (F := Ideal) .f32 ((IntOp.cmpi .eq
      (broadcastTo S5000x256 (shapeCast S5000x1 x1 shapeCasts_S5000x1_S5000x1) broadcasts_S5000x1_S5000x256 (ix2 r g))
      (iota .tc S5000x256 32 [1] iota_S5000x256_d1_w32 (ix2 r g))).setWidth 32) = _
  rw [hb, hi]
  by_cases hc : x1 (ix2 r 0) = BitVec.ofNat 32 g.val
  · rw [if_pos hc, hc]
    have e : (IntOp.cmpi .eq (BitVec.ofNat 32 g.val) (BitVec.ofNat 32 g.val)).setWidth 32 = 1#32 := by
      simp [IntOp.cmpi]
    rw [e]
    exact sitofp_word_one
  · rw [if_neg hc]
    have hf : (x1 (ix2 r 0) == BitVec.ofNat 32 g.val) = false := by simpa using hc
    have e : (IntOp.cmpi .eq (x1 (ix2 r 0)) (BitVec.ofNat 32 g.val)).setWidth 32 = 0#32 := by
      simp [IntOp.cmpi, hf]
    rw [e]
    exact sitofp_word_zero

/-! The sums' product contracts axis 0 of both operands: the one-hot matrix is read at `(k, g)`, the node block at `(k, j)`. -/

theorem lhsS_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhsS_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhsS_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhsS_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The sums' product into the zero accumulator, at `(g, j)`: the sum over the block's rows of one-hot times node entry. -/
theorem matmulS_apply (A : FVec Ideal S5000x256 .f32) (X : FVec Ideal S5000x64 .f32) (g : Fin 256) (j : Fin 64) :
    FloatOps.matmul dot_S5000x256_S5000x64_S256x64_0_0_1_1_n_n none A X (constant S256x64 .f32 0x00000000#32) (ix2 g j)
      = ∑ k : Fin 5000, A (ix2 k g) * X (ix2 k j) := by
  rw [Ideal.matmul_constant_zero_apply, ← Equiv.sum_comp (contrEquiv1 dot_S5000x256_S5000x64_S256x64_0_0_1_1_n_n 5000 rfl rfl).symm]
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g j) ((contrEquiv1 dot_S5000x256_S5000x64_S256x64_0_0_1_1_n_n 5000 rfl rfl).symm k) = ix2 k g :=
    funext fun a => Fin.ext (by
      match a with
      | ⟨0, _⟩ => exact (lhsS_0 _ _).trans hk
      | ⟨1, _⟩ => exact lhsS_1 _ _)
  have er : dot_S5000x256_S5000x64_S256x64_0_0_1_1_n_n.rhsIdx (ix2 g j) ((contrEquiv1 dot_S5000x256_S5000x64_S256x64_0_0_1_1_n_n 5000 rfl rfl).symm k) = ix2 k j :=
    funext fun a => Fin.ext (by
      match a with
      | ⟨0, _⟩ => exact (rhsS_0 _ _).trans hk
      | ⟨1, _⟩ => exact rhsS_1 _ _)
  rw [el, er]

/-! The counts' product likewise, against the column of ones. -/

theorem lhsC_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhsC_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl

/-- The counts' product into the zero accumulator, at `(g, 0)`: the sum over the block's rows of one-hot times the ones column. -/
theorem matmulC_apply (A : FVec Ideal S5000x256 .f32) (X : FVec Ideal S5000x1 .f32) (x : EReal) (hX : ∀ i, X i = x) (g : Fin 256) :
    FloatOps.matmul dot_S5000x256_S5000x1_S256x1_0_0_1_1_n_n none A X (constant S256x1 .f32 0x00000000#32) (ix2 g 0)
      = ∑ k : Fin 5000, A (ix2 k g) * x := by
  rw [Ideal.matmul_constant_zero_apply, ← Equiv.sum_comp (contrEquiv1 dot_S5000x256_S5000x1_S256x1_0_0_1_1_n_n 5000 rfl rfl).symm]
  refine Finset.sum_congr rfl fun k _ => ?_
  have hk := contrEquiv1_symm_val dot_S5000x256_S5000x1_S256x1_0_0_1_1_n_n 5000 rfl rfl k
  have el : dot_S5000x256_S5000x1_S256x1_0_0_1_1_n_n.lhsIdx (ix2 g 0) ((contrEquiv1 dot_S5000x256_S5000x1_S256x1_0_0_1_1_n_n 5000 rfl rfl).symm k) = ix2 k g :=
    funext fun a => Fin.ext (by
      match a with
      | ⟨0, _⟩ => exact (lhsC_0 _ _).trans hk
      | ⟨1, _⟩ => exact lhsC_1 _ _)
  rw [el, hX]

/-- The sums' payload at `(g, j)`: the accumulator there plus the block's rows whose id, read signed, is `g`. -/
theorem pay4_apply (x0 : Vec Ideal S5000x64 .f32) (x1 : Vec Ideal S5000x1 .i32) (acc : Vec Ideal S256x64 .f32)
    (g : Fin 256) (j : Fin 64) :
    k6_pay4 (F := Ideal) x0 x1 acc (ix2 g j)
      = acc (ix2 g j) + ∑ r : Fin 5000, if (x1 (ix2 r 0)).toInt = (g.val : ℤ) then x0 (ix2 r j) else 0 := by
  unfold k6_pay4
  simp only [shapeCast_self]
  refine (addf_apply _ _ _).trans ?_
  refine congrArg (acc (ix2 g j) + ·) ?_
  refine (matmulS_apply (k6_pay3 (F := Ideal) x1) x0 g j).trans ?_
  have e : ∀ r : Fin 5000, k6_pay3 (F := Ideal) x1 (ix2 r g) * x0 (ix2 r j)
      = (if (fun n : Fin 5000 => x1 (ix2 n 0)) r = BitVec.ofNat 32 g.val then (1 : EReal) else 0) * (fun n : Fin 5000 => x0 (ix2 n j)) r :=
    fun r => by rw [onehot_apply]
  rw [Finset.sum_congr rfl fun r _ => e r]
  exact Cert.LibScatterRows.sum_onehot_mul (fun n : Fin 5000 => x1 (ix2 n 0)) g (fun n : Fin 5000 => x0 (ix2 n j))

/-- The counts' payload at `(g, 0)`: the accumulator there plus one for each of the block's rows whose id is `g`. -/
theorem pay5_apply (x1 : Vec Ideal S5000x1 .i32) (acc : Vec Ideal S256x1 .f32) (g : Fin 256) :
    k6_pay5 (F := Ideal) x1 acc (ix2 g 0)
      = acc (ix2 g 0) + ∑ r : Fin 5000, if (x1 (ix2 r 0)).toInt = (g.val : ℤ) then Cert.Spec.one else 0 := by
  unfold k6_pay5
  simp only [shapeCast_self]
  refine (addf_apply _ _ _).trans ?_
  refine congrArg (acc (ix2 g 0) + ·) ?_
  refine (matmulC_apply (k6_pay3 (F := Ideal) x1) _ Cert.Spec.one (fun _ => rfl) g).trans ?_
  have e : ∀ r : Fin 5000, k6_pay3 (F := Ideal) x1 (ix2 r g) * Cert.Spec.one
      = (if (fun n : Fin 5000 => x1 (ix2 n 0)) r = BitVec.ofNat 32 g.val then (1 : EReal) else 0) * (fun _ : Fin 5000 => Cert.Spec.one) r :=
    fun r => by rw [onehot_apply]
  rw [Finset.sum_congr rfl fun r _ => e r]
  exact Cert.LibScatterRows.sum_onehot_mul (fun n : Fin 5000 => x1 (ix2 n 0)) g (fun _ : Fin 5000 => Cert.Spec.one)

/-- The zero blocks the first point stores read 0 everywhere. -/
theorem pay1_apply (i : S256x64.Idx) : k6_pay1 (F := Ideal) i = 0 := Ideal.ofBits_zero_f32
theorem pay2_apply (i : S256x1.Idx) : k6_pay2 (F := Ideal) i = 0 := Ideal.ofBits_zero_f32

end Values

variable (V : (c : Dev nD) → (b : Ref sig .tc) → Buf (Elt Ideal) ((c : Thread nD τ).loc b))

/-! ## The arrays, their blocks, and the running contents of the two accumulators -/

/-- The node array and the id column as the call finds them. -/
abbrev harr (c : Dev nD) : Vec Ideal Cert.Spec.SNxH .f32 := V c (Pipeline.arrRef spec6 0)
abbrev barr (c : Dev nD) : Vec Ideal Cert.Spec.SNx1 .i32 := V c (Pipeline.arrRef spec6 1)
/-- Their blocks of 5000 rows at point `t`. -/
abbrev hblk (c : Dev nD) (t : Fin cfg6.N) : Vec Ideal S5000x64 .f32 := iblk6 V c 0 t
abbrev bblk (c : Dev nD) (t : Fin cfg6.N) : Vec Ideal S5000x1 .i32 := iblk6 V c 1 t

/-- Both input windows walk the rows block by block and stay at column block 0. -/
theorem idx_facts : ∀ t : Fin cfg6.N, win6_0.index t 0 = t.val ∧ win6_0.index t 1 = 0
    ∧ win6_1.index t 0 = t.val ∧ win6_1.index t 1 = 0 :=
  (by decide +kernel : ∀ t : Fin grid6.N, win6_0.index t 0 = t.val ∧ win6_0.index t 1 = 0
    ∧ win6_1.index t 0 = t.val ∧ win6_1.index t 1 = 0)

/-- Row `r` of block `t` of the node array is its row `5000 t + r`. -/
theorem hblk_apply (c : Dev nD) (t : Fin cfg6.N) (r : Fin 5000) (j : Fin 64) (hn : 5000 * t.val + r.val < 100000) :
    hblk V c t (ix2 r j) = harr V c (ix2 ⟨5000 * t.val + r.val, hn⟩ j) := by
  show iblk6 V c 0 t (ix2 r j) = _
  unfold iblk6
  rw [View.read_apply]
  show V c (Pipeline.arrRef spec6 0) _ = V c (Pipeline.arrRef spec6 0) _
  congr 1
  funext a
  apply Fin.ext
  match a with
  | ⟨0, _⟩ => show win6_0.index t 0 * 5000 + 1 * r.val = 5000 * t.val + r.val; rw [(idx_facts t).1]; omega
  | ⟨1, _⟩ => show win6_0.index t 1 * 64 + 1 * j.val = j.val; rw [(idx_facts t).2.1]; omega

/-- Row `r` of block `t` of the id column is its row `5000 t + r`. -/
theorem bblk_apply (c : Dev nD) (t : Fin cfg6.N) (r : Fin 5000) (hn : 5000 * t.val + r.val < 100000) :
    bblk V c t (ix2 r 0) = barr V c (ix2 ⟨5000 * t.val + r.val, hn⟩ 0) := by
  show iblk6 V c 1 t (ix2 r 0) = _
  unfold iblk6
  rw [View.read_apply]
  show V c (Pipeline.arrRef spec6 1) _ = V c (Pipeline.arrRef spec6 1) _
  congr 1
  funext a
  apply Fin.ext
  match a with
  | ⟨0, _⟩ => show win6_1.index t 0 * 5000 + 1 * r.val = 5000 * t.val + r.val; rw [(idx_facts t).2.2.1]; omega
  | ⟨1, _⟩ => show win6_1.index t 1 * 1 + 1 * 0 = 0; rw [(idx_facts t).2.2.2]

/-- At the first point the accumulators are left at the zero blocks plus the first block's contribution. -/
theorem outs_first (c : Dev nD) (t : Fin cfg6.N) (h0 : t.val % 20 = 0) :
    outsAt6 V c t.val t.isLt
      = (k6_pay4 (F := Ideal) (hblk V c t) (bblk V c t) (k6_pay1 (F := Ideal)),
         k6_pay5 (F := Ideal) (bblk V c t) (k6_pay2 (F := Ideal))) := by
  rw [outsAt6_A V c t h0]
  exact congrArg₂ Prod.mk
    (out_A_2 (F := Ideal) c (grid6.coords t) (ms6_0 t) (hs6_0 t) (ms6_1 t) (hs6_1 t) (ms6_2 t) (hs6_2 t) (ms6_3 t) (hs6_3 t)
      ((hcond6_0 t).mpr h0) (hblk V c t) (bblk V c t))
    (out_A_3 (F := Ideal) c (grid6.coords t) (ms6_0 t) (hs6_0 t) (ms6_1 t) (hs6_1 t) (ms6_2 t) (hs6_2 t) (ms6_3 t) (hs6_3 t)
      ((hcond6_0 t).mpr h0) (hblk V c t) (bblk V c t))

/-- At every later point they are what the point before left plus this block's contribution. -/
theorem outs_next (c : Dev nD) (t : Fin cfg6.N) (h0 : ¬t.val % 20 = 0) :
    outsAt6 V c t.val t.isLt
      = (k6_pay4 (F := Ideal) (hblk V c t) (bblk V c t)
           (outsAt6 V c (t.val - 1) (Nat.lt_of_le_of_lt (Nat.sub_le _ _) t.isLt)).1,
         k6_pay5 (F := Ideal) (bblk V c t)
           (outsAt6 V c (t.val - 1) (Nat.lt_of_le_of_lt (Nat.sub_le _ _) t.isLt)).2) := by
  rw [outsAt6_B V c t h0]
  exact congrArg₂ Prod.mk
    (out_B_2 (F := Ideal) c (grid6.coords t) (ms6_0 t) (hs6_0 t) (ms6_1 t) (hs6_1 t) (ms6_2 t) (hs6_2 t) (ms6_3 t) (hs6_3 t)
      (fun h => h0 ((hcond6_0 t).mp h)) (hblk V c t) (bblk V c t)
      (outsAt6 V c (t.val - 1) (Nat.lt_of_le_of_lt (Nat.sub_le _ _) t.isLt)).1
      (outsAt6 V c (t.val - 1) (Nat.lt_of_le_of_lt (Nat.sub_le _ _) t.isLt)).2)
    (out_B_3 (F := Ideal) c (grid6.coords t) (ms6_0 t) (hs6_0 t) (ms6_1 t) (hs6_1 t) (ms6_2 t) (hs6_2 t) (ms6_3 t) (hs6_3 t)
      (fun h => h0 ((hcond6_0 t).mp h)) (hblk V c t) (bblk V c t)
      (outsAt6 V c (t.val - 1) (Nat.lt_of_le_of_lt (Nat.sub_le _ _) t.isLt)).1
      (outsAt6 V c (t.val - 1) (Nat.lt_of_le_of_lt (Nat.sub_le _ _) t.isLt)).2)

/-- Block `s`'s contribution to entry `(g, j)` of the sums: its rows whose id, read signed, is `g`. -/
def bsum (c : Dev nD) (g : Fin 256) (j : Fin 64) (s : ℕ) : EReal :=
  if hs : s < cfg6.N then
    ∑ r : Fin 5000, if (bblk V c ⟨s, hs⟩ (ix2 r 0)).toInt = (g.val : ℤ) then hblk V c ⟨s, hs⟩ (ix2 r j) else 0
  else 0

/-- Block `s`'s contribution to entry `(g, 0)` of the counts. -/
def bcnt (c : Dev nD) (g : Fin 256) (s : ℕ) : EReal :=
  if hs : s < cfg6.N then
    ∑ r : Fin 5000, if (bblk V c ⟨s, hs⟩ (ix2 r 0)).toInt = (g.val : ℤ) then Cert.Spec.one else 0
  else 0

/-- After point `n` the accumulators hold the contributions of blocks `0 … n`: by induction on the point. -/
theorem outsAt_eq (c : Dev nD) : ∀ (n : ℕ) (h : n < cfg6.N),
    (∀ (g : Fin 256) (j : Fin 64), (outsAt6 V c n h).1 (ix2 g j) = ∑ s ∈ Finset.range (n + 1), bsum V c g j s)
    ∧ (∀ g : Fin 256, (outsAt6 V c n h).2 (ix2 g 0) = ∑ s ∈ Finset.range (n + 1), bcnt V c g s)
  | 0, h => by
    have e : outsAt6 V c 0 h = _ := outs_first V c ⟨0, h⟩ (Nat.zero_mod 20)
    rw [e]
    constructor
    · intro g j
      show k6_pay4 (F := Ideal) (hblk V c ⟨0, h⟩) (bblk V c ⟨0, h⟩) (k6_pay1 (F := Ideal)) (ix2 g j) = _
      rw [pay4_apply, pay1_apply, zero_add, Finset.sum_range_one]
      unfold bsum
      rw [dif_pos h]
    · intro g
      show k6_pay5 (F := Ideal) (bblk V c ⟨0, h⟩) (k6_pay2 (F := Ideal)) (ix2 g 0) = _
      rw [pay5_apply, pay2_apply, zero_add, Finset.sum_range_one]
      unfold bcnt
      rw [dif_pos h]
  | n + 1, h => by
    have hN : n + 1 < 20 := lt_of_lt_of_eq h (show cfg6.N = 20 from N_6)
    have hB : ¬(⟨n + 1, h⟩ : Fin cfg6.N).val % 20 = 0 := by dsimp only; omega
    have ih := outsAt_eq c n (Nat.lt_of_succ_lt h)
    have e : outsAt6 V c (n + 1) h
        = (k6_pay4 (F := Ideal) (hblk V c ⟨n + 1, h⟩) (bblk V c ⟨n + 1, h⟩) (outsAt6 V c n (Nat.lt_of_succ_lt h)).1,
           k6_pay5 (F := Ideal) (bblk V c ⟨n + 1, h⟩) (outsAt6 V c n (Nat.lt_of_succ_lt h)).2) :=
      outs_next V c ⟨n + 1, h⟩ hB
    rw [e]
    constructor
    · intro g j
      show k6_pay4 (F := Ideal) (hblk V c ⟨n + 1, h⟩) (bblk V c ⟨n + 1, h⟩) (outsAt6 V c n (Nat.lt_of_succ_lt h)).1 (ix2 g j) = _
      rw [pay4_apply, ih.1 g j, Finset.sum_range_succ _ (n + 1)]
      congr 1
      unfold bsum
      rw [dif_pos h]
    · intro g
      show k6_pay5 (F := Ideal) (bblk V c ⟨n + 1, h⟩) (outsAt6 V c n (Nat.lt_of_succ_lt h)).2 (ix2 g 0) = _
      rw [pay5_apply, ih.2 g, Finset.sum_range_succ _ (n + 1)]
      congr 1
      unfold bcnt
      rw [dif_pos h]

/-! ## From the twenty blocks to the 100000 rows -/

/-- Row `r` of block `t` as a row of the whole arrays. -/
def rowOf (t : Fin 20) (r : Fin 5000) : Fin 100000 :=
  ⟨5000 * t.val + r.val, by have := t.isLt; have := r.isLt; omega⟩

/-- Row `n` is row `n % 5000` of block `n / 5000`. -/
theorem rowOf_div_mod (n : Fin 100000) :
    rowOf ⟨n.val / 5000, by have := n.isLt; omega⟩ ⟨n.val % 5000, by omega⟩ = n :=
  Fin.ext (Nat.div_add_mod n.val 5000)

/-- The contributions of the twenty blocks to the sums are the per-graph sum over all rows. -/
theorem sum_bsum (c : Dev nD) (g : Fin 256) (j : Fin 64) :
    ∑ s ∈ Finset.range 20, bsum V c g j s = Cert.Spec.segSum (harr V c) (barr V c) (ix2 g j) := by
  have hN : cfg6.N = 20 := N_6
  have e : ∀ t : Fin 20, bsum V c g j t.val
      = ∑ r : Fin 5000, (if (barr V c (ix2 (rowOf t r) 0)).toInt = (g.val : ℤ) then harr V c (ix2 (rowOf t r) j) else 0) := by
    intro t
    have ht : t.val < cfg6.N := lt_of_lt_of_eq t.isLt hN.symm
    unfold bsum
    rw [dif_pos ht]
    refine Finset.sum_congr rfl fun r _ => ?_
    rw [bblk_apply V c ⟨t.val, ht⟩ r (rowOf t r).isLt, hblk_apply V c ⟨t.val, ht⟩ r j (rowOf t r).isLt]
    rfl
  rw [← Fin.sum_univ_eq_sum_range (fun s => bsum V c g j s) 20, Finset.sum_congr rfl fun t _ => e t]
  refine (Cert.LibScatterRows.sum_blocks_20_5000 (fun t r =>
    if (barr V c (ix2 (rowOf t r) 0)).toInt = (g.val : ℤ) then harr V c (ix2 (rowOf t r) j) else 0)).trans ?_
  unfold Cert.Spec.segSum
  refine Finset.sum_congr rfl fun n _ => ?_
  dsimp only
  rw [rowOf_div_mod]

/-- Likewise the counts. -/
theorem sum_bcnt (c : Dev nD) (g : Fin 256) :
    ∑ s ∈ Finset.range 20, bcnt V c g s = Cert.Spec.segCnt (barr V c) (ix2 g 0) := by
  have hN : cfg6.N = 20 := N_6
  have e : ∀ t : Fin 20, bcnt V c g t.val
      = ∑ r : Fin 5000, (if (barr V c (ix2 (rowOf t r) 0)).toInt = (g.val : ℤ) then Cert.Spec.one else 0) := by
    intro t
    have ht : t.val < cfg6.N := lt_of_lt_of_eq t.isLt hN.symm
    unfold bcnt
    rw [dif_pos ht]
    refine Finset.sum_congr rfl fun r _ => ?_
    rw [bblk_apply V c ⟨t.val, ht⟩ r (rowOf t r).isLt]
    rfl
  rw [← Fin.sum_univ_eq_sum_range (fun s => bcnt V c g s) 20, Finset.sum_congr rfl fun t _ => e t]
  refine (Cert.LibScatterRows.sum_blocks_20_5000 (fun t r =>
    if (barr V c (ix2 (rowOf t r) 0)).toInt = (g.val : ℤ) then Cert.Spec.one else 0)).trans ?_
  unfold Cert.Spec.segCnt
  refine Finset.sum_congr rfl fun n _ => ?_
  dsimp only
  rw [rowOf_div_mod]

/-- So after the last point the sums' accumulator holds the per-graph sums, -/
theorem result_sum (c : Dev nD) (h : 19 < cfg6.N) :
    (outsAt6 V c 19 h).1 = Cert.Spec.segSum (harr V c) (barr V c) := by
  funext i
  obtain ⟨g, j, rfl⟩ : ∃ g j, i = ix2 g j := ⟨i 0, i 1, eq_ix2 i⟩
  rw [(outsAt_eq V c 19 h).1 g j]
  exact sum_bsum V c g j

/-- and the counts' accumulator the per-graph counts. -/
theorem result_cnt (c : Dev nD) (h : 19 < cfg6.N) :
    (outsAt6 V c 19 h).2 = Cert.Spec.segCnt (barr V c) := by
  funext i
  obtain ⟨g, j, rfl⟩ : ∃ g j, i = ix2 g j := ⟨i 0, i 1, eq_ix2 i⟩
  obtain rfl : j = 0 := Subsingleton.elim _ _
  rw [(outsAt_eq V c 19 h).2 g]
  exact sum_bcnt V c g

/-! ## The write-back at the last point, and the arrays after the call -/

/-- The last point, the only one that writes the accumulators back. -/
abbrev tLast : Fin cfg6.N := ⟨19, by rw [show cfg6.N = 20 from N_6]; decide⟩

/-- Both output windows sit at block (0, 0) at every point. -/
theorem out_idx_facts : ∀ t : Fin cfg6.N, win6_2.index t 0 = 0 ∧ win6_2.index t 1 = 0
    ∧ win6_3.index t 0 = 0 ∧ win6_3.index t 1 = 0 :=
  (by decide +kernel : ∀ t : Fin grid6.N, win6_2.index t 0 = 0 ∧ win6_2.index t 1 = 0
    ∧ win6_3.index t 0 = 0 ∧ win6_3.index t 1 = 0)

/-- The one write-back of the sums writes the per-graph sums: the block, read at zero offsets, is the whole array. -/
theorem flushed_sum (c : Dev nD) (t : Fin cfg6.N) (hf : (cfg6.win 2).flush t = true) :
    (dat6 (F := Ideal) V c).flushed 2 t
      = ((cfg6.win 2).blk t).view.read (Elt Ideal) (Cert.Spec.segSum (harr V c) (barr V c)) := by
  have hN : cfg6.N = 20 := N_6
  have hlt : t.val < 20 := lt_of_lt_of_eq t.isLt hN
  have h19 : t.val = 19 := by have := (flush6_2 t).mp hf; omega
  obtain rfl : t = tLast := Fin.ext h19
  show (cfg6.win 2).cut (grid6.coords tLast) ((dat6 (F := Ideal) V c).after 2 tLast) = _
  rw [after6_2, result_sum V c tLast.isLt]
  have hz' : (fun a => win6_2.index tLast a * main_v63_0.ty.shape.size a) = fun _ => 0 := funext fun a => by
    match a with
    | ⟨0, _⟩ => show win6_2.index tLast 0 * _ = 0; rw [(out_idx_facts tLast).1, Nat.zero_mul]
    | ⟨1, _⟩ => show win6_2.index tLast 1 * _ = 0; rw [(out_idx_facts tLast).2.1, Nat.zero_mul]
  exact (Memref.read_access_unit_zero (Elt Ideal) main_v63_0 hz' (fun a => by rw [congrFun hz' a]; simp)
    (Cert.Spec.segSum (harr V c) (barr V c))).symm

/-- The one write-back of the counts writes the per-graph counts. -/
theorem flushed_cnt (c : Dev nD) (t : Fin cfg6.N) (hf : (cfg6.win 3).flush t = true) :
    (dat6 (F := Ideal) V c).flushed 3 t
      = ((cfg6.win 3).blk t).view.read (Elt Ideal) (Cert.Spec.segCnt (barr V c)) := by
  have hN : cfg6.N = 20 := N_6
  have hlt : t.val < 20 := lt_of_lt_of_eq t.isLt hN
  have h19 : t.val = 19 := by have := (flush6_3 t).mp hf; omega
  obtain rfl : t = tLast := Fin.ext h19
  show (cfg6.win 3).cut (grid6.coords tLast) ((dat6 (F := Ideal) V c).after 3 tLast) = _
  rw [after6_3, result_cnt V c tLast.isLt]
  have hz' : (fun a => win6_3.index tLast a * main_v63_1.ty.shape.size a) = fun _ => 0 := funext fun a => by
    match a with
    | ⟨0, _⟩ => show win6_3.index tLast 0 * _ = 0; rw [(out_idx_facts tLast).2.2.1, Nat.zero_mul]
    | ⟨1, _⟩ => show win6_3.index tLast 1 * _ = 0; rw [(out_idx_facts tLast).2.2.2, Nat.zero_mul]
  exact (Memref.read_access_unit_zero (Elt Ideal) main_v63_1 hz' (fun a => by rw [congrFun hz' a]; simp)
    (Cert.Spec.segCnt (barr V c))).symm

/-- The last point's block of the sums covers the whole `[256, 64]` array. -/
theorem cover_sum (c : Dev nD) (i : ((cfg6.win 2).arr.view.loc (c.tc : Thread nD τ)).2.ty.Idx) :
    ∃ t : Fin cfg6.N, (cfg6.win 2).flush t = true ∧ i ∈ ((cfg6.win 2).blk t).view.set := by
  refine ⟨tLast, (flush6_2 tLast).mpr rfl, ?_⟩
  show i ∈ ((View.whole main_v63_0).slice (win6_2.rect tLast)).set
  rw [View.set_slice_whole, Rect.mem_set_unit]
  intro a
  have h0 : (i 0 : Nat) < 256 := (i 0).isLt
  have h1 : (i 1 : Nat) < 64 := (i 1).isLt
  match a with
  | ⟨0, _⟩ =>
    show win6_2.index tLast 0 * win6_2.size 0 ≤ (i 0 : Nat) ∧ (i 0 : Nat) < win6_2.index tLast 0 * win6_2.size 0 + win6_2.xsize (grid6.coords tLast) 0
    rw [(out_idx_facts tLast).1, show win6_2.xsize (grid6.coords tLast) 0 = 256 from by decide +kernel]; omega
  | ⟨1, _⟩ =>
    show win6_2.index tLast 1 * win6_2.size 1 ≤ (i 1 : Nat) ∧ (i 1 : Nat) < win6_2.index tLast 1 * win6_2.size 1 + win6_2.xsize (grid6.coords tLast) 1
    rw [(out_idx_facts tLast).2.1, show win6_2.xsize (grid6.coords tLast) 1 = 64 from by decide +kernel]; omega

/-- The last point's block of the counts covers the whole `[256, 1]` array. -/
theorem cover_cnt (c : Dev nD) (i : ((cfg6.win 3).arr.view.loc (c.tc : Thread nD τ)).2.ty.Idx) :
    ∃ t : Fin cfg6.N, (cfg6.win 3).flush t = true ∧ i ∈ ((cfg6.win 3).blk t).view.set := by
  refine ⟨tLast, (flush6_3 tLast).mpr rfl, ?_⟩
  show i ∈ ((View.whole main_v63_1).slice (win6_3.rect tLast)).set
  rw [View.set_slice_whole, Rect.mem_set_unit]
  intro a
  have h0 : (i 0 : Nat) < 256 := (i 0).isLt
  have h1 : (i 1 : Nat) < 1 := (i 1).isLt
  match a with
  | ⟨0, _⟩ =>
    show win6_3.index tLast 0 * win6_3.size 0 ≤ (i 0 : Nat) ∧ (i 0 : Nat) < win6_3.index tLast 0 * win6_3.size 0 + win6_3.xsize (grid6.coords tLast) 0
    rw [(out_idx_facts tLast).2.2.1, show win6_3.xsize (grid6.coords tLast) 0 = 256 from by decide +kernel]; omega
  | ⟨1, _⟩ =>
    show win6_3.index tLast 1 * win6_3.size 1 ≤ (i 1 : Nat) ∧ (i 1 : Nat) < win6_3.index tLast 1 * win6_3.size 1 + win6_3.xsize (grid6.coords tLast) 1
    rw [(out_idx_facts tLast).2.2.2, show win6_3.xsize (grid6.coords tLast) 1 = 1 from by decide +kernel]; omega

/-- After the pooling call its first output array holds the per-graph sums of its node array by its id column. -/
theorem arr_sum (c : Dev nD) :
    (dat6 (F := Ideal) V c).arrAt 2 cfg6.N = Cert.Spec.segSum (V c (Pipeline.arrRef spec6 0)) (V c (Pipeline.arrRef spec6 1)) :=
  (dat6 (F := Ideal) V c).arrAt_eq_of_cover 2 (Cert.Spec.segSum (harr V c) (barr V c)) (flushed_sum V c) (cover_sum c)

/-- And its second output array the per-graph node counts. -/
theorem arr_cnt (c : Dev nD) :
    (dat6 (F := Ideal) V c).arrAt 3 cfg6.N = Cert.Spec.segCnt (V c (Pipeline.arrRef spec6 1)) :=
  (dat6 (F := Ideal) V c).arrAt_eq_of_cover 3 (Cert.Spec.segCnt (barr V c)) (flushed_cnt V c) (cover_cnt c)

end Cert.KernelIdeal.R6

end
-- ==== Proof.RefPool.lean ====
import proofs.«428605_j28329604284558_1_alg».proof.Proof.RefStages
import proofs.«428605_j28329604284558_1_alg».proof.Proof.Spec
import proofs.«428605_j28329604284558_1_alg».proof.Proof.LibScatterRows
import Idealize.ShloMosaic.Lib.Pipeline.Value
import Idealize.ShloMosaic.Lib.ValueIdx
import Idealize.ShloMosaic.PureOps.Ideal.Laws

noncomputable section

namespace Cert.ReferenceIdeal.BridgePool

open Cert.ReferenceIdeal Cert.ReferenceIdeal.Gen Cert.ReferenceIdeal.Stages
open Idealize.ShloMosaic Idealize.ShloMosaic.TcCoe Idealize.ShloMosaic.ValueIdx Idealize.SL.Sem

variable (x0 : (⟨S100000x1, .i32⟩ : BufTy).Contents (Elt Ideal)) (x1 : (⟨S2x1000000, .i32⟩ : BufTy).Contents (Elt Ideal))
  (x3 : (⟨S100000, .i32⟩ : BufTy).Contents (Elt Ideal)) (x4 : (⟨S100x64, .f32⟩ : BufTy).Contents (Elt Ideal))
  (x7 : (⟨S3x64x64, .f32⟩ : BufTy).Contents (Elt Ideal)) (x8 x9 : (⟨S3x192x64, .f32⟩ : BufTy).Contents (Elt Ideal))
  (x10 x11 : (⟨S3x192, .f32⟩ : BufTy).Contents (Elt Ideal))

/-- The reference's per-graph sums: the scatter-add of the last layer's rows by the graph-id column into zeros. -/
theorem sums : val_main_v199 (F := Ideal) x0 x1 x3 x4 x7 x8 x9 x10 x11
    = Cert.Spec.segSum (val_main_v196 (F := Ideal) x0 x1 x4 x7 x8 x9 x10 x11) (val_main_v198 (F := Ideal) x3) := by
  funext i
  obtain ⟨g, j, rfl⟩ : ∃ (g : Fin 256) (j : Fin 64), i = ix2 g j := ⟨i 0, i 1, eq_ix2 i⟩
  unfold val_main_v199
  refine (Cert.LibScatterRows.hostScatterAdd_rows scatter_S256x64_S100000x1_S100000x64_1_0_0_1 rfl rfl rfl rfl
    _ _ _ g j).trans ?_
  -- the operand is the zero array, so only the sum over the rows remains
  have hz : val_main_v197 (F := Ideal) (ix2 g j) = 0 := by
    rw [val_main_v197_apply, val_main_cst_24_apply]
    exact Ideal.ofBits_zero_f32
  rw [hz, zero_add]
  rfl

/-- The reference's per-graph counts: the scatter-add of ones by the graph-id column into zeros. -/
theorem counts : val_main_v203 (F := Ideal) x3 = Cert.Spec.segCnt (val_main_v202 (F := Ideal) x3) := by
  funext i
  obtain ⟨g, j, rfl⟩ : ∃ (g : Fin 256) (j : Fin 1), i = ix2 g j := ⟨i 0, i 1, eq_ix2 i⟩
  unfold val_main_v203
  refine (Cert.LibScatterRows.hostScatterAdd_rows scatter_S256x1_S100000x1_S100000x1_1_0_0_1 rfl rfl rfl rfl
    _ _ _ g j).trans ?_
  -- the operand is the zero array, and every update is the float 1.0
  have hz : val_main_v201 (F := Ideal) (ix2 g j) = 0 := by
    rw [val_main_v201_apply, val_main_cst_26_apply]
    exact Ideal.ofBits_zero_f32
  rw [hz, zero_add]
  unfold Cert.Spec.segCnt
  refine Finset.sum_congr rfl fun n _ => ?_
  have hu : val_main_v200 (F := Ideal) (ix2 n j) = Cert.Spec.one := by
    rw [val_main_v200_apply, val_main_cst_25_apply]
    rfl
  rw [hu]

end Cert.ReferenceIdeal.BridgePool

end
-- ==== Proof.KPool.lean ====
import proofs.«428605_j28329604284558_1_alg».proof.Proof.KCarried
import proofs.«428605_j28329604284558_1_alg».proof.Proof.Region6
import proofs.«428605_j28329604284558_1_alg».proof.Proof.RefPool
import proofs.«428605_j28329604284558_1_alg».proof.Proof.Layout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages

variable (m : (ℓ : Loc nD τ sig) → Buf (Elt Ideal) ℓ) (ρ : Dev nD → PrngReg) (c : Dev nD)

/-- The stretch before the pooling call reshapes the graph-id vector to a column: the reference's column. -/
theorem col_of_stretch (V : Valuation τ sig (Elt Ideal)) (x : (⟨S100000, .i32⟩ : BufTy).Contents (Elt Ideal))
    (h : V (Proc.devRef .tc main_arg3) = x) :
    StableHlo.after hostOps6 V (Proc.devRef .tc main_v62) = val_main_v198 (F := Ideal) x := by
  dsimp only [hostOps6]
  after_results_simp
  rw [h]
  exact Cert.Layout.batch_col x

/-- After the pooling call its two output buffers hold the reference's per-graph sums and counts. -/
theorem pool (hin : W17 m ρ c (Proc.devRef .tc main_v61) = val_main_v196 (F := Ideal) (a0 m c) (a1 m c) (a4 m c) (a7 m c) (a8 m c) (a9 m c) (a10 m c) (a11 m c)) (hc : Carried m c (W17 m ρ c)) :
    W19 m ρ c (Proc.devRef .tc main_v63_0) = val_main_v199 (F := Ideal) (a0 m c) (a1 m c) (a3 m c) (a4 m c) (a7 m c) (a8 m c) (a9 m c) (a10 m c) (a11 m c)
      ∧ W19 m ρ c (Proc.devRef .tc main_v63_1) = val_main_v203 (F := Ideal) (a3 m c) := by
  have h61 : W18 m ρ c (Proc.devRef .tc main_v61)
      = val_main_v196 (F := Ideal) (a0 m c) (a1 m c) (a4 m c) (a7 m c) (a8 m c) (a9 m c) (a10 m c) (a11 m c) :=
    (keep18 m ρ c main_v61 (by not_written hostOps6)).trans hin
  have h62 : W18 m ρ c (Proc.devRef .tc main_v62) = val_main_v198 (F := Ideal) (a3 m c) :=
    col_of_stretch (W17 m ρ c) (a3 m c) hc.arg3
  constructor
  · refine (W19_arr m ρ c 2).trans ?_
    refine (Cert.KernelIdeal.R6.arr_sum (V18 m ρ) c).trans ?_
    refine Eq.trans ?_ (Cert.ReferenceIdeal.BridgePool.sums (a0 m c) (a1 m c) (a3 m c) (a4 m c) (a7 m c) (a8 m c) (a9 m c)
      (a10 m c) (a11 m c)).symm
    exact congrArg₂ Cert.Spec.segSum h61 h62
  · refine (W19_arr m ρ c 3).trans ?_
    refine (Cert.KernelIdeal.R6.arr_cnt (V18 m ρ) c).trans ?_
    refine Eq.trans ?_ (Cert.ReferenceIdeal.BridgePool.counts (a3 m c)).symm
    exact congrArg Cert.Spec.segCnt h62

end Cert.KernelIdeal.Chain

end
-- ==== Proof.KTail.lean ====
/-
  The read-out of the program, followed through its last five stretches of host operations. From the pooled sums S
  [256, 64] and the node counts C [256, 1] the program takes the mean S / max(C, 1), then three dense layers
  X ↦ X · Wᵀ + b (64 → 32 → 16 → 1) with the rectifier max(·, 0) after the first two, and reshapes the [256, 1] result
  to [256]. Each stretch is read once over arbitrary buffer contents as the composed operations of what it reads; the
  six weight and bias arguments are unchanged since the launch; the composed terms are, operation for operation, the
  reference's last stages.
-/
import proofs.«428605_j28329604284558_1_alg».proof.Proof.KCarried

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages

variable (m : (ℓ : Loc nD τ sig) → Buf (Elt Ideal) ℓ) (ρ : Dev nD → PrngReg) (c : Dev nD)

/-! ## The five stretches, each over any buffer contents -/

/-- The mean and the first dense layer: from the pooled sums `S` and counts `C`, (S / max(C, 1)) · W₁ᵀ + b₁. -/
theorem stretch_mean_dense (V : Valuation τ sig (Elt Ideal))
    (S : FVec Ideal S256x64 .f32) (C : FVec Ideal S256x1 .f32) (x12 : FVec Ideal S32x64 .f32) (x13 : FVec Ideal S32 .f32)
    (hs : V (Proc.devRef .tc main_v63_0) = S) (hc : V (Proc.devRef .tc main_v63_1) = C)
    (h12 : V (Proc.devRef .tc main_arg12) = x12) (h13 : V (Proc.devRef .tc main_arg13) = x13) :
    StableHlo.after hostOps7 V (Proc.devRef .tc main_v72)
      = (addf
          (Host.dotGeneral dot_S256x64_S64x32_S256x32_1_0_0_1_n_n none
            (Host.divf S
              (broadcastInDim S256x64 ![0, 1] bcast_S256x1_S256x64_0_1
                (maximumf C (broadcastInDim S256x1 ![] bcast_S_S256x1 (constant (F := Ideal) S_ .f32 0x3F800000#32)))))
            (transpose S64x32 [1, 0] x12 transposes_S32x64_S64x32_1_0))
          (broadcastInDim S256x32 ![0, 1] bcast_S1x32_S256x32_0_1 (broadcastInDim S1x32 ![1] bcast_S32_S1x32_1 x13)) : FVec Ideal S256x32 .f32) := by
  dsimp only [hostOps7]
  after_results_simp
  rw [hs, hc, h12, h13]

/-- The first rectifier. -/
theorem stretch_relu_a (V : Valuation τ sig (Elt Ideal)) (X : FVec Ideal S256x32 .f32)
    (hx : V (Proc.devRef .tc main_v72) = X) :
    StableHlo.after hostOps7_1 V (Proc.devRef .tc main_v73)
      = (maximumf X (broadcastInDim S256x32 ![] bcast_S_S256x32 (constant (F := Ideal) S_ .f32 0x00000000#32)) : FVec Ideal S256x32 .f32) := by
  dsimp only [hostOps7_1]
  after_results_simp
  rw [hx]
  rfl

/-- The second dense layer: X · W₂ᵀ + b₂. -/
theorem stretch_dense_b (V : Valuation τ sig (Elt Ideal)) (X : FVec Ideal S256x32 .f32) (x14 : FVec Ideal S16x32 .f32) (x15 : FVec Ideal S16 .f32)
    (hx : V (Proc.devRef .tc main_v73) = X)
    (h14 : V (Proc.devRef .tc main_arg14) = x14) (h15 : V (Proc.devRef .tc main_arg15) = x15) :
    StableHlo.after hostOps7_2 V (Proc.devRef .tc main_v78)
      = (addf
          (Host.dotGeneral dot_S256x32_S32x16_S256x16_1_0_0_1_n_n none X (transpose S32x16 [1, 0] x14 transposes_S16x32_S32x16_1_0))
          (broadcastInDim S256x16 ![0, 1] bcast_S1x16_S256x16_0_1 (broadcastInDim S1x16 ![1] bcast_S16_S1x16_1 x15)) : FVec Ideal S256x16 .f32) := by
  dsimp only [hostOps7_2]
  after_results_simp
  rw [hx, h14, h15]

/-- The second rectifier. -/
theorem stretch_relu_b (V : Valuation τ sig (Elt Ideal)) (X : FVec Ideal S256x16 .f32)
    (hx : V (Proc.devRef .tc main_v78) = X) :
    StableHlo.after hostOps7_3 V (Proc.devRef .tc main_v79)
      = (maximumf X (broadcastInDim S256x16 ![] bcast_S_S256x16 (constant (F := Ideal) S_ .f32 0x00000000#32)) : FVec Ideal S256x16 .f32) := by
  dsimp only [hostOps7_3]
  after_results_simp
  rw [hx]
  rfl

/-- The last dense layer and the final reshape. -/
theorem stretch_dense_c (V : Valuation τ sig (Elt Ideal)) (X : FVec Ideal S256x16 .f32) (x16 : FVec Ideal S1x16 .f32) (x17 : FVec Ideal S1 .f32)
    (hx : V (Proc.devRef .tc main_v79) = X)
    (h16 : V (Proc.devRef .tc main_arg16) = x16) (h17 : V (Proc.devRef .tc main_arg17) = x17) :
    StableHlo.after hostOps7_4 V (Proc.devRef .tc main_v85)
      = (shapeCast S256 (addf
          (Host.dotGeneral dot_S256x16_S16x1_S256x1_1_0_0_1_n_n none X (transpose S16x1 [1, 0] x16 transposes_S1x16_S16x1_1_0))
          (broadcastInDim S256x1 ![0, 1] bcast_S1x1_S256x1_0_1 (broadcastInDim S1x1 ![1] bcast_S1_S1x1_1 x17))) shapeCasts_S256x1_S256 : FVec Ideal S256 .f32) := by
  dsimp only [hostOps7_4]
  after_results_simp
  rw [hx, h16, h17]
  rfl

/-! ## The six arguments the stretches read, at the boundaries where they are read -/

theorem arg17_at23 : W23 m ρ c (Proc.devRef .tc main_arg17) = a17 m c :=
  (keep24 m ρ c main_arg17 (by not_written hostOps7_4)).symm.trans (W24_main_arg17 m ρ c)
theorem arg16_at23 : W23 m ρ c (Proc.devRef .tc main_arg16) = a16 m c :=
  (keep24 m ρ c main_arg16 (by not_written hostOps7_4)).symm.trans (W24_main_arg16 m ρ c)
theorem arg15_at23 : W23 m ρ c (Proc.devRef .tc main_arg15) = a15 m c :=
  (keep24 m ρ c main_arg15 (by not_written hostOps7_4)).symm.trans (W24_main_arg15 m ρ c)
theorem arg14_at23 : W23 m ρ c (Proc.devRef .tc main_arg14) = a14 m c :=
  (keep24 m ρ c main_arg14 (by not_written hostOps7_4)).symm.trans (W24_main_arg14 m ρ c)
theorem arg13_at23 : W23 m ρ c (Proc.devRef .tc main_arg13) = a13 m c :=
  (keep24 m ρ c main_arg13 (by not_written hostOps7_4)).symm.trans (W24_main_arg13 m ρ c)
theorem arg12_at23 : W23 m ρ c (Proc.devRef .tc main_arg12) = a12 m c :=
  (keep24 m ρ c main_arg12 (by not_written hostOps7_4)).symm.trans (W24_main_arg12 m ρ c)
theorem arg15_at21 : W21 m ρ c (Proc.devRef .tc main_arg15) = a15 m c :=
  (keep22 m ρ c main_arg15 (by not_written hostOps7_2)).symm.trans
    ((keep23 m ρ c main_arg15 (by not_written hostOps7_3)).symm.trans (arg15_at23 m ρ c))
theorem arg14_at21 : W21 m ρ c (Proc.devRef .tc main_arg14) = a14 m c :=
  (keep22 m ρ c main_arg14 (by not_written hostOps7_2)).symm.trans
    ((keep23 m ρ c main_arg14 (by not_written hostOps7_3)).symm.trans (arg14_at23 m ρ c))
theorem arg13_at19 : W19 m ρ c (Proc.devRef .tc main_arg13) = a13 m c :=
  (keep20 m ρ c main_arg13 (by not_written hostOps7)).symm.trans
    ((keep21 m ρ c main_arg13 (by not_written hostOps7_1)).symm.trans
      ((keep22 m ρ c main_arg13 (by not_written hostOps7_2)).symm.trans
        ((keep23 m ρ c main_arg13 (by not_written hostOps7_3)).symm.trans (arg13_at23 m ρ c))))
theorem arg12_at19 : W19 m ρ c (Proc.devRef .tc main_arg12) = a12 m c :=
  (keep20 m ρ c main_arg12 (by not_written hostOps7)).symm.trans
    ((keep21 m ρ c main_arg12 (by not_written hostOps7_1)).symm.trans
      ((keep22 m ρ c main_arg12 (by not_written hostOps7_2)).symm.trans
        ((keep23 m ρ c main_arg12 (by not_written hostOps7_3)).symm.trans (arg12_at23 m ρ c))))

/-! ## The chain -/

/-- The read-out: from the pooled sums and counts the last five stretches of host operations (the mean, three dense
    layers with two rectifiers, the final reshape) leave the result buffer at the reference's last stage. -/
theorem tail
    (hsum : W19 m ρ c (Proc.devRef .tc main_v63_0) = val_main_v199 (F := Ideal) (a0 m c) (a1 m c) (a3 m c) (a4 m c) (a7 m c) (a8 m c) (a9 m c) (a10 m c) (a11 m c))
    (hcnt : W19 m ρ c (Proc.devRef .tc main_v63_1) = val_main_v203 (F := Ideal) (a3 m c)) :
    W24 m ρ c (Proc.devRef .tc main_v85)
      = val_main_v225 (F := Ideal) (a0 m c) (a1 m c) (a3 m c) (a4 m c) (a7 m c) (a8 m c) (a9 m c) (a10 m c) (a11 m c) (a12 m c) (a13 m c) (a14 m c) (a15 m c) (a16 m c) (a17 m c) := by
  have e20 : W20 m ρ c (Proc.devRef .tc main_v72)
      = val_main_v212 (F := Ideal) (a0 m c) (a1 m c) (a3 m c) (a4 m c) (a7 m c) (a8 m c) (a9 m c) (a10 m c) (a11 m c) (a12 m c) (a13 m c) :=
    (stretch_mean_dense (W19 m ρ c) _ _ _ _ hsum hcnt (arg12_at19 m ρ c) (arg13_at19 m ρ c)).trans rfl
  have e21 : W21 m ρ c (Proc.devRef .tc main_v73)
      = val_main_v213 (F := Ideal) (a0 m c) (a1 m c) (a3 m c) (a4 m c) (a7 m c) (a8 m c) (a9 m c) (a10 m c) (a11 m c) (a12 m c) (a13 m c) :=
    (stretch_relu_a (W20 m ρ c) _ e20).trans rfl
  have e22 : W22 m ρ c (Proc.devRef .tc main_v78)
      = val_main_v218 (F := Ideal) (a0 m c) (a1 m c) (a3 m c) (a4 m c) (a7 m c) (a8 m c) (a9 m c) (a10 m c) (a11 m c) (a12 m c) (a13 m c) (a14 m c) (a15 m c) :=
    (stretch_dense_b (W21 m ρ c) _ _ _ e21 (arg14_at21 m ρ c) (arg15_at21 m ρ c)).trans rfl
  have e23 : W23 m ρ c (Proc.devRef .tc main_v79)
      = val_main_v219 (F := Ideal) (a0 m c) (a1 m c) (a3 m c) (a4 m c) (a7 m c) (a8 m c) (a9 m c) (a10 m c) (a11 m c) (a12 m c) (a13 m c) (a14 m c) (a15 m c) :=
    (stretch_relu_b (W22 m ρ c) _ e22).trans rfl
  exact (stretch_dense_c (W23 m ρ c) _ _ _ e23 (arg16_at23 m ρ c) (arg17_at23 m ρ c)).trans rfl

end Cert.KernelIdeal.Chain

end
-- ==== Proof.KValue.lean ====
import proofs.«428605_j28329604284558_1_alg».proof.Proof.KCarried
import proofs.«428605_j28329604284558_1_alg».proof.Proof.KLayer1d
import proofs.«428605_j28329604284558_1_alg».proof.Proof.KLayer2
import proofs.«428605_j28329604284558_1_alg».proof.Proof.KLayer3
import proofs.«428605_j28329604284558_1_alg».proof.Proof.KPool
import proofs.«428605_j28329604284558_1_alg».proof.Proof.KTail

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Stages
open Cert.KernelIdeal.Facts₀ Cert.KernelIdeal.Facts

variable (m : (ℓ : Loc nD τ sig) → Buf (Elt Ideal) ℓ) (ρ : Dev nD → PrngReg) (c : Dev nD)

/-- THE KERNEL'S RESULT. With the token indices and the source indices in range, the buffer the program returns ends, at
    the last boundary, at the reference's last stage of the arguments as launched: three layers (transform, gather,
    scatter-add, gated update), the pooling call, the read-out. -/
theorem kernel_value (hx : TokRange m c) (hs : SrcRange m c) :
    W24 m ρ c (Proc.devRef .tc main_v85) = val_main_v225 (F := Ideal) (a0 m c) (a1 m c) (a3 m c) (a4 m c) (a7 m c) (a8 m c) (a9 m c) (a10 m c) (a11 m c) (a12 m c) (a13 m c) (a14 m c) (a15 m c) (a16 m c) (a17 m c) := by
  obtain ⟨h1, c1⟩ := layer1 m ρ c hx hs
  obtain ⟨h2, c2⟩ := layer2 m ρ c hs h1 c1
  obtain ⟨h3, c3⟩ := L3.layer3 m ρ c hs h2 c2
  obtain ⟨hsum, hcnt⟩ := pool m ρ c h3 c3
  exact tail m ρ c hsum hcnt

end Cert.KernelIdeal.Chain

end
-- ==== Proof.PreDecode.lean ====
/-
  The index ranges the precondition states, read out of its printed form: every entry of the token column `x` is in
  [−100, 100) and every entry of the source row of `edge_index` (its row 0, as the one-axis array both programs take
  it as) is in [−100000, 100000), as signed 32-bit numbers.
-/
import proofs.«428605_j28329604284558_1_alg».proof.Pre_finite_inputs
import proofs.«428605_j28329604284558_1_alg».proof.Proof.Gen.Pre_finite_inputs
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

variable (a0 : IVec S100000x1 32) (a1 : IVec S2x1000000 32) (a2 : FVec Ideal S1000000x1 .f32) (a3 : IVec S100000 32)
  (a4 : FVec Ideal S100x64 .f32) (a5 : FVec Ideal S64x1 .f32) (a6 : FVec Ideal S64 .f32) (a7 : FVec Ideal S3x64x64 .f32)
  (a8 a9 : FVec Ideal S3x192x64 .f32) (a10 a11 : FVec Ideal S3x192 .f32) (a12 : FVec Ideal S32x64 .f32) (a13 : FVec Ideal S32 .f32)
  (a14 : FVec Ideal S16x32 .f32) (a15 : FVec Ideal S16 .f32) (a16 : FVec Ideal S1x16 .f32) (a17 : FVec Ideal S1 .f32)

instance : Subsingleton S_.Idx := ⟨fun a b => funext fun d => d.elim0⟩

theorem toInt_neg100 : (4294967196#32 : BitVec 32).toInt = -100 := by decide
theorem toInt_100 : (100#32 : BitVec 32).toInt = 100 := by decide
theorem toInt_neg100000 : (4294867296#32 : BitVec 32).toInt = -100000 := by decide
theorem toInt_100000 : (100000#32 : BitVec 32).toInt = 100000 := by decide

/-- Every token index is in [−100, 100). -/
theorem x_range (h : fn (F := Ideal) a0 a1 a2 a3 a4 a5 a6 a7 a8 a9 a10 a11 a12 a13 a14 a15 a16 a17 = fun _ => 1#1) :
    ∀ i : S100000x1.Idx, -100 ≤ (a0 i).toInt ∧ (a0 i).toInt < 100 := by
  have h0 := congrFun h ValueIdx.ix0
  obtain ⟨h80, -⟩ := IntOp.andi_eq_one.1 h0
  obtain ⟨-, h79⟩ := IntOp.andi_eq_one.1 h80
  intro i
  have hi := Host.reduce_andi_all _ _ _ _ _ h79 i
  obtain ⟨hge, hlt⟩ := IntOp.andi_eq_one.1 hi
  have h1 : (4294967196#32 : BitVec 32).toInt ≤ (a0 i).toInt := IntOp.cmpi_sge.1 hge
  have h2 : (a0 i).toInt < (100#32 : BitVec 32).toInt := IntOp.cmpi_slt.1 hlt
  rw [toInt_neg100] at h1
  rw [toInt_100] at h2
  exact ⟨h1, h2⟩

/-- The same read through the reshape of the column to a one-axis array. -/
theorem x_range_flat (h : fn (F := Ideal) a0 a1 a2 a3 a4 a5 a6 a7 a8 a9 a10 a11 a12 a13 a14 a15 a16 a17 = fun _ => 1#1)
    (hc : S100000x1.ShapeCasts S100000) :
    ∀ i : S100000.Idx, -100 ≤ ((shapeCast S100000 a0 hc) i).toInt ∧ ((shapeCast S100000 a0 hc) i).toInt < 100 :=
  fun i => x_range a0 a1 a2 a3 a4 a5 a6 a7 a8 a9 a10 a11 a12 a13 a14 a15 a16 a17 h (Shape.reshapeEquiv hc i)

/-- Every source index (row 0 of the edge list, sliced and reshaped to a one-axis array) is in [−100000, 100000). -/
theorem src_range (h : fn (F := Ideal) a0 a1 a2 a3 a4 a5 a6 a7 a8 a9 a10 a11 a12 a13 a14 a15 a16 a17 = fun _ => 1#1)
    (hs : S2x1000000.Slices ![0, 0] S1x1000000) (hc : S1x1000000.ShapeCasts S1000000) :
    ∀ i : S1000000.Idx,
      -100000 ≤ ((shapeCast S1000000 (extractStridedSlice S1x1000000 ![0, 0] a1 hs) hc) i).toInt
        ∧ ((shapeCast S1000000 (extractStridedSlice S1x1000000 ![0, 0] a1 hs) hc) i).toInt < 100000 := by
  have h0 := congrFun h ValueIdx.ix0
  obtain ⟨-, h90⟩ := IntOp.andi_eq_one.1 h0
  intro i
  have hi := Host.reduce_andi_all _ _ _ _ _ h90 i
  obtain ⟨hge, hlt⟩ := IntOp.andi_eq_one.1 hi
  have h1 : (4294867296#32 : BitVec 32).toInt
      ≤ ((shapeCast S1000000 (extractStridedSlice S1x1000000 ![0, 0] a1 hs) hc) i).toInt := IntOp.cmpi_sge.1 hge
  have h2 : ((shapeCast S1000000 (extractStridedSlice S1x1000000 ![0, 0] a1 hs) hc) i).toInt
      < (100000#32 : BitVec 32).toInt := IntOp.cmpi_slt.1 hlt
  rw [toInt_neg100000] at h1
  rw [toInt_100000] at h2
  exact ⟨h1, h2⟩

end Cert.PreDecode

end
-- ==== Proof.RefRunValue.lean ====
/-
  The reference's fold read stretch by stretch: after all 266 operations the result buffer holds the last stage's
  value of the arguments as launched, and every argument buffer holds what it held at launch (no operation writes one).
-/
import proofs.«428605_j28329604284558_1_alg».proof.Proof.RefRunOps
import proofs.«428605_j28329604284558_1_alg».proof.Proof.RefStages

set_option Elab.async false

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.Stages

variable {F : FTy → Type} [FloatOps F]

/-! ## Operations 0–9: the embedding look-up -/

/-- The first stretch leaves the embedding stage in its buffer. -/
theorem stretchA_v7 (V : Valuation τ sig (Elt F)) (x0 : (⟨S100000x1, .i32⟩ : BufTy).Contents (Elt F)) (x4 : (⟨S100x64, .f32⟩ : BufTy).Contents (Elt F))
    (ha0 : V (Proc.devRef .tc main_arg0) = x0)
    (ha4 : V (Proc.devRef .tc main_arg4) = x4) :
    after (opsA (F := F)) V (Proc.devRef .tc main_v7) = val_main_v7 (F := F) x0 x4 := by
  dsimp only [opsA]
  after_results_simp
  rw [ha0, ha4]
  rfl

/-- Stretch A writes no argument: each keeps what the valuation holds. -/
theorem keepA_arg0 (V : Valuation τ sig (Elt F)) :
    after (opsA (F := F)) V (Proc.devRef .tc main_arg0) = V (Proc.devRef .tc main_arg0) := by
  dsimp only [opsA]
  after_results_simp
theorem keepA_arg1 (V : Valuation τ sig (Elt F)) :
    after (opsA (F := F)) V (Proc.devRef .tc main_arg1) = V (Proc.devRef .tc main_arg1) := by
  dsimp only [opsA]
  after_results_simp
theorem keepA_arg2 (V : Valuation τ sig (Elt F)) :
    after (opsA (F := F)) V (Proc.devRef .tc main_arg2) = V (Proc.devRef .tc main_arg2) := by
  dsimp only [opsA]
  after_results_simp
theorem keepA_arg3 (V : Valuation τ sig (Elt F)) :
    after (opsA (F := F)) V (Proc.devRef .tc main_arg3) = V (Proc.devRef .tc main_arg3) := by
  dsimp only [opsA]
  after_results_simp
theorem keepA_arg4 (V : Valuation τ sig (Elt F)) :
    after (opsA (F := F)) V (Proc.devRef .tc main_arg4) = V (Proc.devRef .tc main_arg4) := by
  dsimp only [opsA]
  after_results_simp
theorem keepA_arg5 (V : Valuation τ sig (Elt F)) :
    after (opsA (F := F)) V (Proc.devRef .tc main_arg5) = V (Proc.devRef .tc main_arg5) := by
  dsimp only [opsA]
  after_results_simp
theorem keepA_arg6 (V : Valuation τ sig (Elt F)) :
    after (opsA (F := F)) V (Proc.devRef .tc main_arg6) = V (Proc.devRef .tc main_arg6) := by
  dsimp only [opsA]
  after_results_simp
theorem keepA_arg7 (V : Valuation τ sig (Elt F)) :
    after (opsA (F := F)) V (Proc.devRef .tc main_arg7) = V (Proc.devRef .tc main_arg7) := by
  dsimp only [opsA]
  after_results_simp
theorem keepA_arg8 (V : Valuation τ sig (Elt F)) :
    after (opsA (F := F)) V (Proc.devRef .tc main_arg8) = V (Proc.devRef .tc main_arg8) := by
  dsimp only [opsA]
  after_results_simp
theorem keepA_arg9 (V : Valuation τ sig (Elt F)) :
    after (opsA (F := F)) V (Proc.devRef .tc main_arg9) = V (Proc.devRef .tc main_arg9) := by
  dsimp only [opsA]
  after_results_simp
theorem keepA_arg10 (V : Valuation τ sig (Elt F)) :
    after (opsA (F := F)) V (Proc.devRef .tc main_arg10) = V (Proc.devRef .tc main_arg10) := by
  dsimp only [opsA]
  after_results_simp
theorem keepA_arg11 (V : Valuation τ sig (Elt F)) :
    after (opsA (F := F)) V (Proc.devRef .tc main_arg11) = V (Proc.devRef .tc main_arg11) := by
  dsimp only [opsA]
  after_results_simp
theorem keepA_arg12 (V : Valuation τ sig (Elt F)) :
    after (opsA (F := F)) V (Proc.devRef .tc main_arg12) = V (Proc.devRef .tc main_arg12) := by
  dsimp only [opsA]
  after_results_simp
theorem keepA_arg13 (V : Valuation τ sig (Elt F)) :
    after (opsA (F := F)) V (Proc.devRef .tc main_arg13) = V (Proc.devRef .tc main_arg13) := by
  dsimp only [opsA]
  after_results_simp
theorem keepA_arg14 (V : Valuation τ sig (Elt F)) :
    after (opsA (F := F)) V (Proc.devRef .tc main_arg14) = V (Proc.devRef .tc main_arg14) := by
  dsimp only [opsA]
  after_results_simp
theorem keepA_arg15 (V : Valuation τ sig (Elt F)) :
    after (opsA (F := F)) V (Proc.devRef .tc main_arg15) = V (Proc.devRef .tc main_arg15) := by
  dsimp only [opsA]
  after_results_simp
theorem keepA_arg16 (V : Valuation τ sig (Elt F)) :
    after (opsA (F := F)) V (Proc.devRef .tc main_arg16) = V (Proc.devRef .tc main_arg16) := by
  dsimp only [opsA]
  after_results_simp
theorem keepA_arg17 (V : Valuation τ sig (Elt F)) :
    after (opsA (F := F)) V (Proc.devRef .tc main_arg17) = V (Proc.devRef .tc main_arg17) := by
  dsimp only [opsA]
  after_results_simp

/-! ## Operations 10–88: the two index rows and the first layer -/

/-- The source-index row. -/
theorem stretchB_v14 (V : Valuation τ sig (Elt F)) (x1 : (⟨S2x1000000, .i32⟩ : BufTy).Contents (Elt F))
    (ha1 : V (Proc.devRef .tc main_arg1) = x1) :
    after (opsB (F := F)) V (Proc.devRef .tc main_v14) = val_main_v14 (F := F) x1 := by
  dsimp only [opsB]
  after_results_simp
  rw [ha1]
  rfl

/-- The destination-index row. -/
theorem stretchB_v16 (V : Valuation τ sig (Elt F)) (x1 : (⟨S2x1000000, .i32⟩ : BufTy).Contents (Elt F))
    (ha1 : V (Proc.devRef .tc main_arg1) = x1) :
    after (opsB (F := F)) V (Proc.devRef .tc main_v16) = val_main_v16 (F := F) x1 := by
  dsimp only [opsB]
  after_results_simp
  rw [ha1]
  rfl

/-- The first layer's output, from the embedding stage in its buffer. -/
theorem stretchB_v76 (V : Valuation τ sig (Elt F)) (x0 : (⟨S100000x1, .i32⟩ : BufTy).Contents (Elt F)) (x1 : (⟨S2x1000000, .i32⟩ : BufTy).Contents (Elt F)) (x4 : (⟨S100x64, .f32⟩ : BufTy).Contents (Elt F)) (x7 : (⟨S3x64x64, .f32⟩ : BufTy).Contents (Elt F)) (x8 : (⟨S3x192x64, .f32⟩ : BufTy).Contents (Elt F)) (x9 : (⟨S3x192x64, .f32⟩ : BufTy).Contents (Elt F)) (x10 : (⟨S3x192, .f32⟩ : BufTy).Contents (Elt F)) (x11 : (⟨S3x192, .f32⟩ : BufTy).Contents (Elt F))
    (h7 : V (Proc.devRef .tc main_v7) = val_main_v7 (F := F) x0 x4)
    (ha1 : V (Proc.devRef .tc main_arg1) = x1)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11) :
    after (opsB (F := F)) V (Proc.devRef .tc main_v76) = val_main_v76 (F := F) x0 x1 x4 x7 x8 x9 x10 x11 := by
  dsimp only [opsB]
  after_results_simp
  rw [h7, ha1, ha7, ha8, ha9, ha10, ha11]
  rfl

/-- Stretch B writes no argument: each keeps what the valuation holds. -/
theorem keepB_arg0 (V : Valuation τ sig (Elt F)) :
    after (opsB (F := F)) V (Proc.devRef .tc main_arg0) = V (Proc.devRef .tc main_arg0) := by
  dsimp only [opsB]
  after_results_simp
theorem keepB_arg1 (V : Valuation τ sig (Elt F)) :
    after (opsB (F := F)) V (Proc.devRef .tc main_arg1) = V (Proc.devRef .tc main_arg1) := by
  dsimp only [opsB]
  after_results_simp
theorem keepB_arg2 (V : Valuation τ sig (Elt F)) :
    after (opsB (F := F)) V (Proc.devRef .tc main_arg2) = V (Proc.devRef .tc main_arg2) := by
  dsimp only [opsB]
  after_results_simp
theorem keepB_arg3 (V : Valuation τ sig (Elt F)) :
    after (opsB (F := F)) V (Proc.devRef .tc main_arg3) = V (Proc.devRef .tc main_arg3) := by
  dsimp only [opsB]
  after_results_simp
theorem keepB_arg4 (V : Valuation τ sig (Elt F)) :
    after (opsB (F := F)) V (Proc.devRef .tc main_arg4) = V (Proc.devRef .tc main_arg4) := by
  dsimp only [opsB]
  after_results_simp
theorem keepB_arg5 (V : Valuation τ sig (Elt F)) :
    after (opsB (F := F)) V (Proc.devRef .tc main_arg5) = V (Proc.devRef .tc main_arg5) := by
  dsimp only [opsB]
  after_results_simp
theorem keepB_arg6 (V : Valuation τ sig (Elt F)) :
    after (opsB (F := F)) V (Proc.devRef .tc main_arg6) = V (Proc.devRef .tc main_arg6) := by
  dsimp only [opsB]
  after_results_simp
theorem keepB_arg7 (V : Valuation τ sig (Elt F)) :
    after (opsB (F := F)) V (Proc.devRef .tc main_arg7) = V (Proc.devRef .tc main_arg7) := by
  dsimp only [opsB]
  after_results_simp
theorem keepB_arg8 (V : Valuation τ sig (Elt F)) :
    after (opsB (F := F)) V (Proc.devRef .tc main_arg8) = V (Proc.devRef .tc main_arg8) := by
  dsimp only [opsB]
  after_results_simp
theorem keepB_arg9 (V : Valuation τ sig (Elt F)) :
    after (opsB (F := F)) V (Proc.devRef .tc main_arg9) = V (Proc.devRef .tc main_arg9) := by
  dsimp only [opsB]
  after_results_simp
theorem keepB_arg10 (V : Valuation τ sig (Elt F)) :
    after (opsB (F := F)) V (Proc.devRef .tc main_arg10) = V (Proc.devRef .tc main_arg10) := by
  dsimp only [opsB]
  after_results_simp
theorem keepB_arg11 (V : Valuation τ sig (Elt F)) :
    after (opsB (F := F)) V (Proc.devRef .tc main_arg11) = V (Proc.devRef .tc main_arg11) := by
  dsimp only [opsB]
  after_results_simp
theorem keepB_arg12 (V : Valuation τ sig (Elt F)) :
    after (opsB (F := F)) V (Proc.devRef .tc main_arg12) = V (Proc.devRef .tc main_arg12) := by
  dsimp only [opsB]
  after_results_simp
theorem keepB_arg13 (V : Valuation τ sig (Elt F)) :
    after (opsB (F := F)) V (Proc.devRef .tc main_arg13) = V (Proc.devRef .tc main_arg13) := by
  dsimp only [opsB]
  after_results_simp
theorem keepB_arg14 (V : Valuation τ sig (Elt F)) :
    after (opsB (F := F)) V (Proc.devRef .tc main_arg14) = V (Proc.devRef .tc main_arg14) := by
  dsimp only [opsB]
  after_results_simp
theorem keepB_arg15 (V : Valuation τ sig (Elt F)) :
    after (opsB (F := F)) V (Proc.devRef .tc main_arg15) = V (Proc.devRef .tc main_arg15) := by
  dsimp only [opsB]
  after_results_simp
theorem keepB_arg16 (V : Valuation τ sig (Elt F)) :
    after (opsB (F := F)) V (Proc.devRef .tc main_arg16) = V (Proc.devRef .tc main_arg16) := by
  dsimp only [opsB]
  after_results_simp
theorem keepB_arg17 (V : Valuation τ sig (Elt F)) :
    after (opsB (F := F)) V (Proc.devRef .tc main_arg17) = V (Proc.devRef .tc main_arg17) := by
  dsimp only [opsB]
  after_results_simp

/-! ## Operations 89–158: the second layer -/

/-- The second layer's output, from the first's and the two index rows in their buffers. -/
theorem stretchC_v136 (V : Valuation τ sig (Elt F)) (x0 : (⟨S100000x1, .i32⟩ : BufTy).Contents (Elt F)) (x1 : (⟨S2x1000000, .i32⟩ : BufTy).Contents (Elt F)) (x4 : (⟨S100x64, .f32⟩ : BufTy).Contents (Elt F)) (x7 : (⟨S3x64x64, .f32⟩ : BufTy).Contents (Elt F)) (x8 : (⟨S3x192x64, .f32⟩ : BufTy).Contents (Elt F)) (x9 : (⟨S3x192x64, .f32⟩ : BufTy).Contents (Elt F)) (x10 : (⟨S3x192, .f32⟩ : BufTy).Contents (Elt F)) (x11 : (⟨S3x192, .f32⟩ : BufTy).Contents (Elt F))
    (hin : V (Proc.devRef .tc main_v76) = val_main_v76 (F := F) x0 x1 x4 x7 x8 x9 x10 x11)
    (h14 : V (Proc.devRef .tc main_v14) = val_main_v14 (F := F) x1)
    (h16 : V (Proc.devRef .tc main_v16) = val_main_v16 (F := F) x1)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11) :
    after (opsC (F := F)) V (Proc.devRef .tc main_v136) = val_main_v136 (F := F) x0 x1 x4 x7 x8 x9 x10 x11 := by
  dsimp only [opsC]
  after_results_simp
  rw [hin, h14, h16, ha7, ha8, ha9, ha10, ha11]
  rfl

/-- Stretch C writes no argument and neither index row: each keeps what the valuation holds. -/
theorem keepC_arg0 (V : Valuation τ sig (Elt F)) :
    after (opsC (F := F)) V (Proc.devRef .tc main_arg0) = V (Proc.devRef .tc main_arg0) := by
  dsimp only [opsC]
  after_results_simp
theorem keepC_arg1 (V : Valuation τ sig (Elt F)) :
    after (opsC (F := F)) V (Proc.devRef .tc main_arg1) = V (Proc.devRef .tc main_arg1) := by
  dsimp only [opsC]
  after_results_simp
theorem keepC_arg2 (V : Valuation τ sig (Elt F)) :
    after (opsC (F := F)) V (Proc.devRef .tc main_arg2) = V (Proc.devRef .tc main_arg2) := by
  dsimp only [opsC]
  after_results_simp
theorem keepC_arg3 (V : Valuation τ sig (Elt F)) :
    after (opsC (F := F)) V (Proc.devRef .tc main_arg3) = V (Proc.devRef .tc main_arg3) := by
  dsimp only [opsC]
  after_results_simp
theorem keepC_arg4 (V : Valuation τ sig (Elt F)) :
    after (opsC (F := F)) V (Proc.devRef .tc main_arg4) = V (Proc.devRef .tc main_arg4) := by
  dsimp only [opsC]
  after_results_simp
theorem keepC_arg5 (V : Valuation τ sig (Elt F)) :
    after (opsC (F := F)) V (Proc.devRef .tc main_arg5) = V (Proc.devRef .tc main_arg5) := by
  dsimp only [opsC]
  after_results_simp
theorem keepC_arg6 (V : Valuation τ sig (Elt F)) :
    after (opsC (F := F)) V (Proc.devRef .tc main_arg6) = V (Proc.devRef .tc main_arg6) := by
  dsimp only [opsC]
  after_results_simp
theorem keepC_arg7 (V : Valuation τ sig (Elt F)) :
    after (opsC (F := F)) V (Proc.devRef .tc main_arg7) = V (Proc.devRef .tc main_arg7) := by
  dsimp only [opsC]
  after_results_simp
theorem keepC_arg8 (V : Valuation τ sig (Elt F)) :
    after (opsC (F := F)) V (Proc.devRef .tc main_arg8) = V (Proc.devRef .tc main_arg8) := by
  dsimp only [opsC]
  after_results_simp
theorem keepC_arg9 (V : Valuation τ sig (Elt F)) :
    after (opsC (F := F)) V (Proc.devRef .tc main_arg9) = V (Proc.devRef .tc main_arg9) := by
  dsimp only [opsC]
  after_results_simp
theorem keepC_arg10 (V : Valuation τ sig (Elt F)) :
    after (opsC (F := F)) V (Proc.devRef .tc main_arg10) = V (Proc.devRef .tc main_arg10) := by
  dsimp only [opsC]
  after_results_simp
theorem keepC_arg11 (V : Valuation τ sig (Elt F)) :
    after (opsC (F := F)) V (Proc.devRef .tc main_arg11) = V (Proc.devRef .tc main_arg11) := by
  dsimp only [opsC]
  after_results_simp
theorem keepC_arg12 (V : Valuation τ sig (Elt F)) :
    after (opsC (F := F)) V (Proc.devRef .tc main_arg12) = V (Proc.devRef .tc main_arg12) := by
  dsimp only [opsC]
  after_results_simp
theorem keepC_arg13 (V : Valuation τ sig (Elt F)) :
    after (opsC (F := F)) V (Proc.devRef .tc main_arg13) = V (Proc.devRef .tc main_arg13) := by
  dsimp only [opsC]
  after_results_simp
theorem keepC_arg14 (V : Valuation τ sig (Elt F)) :
    after (opsC (F := F)) V (Proc.devRef .tc main_arg14) = V (Proc.devRef .tc main_arg14) := by
  dsimp only [opsC]
  after_results_simp
theorem keepC_arg15 (V : Valuation τ sig (Elt F)) :
    after (opsC (F := F)) V (Proc.devRef .tc main_arg15) = V (Proc.devRef .tc main_arg15) := by
  dsimp only [opsC]
  after_results_simp
theorem keepC_arg16 (V : Valuation τ sig (Elt F)) :
    after (opsC (F := F)) V (Proc.devRef .tc main_arg16) = V (Proc.devRef .tc main_arg16) := by
  dsimp only [opsC]
  after_results_simp
theorem keepC_arg17 (V : Valuation τ sig (Elt F)) :
    after (opsC (F := F)) V (Proc.devRef .tc main_arg17) = V (Proc.devRef .tc main_arg17) := by
  dsimp only [opsC]
  after_results_simp
theorem keepC_v14 (V : Valuation τ sig (Elt F)) :
    after (opsC (F := F)) V (Proc.devRef .tc main_v14) = V (Proc.devRef .tc main_v14) := by
  dsimp only [opsC]
  after_results_simp
theorem keepC_v16 (V : Valuation τ sig (Elt F)) :
    after (opsC (F := F)) V (Proc.devRef .tc main_v16) = V (Proc.devRef .tc main_v16) := by
  dsimp only [opsC]
  after_results_simp

/-! ## Operations 159–228: the third layer -/

/-- The third layer's output, from the second's and the two index rows in their buffers. -/
theorem stretchD_v196 (V : Valuation τ sig (Elt F)) (x0 : (⟨S100000x1, .i32⟩ : BufTy).Contents (Elt F)) (x1 : (⟨S2x1000000, .i32⟩ : BufTy).Contents (Elt F)) (x4 : (⟨S100x64, .f32⟩ : BufTy).Contents (Elt F)) (x7 : (⟨S3x64x64, .f32⟩ : BufTy).Contents (Elt F)) (x8 : (⟨S3x192x64, .f32⟩ : BufTy).Contents (Elt F)) (x9 : (⟨S3x192x64, .f32⟩ : BufTy).Contents (Elt F)) (x10 : (⟨S3x192, .f32⟩ : BufTy).Contents (Elt F)) (x11 : (⟨S3x192, .f32⟩ : BufTy).Contents (Elt F))
    (hin : V (Proc.devRef .tc main_v136) = val_main_v136 (F := F) x0 x1 x4 x7 x8 x9 x10 x11)
    (h14 : V (Proc.devRef .tc main_v14) = val_main_v14 (F := F) x1)
    (h16 : V (Proc.devRef .tc main_v16) = val_main_v16 (F := F) x1)
    (ha7 : V (Proc.devRef .tc main_arg7) = x7)
    (ha8 : V (Proc.devRef .tc main_arg8) = x8)
    (ha9 : V (Proc.devRef .tc main_arg9) = x9)
    (ha10 : V (Proc.devRef .tc main_arg10) = x10)
    (ha11 : V (Proc.devRef .tc main_arg11) = x11) :
    after (opsD (F := F)) V (Proc.devRef .tc main_v196) = val_main_v196 (F := F) x0 x1 x4 x7 x8 x9 x10 x11 := by
  dsimp only [opsD]
  after_results_simp
  rw [hin, h14, h16, ha7, ha8, ha9, ha10, ha11]
  rfl

/-- Stretch D writes no argument: each keeps what the valuation holds. -/
theorem keepD_arg0 (V : Valuation τ sig (Elt F)) :
    after (opsD (F := F)) V (Proc.devRef .tc main_arg0) = V (Proc.devRef .tc main_arg0) := by
  dsimp only [opsD]
  after_results_simp
theorem keepD_arg1 (V : Valuation τ sig (Elt F)) :
    after (opsD (F := F)) V (Proc.devRef .tc main_arg1) = V (Proc.devRef .tc main_arg1) := by
  dsimp only [opsD]
  after_results_simp
theorem keepD_arg2 (V : Valuation τ sig (Elt F)) :
    after (opsD (F := F)) V (Proc.devRef .tc main_arg2) = V (Proc.devRef .tc main_arg2) := by
  dsimp only [opsD]
  after_results_simp
theorem keepD_arg3 (V : Valuation τ sig (Elt F)) :
    after (opsD (F := F)) V (Proc.devRef .tc main_arg3) = V (Proc.devRef .tc main_arg3) := by
  dsimp only [opsD]
  after_results_simp
theorem keepD_arg4 (V : Valuation τ sig (Elt F)) :
    after (opsD (F := F)) V (Proc.devRef .tc main_arg4) = V (Proc.devRef .tc main_arg4) := by
  dsimp only [opsD]
  after_results_simp
theorem keepD_arg5 (V : Valuation τ sig (Elt F)) :
    after (opsD (F := F)) V (Proc.devRef .tc main_arg5) = V (Proc.devRef .tc main_arg5) := by
  dsimp only [opsD]
  after_results_simp
theorem keepD_arg6 (V : Valuation τ sig (Elt F)) :
    after (opsD (F := F)) V (Proc.devRef .tc main_arg6) = V (Proc.devRef .tc main_arg6) := by
  dsimp only [opsD]
  after_results_simp
theorem keepD_arg7 (V : Valuation τ sig (Elt F)) :
    after (opsD (F := F)) V (Proc.devRef .tc main_arg7) = V (Proc.devRef .tc main_arg7) := by
  dsimp only [opsD]
  after_results_simp
theorem keepD_arg8 (V : Valuation τ sig (Elt F)) :
    after (opsD (F := F)) V (Proc.devRef .tc main_arg8) = V (Proc.devRef .tc main_arg8) := by
  dsimp only [opsD]
  after_results_simp
theorem keepD_arg9 (V : Valuation τ sig (Elt F)) :
    after (opsD (F := F)) V (Proc.devRef .tc main_arg9) = V (Proc.devRef .tc main_arg9) := by
  dsimp only [opsD]
  after_results_simp
theorem keepD_arg10 (V : Valuation τ sig (Elt F)) :
    after (opsD (F := F)) V (Proc.devRef .tc main_arg10) = V (Proc.devRef .tc main_arg10) := by
  dsimp only [opsD]
  after_results_simp
theorem keepD_arg11 (V : Valuation τ sig (Elt F)) :
    after (opsD (F := F)) V (Proc.devRef .tc main_arg11) = V (Proc.devRef .tc main_arg11) := by
  dsimp only [opsD]
  after_results_simp
theorem keepD_arg12 (V : Valuation τ sig (Elt F)) :
    after (opsD (F := F)) V (Proc.devRef .tc main_arg12) = V (Proc.devRef .tc main_arg12) := by
  dsimp only [opsD]
  after_results_simp
theorem keepD_arg13 (V : Valuation τ sig (Elt F)) :
    after (opsD (F := F)) V (Proc.devRef .tc main_arg13) = V (Proc.devRef .tc main_arg13) := by
  dsimp only [opsD]
  after_results_simp
theorem keepD_arg14 (V : Valuation τ sig (Elt F)) :
    after (opsD (F := F)) V (Proc.devRef .tc main_arg14) = V (Proc.devRef .tc main_arg14) := by
  dsimp only [opsD]
  after_results_simp
theorem keepD_arg15 (V : Valuation τ sig (Elt F)) :
    after (opsD (F := F)) V (Proc.devRef .tc main_arg15) = V (Proc.devRef .tc main_arg15) := by
  dsimp only [opsD]
  after_results_simp
theorem keepD_arg16 (V : Valuation τ sig (Elt F)) :
    after (opsD (F := F)) V (Proc.devRef .tc main_arg16) = V (Proc.devRef .tc main_arg16) := by
  dsimp only [opsD]
  after_results_simp
theorem keepD_arg17 (V : Valuation τ sig (Elt F)) :
    after (opsD (F := F)) V (Proc.devRef .tc main_arg17) = V (Proc.devRef .tc main_arg17) := by
  dsimp only [opsD]
  after_results_simp

/-! ## Operations 229–265: the pooling and the read-out -/

/-- The result, from the third layer's output in its buffer. -/
theorem stretchE_v225 (V : Valuation τ sig (Elt F)) (x0 : (⟨S100000x1, .i32⟩ : BufTy).Contents (Elt F)) (x1 : (⟨S2x1000000, .i32⟩ : BufTy).Contents (Elt F)) (x3 : (⟨S100000, .i32⟩ : BufTy).Contents (Elt F)) (x4 : (⟨S100x64, .f32⟩ : BufTy).Contents (Elt F)) (x7 : (⟨S3x64x64, .f32⟩ : BufTy).Contents (Elt F)) (x8 : (⟨S3x192x64, .f32⟩ : BufTy).Contents (Elt F)) (x9 : (⟨S3x192x64, .f32⟩ : BufTy).Contents (Elt F)) (x10 : (⟨S3x192, .f32⟩ : BufTy).Contents (Elt F)) (x11 : (⟨S3x192, .f32⟩ : BufTy).Contents (Elt F)) (x12 : (⟨S32x64, .f32⟩ : BufTy).Contents (Elt F)) (x13 : (⟨S32, .f32⟩ : BufTy).Contents (Elt F)) (x14 : (⟨S16x32, .f32⟩ : BufTy).Contents (Elt F)) (x15 : (⟨S16, .f32⟩ : BufTy).Contents (Elt F)) (x16 : (⟨S1x16, .f32⟩ : BufTy).Contents (Elt F)) (x17 : (⟨S1, .f32⟩ : BufTy).Contents (Elt F))
    (hin : V (Proc.devRef .tc main_v196) = val_main_v196 (F := F) x0 x1 x4 x7 x8 x9 x10 x11)
    (ha3 : V (Proc.devRef .tc main_arg3) = x3)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17) :
    after (opsE (F := F)) V (Proc.devRef .tc main_v225) = val_main_v225 (F := F) x0 x1 x3 x4 x7 x8 x9 x10 x11 x12 x13 x14 x15 x16 x17 := by
  dsimp only [opsE]
  after_results_simp
  rw [hin, ha3, ha12, ha13, ha14, ha15, ha16, ha17]
  rfl

/-- Stretch E writes no argument: each keeps what the valuation holds. -/
theorem keepE_arg0 (V : Valuation τ sig (Elt F)) :
    after (opsE (F := F)) V (Proc.devRef .tc main_arg0) = V (Proc.devRef .tc main_arg0) := by
  dsimp only [opsE]
  after_results_simp
theorem keepE_arg1 (V : Valuation τ sig (Elt F)) :
    after (opsE (F := F)) V (Proc.devRef .tc main_arg1) = V (Proc.devRef .tc main_arg1) := by
  dsimp only [opsE]
  after_results_simp
theorem keepE_arg2 (V : Valuation τ sig (Elt F)) :
    after (opsE (F := F)) V (Proc.devRef .tc main_arg2) = V (Proc.devRef .tc main_arg2) := by
  dsimp only [opsE]
  after_results_simp
theorem keepE_arg3 (V : Valuation τ sig (Elt F)) :
    after (opsE (F := F)) V (Proc.devRef .tc main_arg3) = V (Proc.devRef .tc main_arg3) := by
  dsimp only [opsE]
  after_results_simp
theorem keepE_arg4 (V : Valuation τ sig (Elt F)) :
    after (opsE (F := F)) V (Proc.devRef .tc main_arg4) = V (Proc.devRef .tc main_arg4) := by
  dsimp only [opsE]
  after_results_simp
theorem keepE_arg5 (V : Valuation τ sig (Elt F)) :
    after (opsE (F := F)) V (Proc.devRef .tc main_arg5) = V (Proc.devRef .tc main_arg5) := by
  dsimp only [opsE]
  after_results_simp
theorem keepE_arg6 (V : Valuation τ sig (Elt F)) :
    after (opsE (F := F)) V (Proc.devRef .tc main_arg6) = V (Proc.devRef .tc main_arg6) := by
  dsimp only [opsE]
  after_results_simp
theorem keepE_arg7 (V : Valuation τ sig (Elt F)) :
    after (opsE (F := F)) V (Proc.devRef .tc main_arg7) = V (Proc.devRef .tc main_arg7) := by
  dsimp only [opsE]
  after_results_simp
theorem keepE_arg8 (V : Valuation τ sig (Elt F)) :
    after (opsE (F := F)) V (Proc.devRef .tc main_arg8) = V (Proc.devRef .tc main_arg8) := by
  dsimp only [opsE]
  after_results_simp
theorem keepE_arg9 (V : Valuation τ sig (Elt F)) :
    after (opsE (F := F)) V (Proc.devRef .tc main_arg9) = V (Proc.devRef .tc main_arg9) := by
  dsimp only [opsE]
  after_results_simp
theorem keepE_arg10 (V : Valuation τ sig (Elt F)) :
    after (opsE (F := F)) V (Proc.devRef .tc main_arg10) = V (Proc.devRef .tc main_arg10) := by
  dsimp only [opsE]
  after_results_simp
theorem keepE_arg11 (V : Valuation τ sig (Elt F)) :
    after (opsE (F := F)) V (Proc.devRef .tc main_arg11) = V (Proc.devRef .tc main_arg11) := by
  dsimp only [opsE]
  after_results_simp
theorem keepE_arg12 (V : Valuation τ sig (Elt F)) :
    after (opsE (F := F)) V (Proc.devRef .tc main_arg12) = V (Proc.devRef .tc main_arg12) := by
  dsimp only [opsE]
  after_results_simp
theorem keepE_arg13 (V : Valuation τ sig (Elt F)) :
    after (opsE (F := F)) V (Proc.devRef .tc main_arg13) = V (Proc.devRef .tc main_arg13) := by
  dsimp only [opsE]
  after_results_simp
theorem keepE_arg14 (V : Valuation τ sig (Elt F)) :
    after (opsE (F := F)) V (Proc.devRef .tc main_arg14) = V (Proc.devRef .tc main_arg14) := by
  dsimp only [opsE]
  after_results_simp
theorem keepE_arg15 (V : Valuation τ sig (Elt F)) :
    after (opsE (F := F)) V (Proc.devRef .tc main_arg15) = V (Proc.devRef .tc main_arg15) := by
  dsimp only [opsE]
  after_results_simp
theorem keepE_arg16 (V : Valuation τ sig (Elt F)) :
    after (opsE (F := F)) V (Proc.devRef .tc main_arg16) = V (Proc.devRef .tc main_arg16) := by
  dsimp only [opsE]
  after_results_simp
theorem keepE_arg17 (V : Valuation τ sig (Elt F)) :
    after (opsE (F := F)) V (Proc.devRef .tc main_arg17) = V (Proc.devRef .tc main_arg17) := by
  dsimp only [opsE]
  after_results_simp

/-! ## The five stretches in order over the launch contents -/

section Chain
variable (m : (ℓ : Loc nD τ sig) → Buf (Elt F) ℓ) (c : Dev nD)

/-- The buffers' contents at launch, and after each of the first four stretches. -/
abbrev V0 : Valuation τ sig (Elt F) := launchContents m c
@[inherit_doc V0] abbrev VA : Valuation τ sig (Elt F) := after (opsA (F := F)) (V0 m c)
@[inherit_doc V0] abbrev VB : Valuation τ sig (Elt F) := after (opsB (F := F)) (VA m c)
@[inherit_doc V0] abbrev VC : Valuation τ sig (Elt F) := after (opsC (F := F)) (VB m c)
@[inherit_doc V0] abbrev VD : Valuation τ sig (Elt F) := after (opsD (F := F)) (VC m c)

/-- After the first stretch the embedding buffer holds the embedding stage of the launched arguments. -/
theorem atA_v7 : VA m c (Proc.devRef .tc main_v7) = val_main_v7 (F := F) (m ((c.tc : Thread nD τ).loc main_arg0)) (m ((c.tc : Thread nD τ).loc main_arg4)) :=
  stretchA_v7 (V0 m c) _ _ rfl rfl

/-- After the second stretch: the two index rows and the first layer's output. -/
theorem atB_v14 : VB m c (Proc.devRef .tc main_v14) = val_main_v14 (F := F) (m ((c.tc : Thread nD τ).loc main_arg1)) :=
  stretchB_v14 (VA m c) _ ((keepA_arg1 (V0 m c)).trans rfl)
theorem atB_v16 : VB m c (Proc.devRef .tc main_v16) = val_main_v16 (F := F) (m ((c.tc : Thread nD τ).loc main_arg1)) :=
  stretchB_v16 (VA m c) _ ((keepA_arg1 (V0 m c)).trans rfl)
theorem atB_v76 : VB m c (Proc.devRef .tc main_v76) = val_main_v76 (F := F) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  stretchB_v76 (VA m c) _ _ _ _ _ _ _ _ (atA_v7 m c) ((keepA_arg1 (V0 m c)).trans rfl)
    ((keepA_arg7 (V0 m c)).trans rfl)
    ((keepA_arg8 (V0 m c)).trans rfl)
    ((keepA_arg9 (V0 m c)).trans rfl)
    ((keepA_arg10 (V0 m c)).trans rfl)
    ((keepA_arg11 (V0 m c)).trans rfl)

/-- After the third stretch: the index rows kept, and the second layer's output. -/
theorem atC_v14 : VC m c (Proc.devRef .tc main_v14) = val_main_v14 (F := F) (m ((c.tc : Thread nD τ).loc main_arg1)) :=
  (keepC_v14 (VB m c)).trans (atB_v14 m c)
theorem atC_v16 : VC m c (Proc.devRef .tc main_v16) = val_main_v16 (F := F) (m ((c.tc : Thread nD τ).loc main_arg1)) :=
  (keepC_v16 (VB m c)).trans (atB_v16 m c)
theorem atC_v136 : VC m c (Proc.devRef .tc main_v136) = val_main_v136 (F := F) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  stretchC_v136 (VB m c) _ _ _ _ _ _ _ _ (atB_v76 m c) (atB_v14 m c) (atB_v16 m c) ((keepB_arg7 (VA m c)).trans ((keepA_arg7 (V0 m c)).trans rfl))
    ((keepB_arg8 (VA m c)).trans ((keepA_arg8 (V0 m c)).trans rfl))
    ((keepB_arg9 (VA m c)).trans ((keepA_arg9 (V0 m c)).trans rfl))
    ((keepB_arg10 (VA m c)).trans ((keepA_arg10 (V0 m c)).trans rfl))
    ((keepB_arg11 (VA m c)).trans ((keepA_arg11 (V0 m c)).trans rfl))

/-- After the fourth stretch: the third layer's output. -/
theorem atD_v196 : VD m c (Proc.devRef .tc main_v196) = val_main_v196 (F := F) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  stretchD_v196 (VC m c) _ _ _ _ _ _ _ _ (atC_v136 m c) (atC_v14 m c) (atC_v16 m c) ((keepC_arg7 (VB m c)).trans ((keepB_arg7 (VA m c)).trans ((keepA_arg7 (V0 m c)).trans rfl)))
    ((keepC_arg8 (VB m c)).trans ((keepB_arg8 (VA m c)).trans ((keepA_arg8 (V0 m c)).trans rfl)))
    ((keepC_arg9 (VB m c)).trans ((keepB_arg9 (VA m c)).trans ((keepA_arg9 (V0 m c)).trans rfl)))
    ((keepC_arg10 (VB m c)).trans ((keepB_arg10 (VA m c)).trans ((keepA_arg10 (V0 m c)).trans rfl)))
    ((keepC_arg11 (VB m c)).trans ((keepB_arg11 (VA m c)).trans ((keepA_arg11 (V0 m c)).trans rfl)))

end Chain

/-- The result as the last stage of the reference, read one operation at a time, of the launch contents of the arguments. -/
abbrev resultStage (m : (ℓ : Loc nD τ sig) → Buf (Elt F) ℓ) (c : Dev nD) : Buf (Elt F) ((c.tc : Thread nD τ).loc main_v225) :=
  val_main_v225 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-- The fold of all the operations over the launch contents leaves the result buffer at the last stage. -/
theorem result_eq (m : (ℓ : Loc nD τ sig) → Buf (Elt F) ℓ) (c : Dev nD) :
    after (ops (F := F)) (launchContents m c) (Proc.devRef .tc main_v225) = resultStage m c := by
  rw [ops_split]
  simp only [StableHlo.after_append]
  exact stretchE_v225 (VD m c) _ _ _ _ _ _ _ _ _ _ _ _ _ _ _ (atD_v196 m c) ((keepD_arg3 (VC m c)).trans ((keepC_arg3 (VB m c)).trans ((keepB_arg3 (VA m c)).trans ((keepA_arg3 (V0 m c)).trans rfl))))
    ((keepD_arg12 (VC m c)).trans ((keepC_arg12 (VB m c)).trans ((keepB_arg12 (VA m c)).trans ((keepA_arg12 (V0 m c)).trans rfl))))
    ((keepD_arg13 (VC m c)).trans ((keepC_arg13 (VB m c)).trans ((keepB_arg13 (VA m c)).trans ((keepA_arg13 (V0 m c)).trans rfl))))
    ((keepD_arg14 (VC m c)).trans ((keepC_arg14 (VB m c)).trans ((keepB_arg14 (VA m c)).trans ((keepA_arg14 (V0 m c)).trans rfl))))
    ((keepD_arg15 (VC m c)).trans ((keepC_arg15 (VB m c)).trans ((keepB_arg15 (VA m c)).trans ((keepA_arg15 (V0 m c)).trans rfl))))
    ((keepD_arg16 (VC m c)).trans ((keepC_arg16 (VB m c)).trans ((keepB_arg16 (VA m c)).trans ((keepA_arg16 (V0 m c)).trans rfl))))
    ((keepD_arg17 (VC m c)).trans ((keepC_arg17 (VB m c)).trans ((keepB_arg17 (VA m c)).trans ((keepA_arg17 (V0 m c)).trans rfl))))

/-- No operation writes an argument: the fold leaves each argument buffer as launched. -/
theorem args_eq (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3)
    ∧ after (ops (F := F)) (launchContents m c) (Proc.devRef .tc main_arg4) = m ((c.tc : Thread nD τ).loc main_arg4)
    ∧ after (ops (F := F)) (launchContents m c) (Proc.devRef .tc main_arg5) = m ((c.tc : Thread nD τ).loc main_arg5)
    ∧ after (ops (F := F)) (launchContents m c) (Proc.devRef .tc main_arg6) = m ((c.tc : Thread nD τ).loc main_arg6)
    ∧ after (ops (F := F)) (launchContents m c) (Proc.devRef .tc main_arg7) = m ((c.tc : Thread nD τ).loc main_arg7)
    ∧ after (ops (F := F)) (launchContents m c) (Proc.devRef .tc main_arg8) = m ((c.tc : Thread nD τ).loc main_arg8)
    ∧ after (ops (F := F)) (launchContents m c) (Proc.devRef .tc main_arg9) = m ((c.tc : Thread nD τ).loc main_arg9)
    ∧ after (ops (F := F)) (launchContents m c) (Proc.devRef .tc main_arg10) = m ((c.tc : Thread nD τ).loc main_arg10)
    ∧ after (ops (F := F)) (launchContents m c) (Proc.devRef .tc main_arg11) = m ((c.tc : Thread nD τ).loc main_arg11)
    ∧ after (ops (F := F)) (launchContents m c) (Proc.devRef .tc main_arg12) = m ((c.tc : Thread nD τ).loc main_arg12)
    ∧ after (ops (F := F)) (launchContents m c) (Proc.devRef .tc main_arg13) = m ((c.tc : Thread nD τ).loc main_arg13)
    ∧ after (ops (F := F)) (launchContents m c) (Proc.devRef .tc main_arg14) = m ((c.tc : Thread nD τ).loc main_arg14)
    ∧ after (ops (F := F)) (launchContents m c) (Proc.devRef .tc main_arg15) = m ((c.tc : Thread nD τ).loc main_arg15)
    ∧ after (ops (F := F)) (launchContents m c) (Proc.devRef .tc main_arg16) = m ((c.tc : Thread nD τ).loc main_arg16)
    ∧ after (ops (F := F)) (launchContents m c) (Proc.devRef .tc main_arg17) = m ((c.tc : Thread nD τ).loc main_arg17) := by
  rw [ops_split]
  simp only [StableHlo.after_append]
  exact ⟨((keepE_arg0 (VD m c)).trans ((keepD_arg0 (VC m c)).trans ((keepC_arg0 (VB m c)).trans ((keepB_arg0 (VA m c)).trans ((keepA_arg0 (V0 m c)).trans rfl))))),
    ((keepE_arg1 (VD m c)).trans ((keepD_arg1 (VC m c)).trans ((keepC_arg1 (VB m c)).trans ((keepB_arg1 (VA m c)).trans ((keepA_arg1 (V0 m c)).trans rfl))))),
    ((keepE_arg2 (VD m c)).trans ((keepD_arg2 (VC m c)).trans ((keepC_arg2 (VB m c)).trans ((keepB_arg2 (VA m c)).trans ((keepA_arg2 (V0 m c)).trans rfl))))),
    ((keepE_arg3 (VD m c)).trans ((keepD_arg3 (VC m c)).trans ((keepC_arg3 (VB m c)).trans ((keepB_arg3 (VA m c)).trans ((keepA_arg3 (V0 m c)).trans rfl))))),
    ((keepE_arg4 (VD m c)).trans ((keepD_arg4 (VC m c)).trans ((keepC_arg4 (VB m c)).trans ((keepB_arg4 (VA m c)).trans ((keepA_arg4 (V0 m c)).trans rfl))))),
    ((keepE_arg5 (VD m c)).trans ((keepD_arg5 (VC m c)).trans ((keepC_arg5 (VB m c)).trans ((keepB_arg5 (VA m c)).trans ((keepA_arg5 (V0 m c)).trans rfl))))),
    ((keepE_arg6 (VD m c)).trans ((keepD_arg6 (VC m c)).trans ((keepC_arg6 (VB m c)).trans ((keepB_arg6 (VA m c)).trans ((keepA_arg6 (V0 m c)).trans rfl))))),
    ((keepE_arg7 (VD m c)).trans ((keepD_arg7 (VC m c)).trans ((keepC_arg7 (VB m c)).trans ((keepB_arg7 (VA m c)).trans ((keepA_arg7 (V0 m c)).trans rfl))))),
    ((keepE_arg8 (VD m c)).trans ((keepD_arg8 (VC m c)).trans ((keepC_arg8 (VB m c)).trans ((keepB_arg8 (VA m c)).trans ((keepA_arg8 (V0 m c)).trans rfl))))),
    ((keepE_arg9 (VD m c)).trans ((keepD_arg9 (VC m c)).trans ((keepC_arg9 (VB m c)).trans ((keepB_arg9 (VA m c)).trans ((keepA_arg9 (V0 m c)).trans rfl))))),
    ((keepE_arg10 (VD m c)).trans ((keepD_arg10 (VC m c)).trans ((keepC_arg10 (VB m c)).trans ((keepB_arg10 (VA m c)).trans ((keepA_arg10 (V0 m c)).trans rfl))))),
    ((keepE_arg11 (VD m c)).trans ((keepD_arg11 (VC m c)).trans ((keepC_arg11 (VB m c)).trans ((keepB_arg11 (VA m c)).trans ((keepA_arg11 (V0 m c)).trans rfl))))),
    ((keepE_arg12 (VD m c)).trans ((keepD_arg12 (VC m c)).trans ((keepC_arg12 (VB m c)).trans ((keepB_arg12 (VA m c)).trans ((keepA_arg12 (V0 m c)).trans rfl))))),
    ((keepE_arg13 (VD m c)).trans ((keepD_arg13 (VC m c)).trans ((keepC_arg13 (VB m c)).trans ((keepB_arg13 (VA m c)).trans ((keepA_arg13 (V0 m c)).trans rfl))))),
    ((keepE_arg14 (VD m c)).trans ((keepD_arg14 (VC m c)).trans ((keepC_arg14 (VB m c)).trans ((keepB_arg14 (VA m c)).trans ((keepA_arg14 (V0 m c)).trans rfl))))),
    ((keepE_arg15 (VD m c)).trans ((keepD_arg15 (VC m c)).trans ((keepC_arg15 (VB m c)).trans ((keepB_arg15 (VA m c)).trans ((keepA_arg15 (V0 m c)).trans rfl))))),
    ((keepE_arg16 (VD m c)).trans ((keepD_arg16 (VC m c)).trans ((keepC_arg16 (VB m c)).trans ((keepB_arg16 (VA m c)).trans ((keepA_arg16 (V0 m c)).trans rfl))))),
    ((keepE_arg17 (VD m c)).trans ((keepD_arg17 (VC m c)).trans ((keepC_arg17 (VB m c)).trans ((keepB_arg17 (VA m c)).trans ((keepA_arg17 (V0 m c)).trans rfl)))))⟩

end Cert.ReferenceIdeal.RunP

end
-- ==== Proof.lean ====
/-
  The certificate's five claims.

  The three frames: the kernel program's two (at the bit level and over the extended reals) are the generated frame
  certificates; the reference's is its run with every buffer at the fold of its operations, of which only "the
  arguments end as launched" is kept.
  Preservation is vacuous: the idealization rewrote nothing.
  The value claim. Under the precondition every token index lies in [−100, 100) and every source index in
  [−100000, 100000), so each of the kernel program's fill-mode look-ups fills nothing and is the reference's plain
  gather. From there the two programs compute the same arrays stage by stage: the embedding rows; per layer the node
  transform h @ W (a blocked product against one whole product, the same sums), the rows gathered at the sources and
  added up at the destinations (the same host operations on equal arrays), and the gated update with its rectifier
  (the same entrywise formula over the same gate sums; the logistic function is 1 / (1 + e^(−x)) in both spellings);
  the per-graph sums and counts (a one-hot product accumulated over twenty blocks of 5000 nodes against a
  scatter-add: both are the sum over the nodes of a graph, an id outside [0, 256) contributing to neither); and the
  read-out (the same host operations). The result both runs end at is the reference's last stage of the arguments.
-/
import proofs.«428605_j28329604284558_1_alg».proof.Defs
import proofs.«428605_j28329604284558_1_alg».proof.Proof.Gen.Kernel
import proofs.«428605_j28329604284558_1_alg».proof.Proof.Gen.Kernel.Skeleton
import proofs.«428605_j28329604284558_1_alg».proof.Proof.Gen.Kernel.Launch
import proofs.«428605_j28329604284558_1_alg».proof.Proof.Gen.Kernel.Points
import proofs.«428605_j28329604284558_1_alg».proof.Proof.Gen.Kernel.Frame
import proofs.«428605_j28329604284558_1_alg».proof.Proof.Gen.KernelIdeal
import proofs.«428605_j28329604284558_1_alg».proof.Proof.Gen.KernelIdeal.Skeleton
import proofs.«428605_j28329604284558_1_alg».proof.Proof.Gen.KernelIdeal.Launch
import proofs.«428605_j28329604284558_1_alg».proof.Proof.Gen.KernelIdeal.Points
import proofs.«428605_j28329604284558_1_alg».proof.Proof.Gen.KernelIdeal.Frame
import proofs.«428605_j28329604284558_1_alg».proof.Proof.Gen.ReferenceIdeal
import proofs.«428605_j28329604284558_1_alg».proof.Proof.Gen.Pre_finite_inputs
import proofs.«428605_j28329604284558_1_alg».proof.Proof.KRun
import proofs.«428605_j28329604284558_1_alg».proof.Proof.KValue
import proofs.«428605_j28329604284558_1_alg».proof.Proof.PreDecode
import proofs.«428605_j28329604284558_1_alg».proof.Proof.RefRunValue
import Idealize.ShloMosaic.Adequacy
import Idealize.ShloMosaic.Init

set_option maxRecDepth 16384

noncomputable section

namespace Cert.Proof

open Idealize.ShloMosaic Idealize.SL.Sem

/-- The kernel program's frame at the bit level. -/
theorem frame_kernel : Cert.frame_Kernel := fun m ρ _ => Cert.Kernel.Gen.frame m ρ

/-- The kernel program's frame over the extended reals. -/
theorem frame_kernelIdeal : Cert.frame_KernelIdeal := fun m ρ _ => Cert.KernelIdeal.Gen.frame m ρ

/-- The reference's frame: its run, keeping only that the arguments end as launched. -/
theorem frame_referenceIdeal : Cert.frame_ReferenceIdeal := fun m ρ _ =>
  (θ_run Cert.ReferenceIdeal.defs _ _).mono (fun _ h c => by
    have ha := Cert.ReferenceIdeal.RunP.args_eq (F := Ideal) m c
    exact ⟨(h c _).trans ha.1,
      (h c _).trans ha.2.1,
      (h c _).trans ha.2.2.1,
      (h c _).trans ha.2.2.2.1,
      (h c _).trans ha.2.2.2.2.1,
      (h c _).trans ha.2.2.2.2.2.1,
      (h c _).trans ha.2.2.2.2.2.2.1,
      (h c _).trans ha.2.2.2.2.2.2.2.1,
      (h c _).trans ha.2.2.2.2.2.2.2.2.1,
      (h c _).trans ha.2.2.2.2.2.2.2.2.2.1,
      (h c _).trans ha.2.2.2.2.2.2.2.2.2.2.1,
      (h c _).trans ha.2.2.2.2.2.2.2.2.2.2.2.1,
      (h c _).trans ha.2.2.2.2.2.2.2.2.2.2.2.2.1,
      (h c _).trans ha.2.2.2.2.2.2.2.2.2.2.2.2.2.1,
      (h c _).trans ha.2.2.2.2.2.2.2.2.2.2.2.2.2.2.1,
      (h c _).trans ha.2.2.2.2.2.2.2.2.2.2.2.2.2.2.2.1,
      (h c _).trans ha.2.2.2.2.2.2.2.2.2.2.2.2.2.2.2.2.1,
      (h c _).trans ha.2.2.2.2.2.2.2.2.2.2.2.2.2.2.2.2.2⟩)
    (Cert.ReferenceIdeal.RunP.run_fold (F := Ideal) m ρ)

/-- Under the precondition every token index is in range … -/
theorem tokRange (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Chain.TokRange m c :=
  Cert.PreDecode.x_range_flat _ _ _ _ _ _ _ _ _ _ _ _ _ _ _ _ _ _ (hpre c) _

/-- … and every source index. -/
theorem srcRange (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Chain.SrcRange m c :=
  Cert.PreDecode.src_range _ _ _ _ _ _ _ _ _ _ _ _ _ _ _ _ _ _ (hpre c) _ _

/-- The two programs, run from memories that agree on the arguments, end with the same result: the reference's last
    stage of the arguments. -/
theorem algebraic : Cert.algebraic_KernelIdeal_ReferenceIdeal := by
  intro m ρ m' ρ' hpre hagree
  refine ⟨fun c => Cert.ReferenceIdeal.Stages.val_main_v225 (F := Ideal) (Cert.KernelIdeal.Chain.a0 m c) (Cert.KernelIdeal.Chain.a1 m c) (Cert.KernelIdeal.Chain.a3 m c) (Cert.KernelIdeal.Chain.a4 m c) (Cert.KernelIdeal.Chain.a7 m c) (Cert.KernelIdeal.Chain.a8 m c) (Cert.KernelIdeal.Chain.a9 m c) (Cert.KernelIdeal.Chain.a10 m c) (Cert.KernelIdeal.Chain.a11 m c) (Cert.KernelIdeal.Chain.a12 m c) (Cert.KernelIdeal.Chain.a13 m c) (Cert.KernelIdeal.Chain.a14 m c) (Cert.KernelIdeal.Chain.a15 m c) (Cert.KernelIdeal.Chain.a16 m c) (Cert.KernelIdeal.Chain.a17 m c), ?_, ?_⟩
  · exact (θ_run Cert.KernelIdeal.defs _ _).mono
      (fun r h c => ⟨(h c).1.trans (Cert.KernelIdeal.Chain.kernel_value m ρ c (tokRange m hpre c) (srcRange m hpre c)), (h c).2⟩)
      (Cert.KernelIdeal.GenRun.run_result (F := Ideal) m ρ)
  · refine (θ_run Cert.ReferenceIdeal.defs _ _).mono (fun r h c => ?_) (Cert.ReferenceIdeal.RunP.run_fold (F := Ideal) m' ρ')
    have ha := Cert.ReferenceIdeal.RunP.args_eq (F := Ideal) m' c
    obtain ⟨e0, e1, e2, e3, e4, e5, e6, e7, e8, e9, e10, e11, e12, e13, e14, e15, e16, e17⟩ := hagree c
    refine ⟨?_, (h c _).trans ha.1, (h c _).trans ha.2.1, (h c _).trans ha.2.2.1, (h c _).trans ha.2.2.2.1, (h c _).trans ha.2.2.2.2.1, (h c _).trans ha.2.2.2.2.2.1, (h c _).trans ha.2.2.2.2.2.2.1, (h c _).trans ha.2.2.2.2.2.2.2.1, (h c _).trans ha.2.2.2.2.2.2.2.2.1, (h c _).trans ha.2.2.2.2.2.2.2.2.2.1, (h c _).trans ha.2.2.2.2.2.2.2.2.2.2.1, (h c _).trans ha.2.2.2.2.2.2.2.2.2.2.2.1, (h c _).trans ha.2.2.2.2.2.2.2.2.2.2.2.2.1, (h c _).trans ha.2.2.2.2.2.2.2.2.2.2.2.2.2.1, (h c _).trans ha.2.2.2.2.2.2.2.2.2.2.2.2.2.2.1, (h c _).trans ha.2.2.2.2.2.2.2.2.2.2.2.2.2.2.2.1, (h c _).trans ha.2.2.2.2.2.2.2.2.2.2.2.2.2.2.2.2.1, (h c _).trans ha.2.2.2.2.2.2.2.2.2.2.2.2.2.2.2.2.2⟩
    refine ((h c _).trans (Cert.ReferenceIdeal.RunP.result_eq (F := Ideal) m' c)).trans ?_
    show Cert.ReferenceIdeal.Stages.val_main_v225 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [e0, e1, e3, e4, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
